-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x320000 : Shape := ⟨2, ![2, 320000]⟩
abbrev S10000 : Shape := ⟨1, ![10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x320000 : S_.BroadcastsInDim S2x320000 (![] : Fin 0 → Fin S2x320000.rank)
  reducesTo_S2x320000_S_d0_1 : S2x320000.ReducesTo [0, 1] S_

variable [Facts]

def fn_part2 {F : FTy → Type} [FloatOps F] (main_arg1 : IVec S2x320000 32) (main_arg9 : FVec F S256x128 .f32) (main_arg10 : FVec F S128 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S2x320000 32 := broadcastInDim S2x320000 ![] bcast_S_S2x320000 main_c_16
  let main_v45 : IVec S2x320000 1 := cmpi .sge main_arg1 main_v44
  let main_c_17 : IVec S_ 32 := constantI S_ 32 10000#32
  let main_v46 : IVec S2x320000 32 := broadcastInDim S2x320000 ![] bcast_S_S2x320000 main_c_17
  let main_v47 : IVec S2x320000 1 := cmpi .slt main_arg1 main_v46
  let main_v48 : IVec S2x320000 1 := andi main_v45 main_v47
  let main_c_18 : IVec S_ 1 := constantI S_ 1 1#1
  let main_v49 : IVec S_ 1 := (fun x v => Host.reduce IntOp.andi x v reducesTo_S2x320000_S_d0_1 h_S_) main_v48 main_c_18
  let main_v50 : IVec S_ 1 := andi main_v43 main_v49
  main_v50

def fn_part1 {F : FTy → Type} [FloatOps F] (main_arg1 : IVec S2x320000 32) (main_arg6 : FVec F S256 .f32) (main_arg7 : FVec F S256x256 .f32) (main_arg8 : FVec F S256 .f32) (main_arg9 : FVec F S256x128 .f32) (main_arg10 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg9 main_arg10 main_v33

def fn {F : FTy → Type} [FloatOps F] (main_arg0 : FVec F S10000x256 .f32) (main_arg1 : IVec S2x320000 32) (main_arg2 : IVec S10000 32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256x128 .f32) (main_arg10 : FVec F S128 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg6 main_arg7 main_arg8 main_arg9 main_arg10 main_v13 main_v16
-- ==== Kernel.lean ====
abbrev S10000x256 : Shape := ⟨2, ![10000, 256]⟩
abbrev S2x320000 : Shape := ⟨2, ![2, 320000]⟩
abbrev S10000 : Shape := ⟨1, ![10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x320000 : Shape := ⟨2, ![1, 320000]⟩
abbrev S320000 : Shape := ⟨1, ![320000]⟩
abbrev S330000 : Shape := ⟨1, ![330000]⟩
abbrev S_ : Shape := ⟨0, ![]⟩
abbrev S10240 : Shape := ⟨1, ![10240]⟩
abbrev S330000x1 : Shape := ⟨2, ![330000, 1]⟩
abbrev S104857600 : Shape := ⟨1, ![104857600]⟩
abbrev S10240x10240 : Shape := ⟨2, ![10240, 10240]⟩
abbrev S128x1 : Shape := ⟨2, ![128, 1]⟩
abbrev S1x10000 : Shape := ⟨2, ![1, 10000]⟩
abbrev S128x10000 : Shape := ⟨2, ![128, 10000]⟩
abbrev S128x10240 : Shape := ⟨2, ![128, 10240]⟩
abbrev S10240x256 : Shape := ⟨2, ![10240, 256]⟩
abbrev S1x256 : Shape := ⟨2, ![1, 256]⟩
abbrev S1x128 : Shape := ⟨2, ![1, 128]⟩
abbrev S128x128 : Shape := ⟨2, ![128, 128]⟩
abbrev S640x256 : Shape := ⟨2, ![640, 256]⟩
abbrev S640x10240 : Shape := ⟨2, ![640, 10240]⟩
abbrev S128x256 : Shape := ⟨2, ![128, 256]⟩

abbrev nBuf : Space → Nat
  | .hbm => 99
  | .vmem => 30
  | .smem => 0
  | _ => 0

abbrev bufTy : (tb : Table) → Fin (tcTables nBuf tb) → BufTy
  | .hbm, ⟨0, _⟩ => ⟨S10000x256, .f32⟩
  | .hbm, ⟨1, _⟩ => ⟨S2x320000, .i32⟩
  | .hbm, ⟨2, _⟩ => ⟨S10000, .i32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S10000, .i32⟩
  | .hbm, ⟨12, _⟩ => ⟨S1x320000, .i32⟩
  | .hbm, ⟨13, _⟩ => ⟨S320000, .i32⟩
  | .hbm, ⟨14, _⟩ => ⟨S330000, .i32⟩
  | .hbm, ⟨15, _⟩ => ⟨S1x320000, .i32⟩
  | .hbm, ⟨16, _⟩ => ⟨S320000, .i32⟩
  | .hbm, ⟨17, _⟩ => ⟨S330000, .i32⟩
  | .hbm, ⟨18, _⟩ => ⟨S_, .f32⟩
  | .hbm, ⟨19, _⟩ => ⟨S330000, .f32⟩
  | .hbm, ⟨20, _⟩ => ⟨S_, .f32⟩
  | .hbm, ⟨21, _⟩ => ⟨S10240, .f32⟩
  | .hbm, ⟨22, _⟩ => ⟨S330000x1, .i32⟩
  | .hbm, ⟨23, _⟩ => ⟨S10240, .f32⟩
  | .hbm, ⟨24, _⟩ => ⟨S_, .f32⟩
  | .hbm, ⟨25, _⟩ => ⟨S10240, .f32⟩
  | .hbm, ⟨26, _⟩ => ⟨S10240, .i1⟩
  | .hbm, ⟨27, _⟩ => ⟨S_, .f32⟩
  | .hbm, ⟨28, _⟩ => ⟨S10240, .f32⟩
  | .hbm, ⟨29, _⟩ => ⟨S10240, .f32⟩
  | .hbm, ⟨30, _⟩ => ⟨S10240, .f32⟩
  | .hbm, ⟨31, _⟩ => ⟨S_, .f32⟩
  | .hbm, ⟨32, _⟩ => ⟨S_, .f32⟩
  | .hbm, ⟨33, _⟩ => ⟨S10240, .f32⟩
  | .hbm, ⟨34, _⟩ => ⟨S10240, .f32⟩
  | .hbm, ⟨35, _⟩ => ⟨S_, .i32⟩
  | .hbm, ⟨36, _⟩ => ⟨S330000, .i32⟩
  | .hbm, ⟨37, _⟩ => ⟨S330000, .i1⟩
  | .hbm, ⟨38, _⟩ => ⟨S_, .i32⟩
  | .hbm, ⟨39, _⟩ => ⟨S330000, .i32⟩
  | .hbm, ⟨40, _⟩ => ⟨S330000, .i32⟩
  | .hbm, ⟨41, _⟩ => ⟨S330000, .i32⟩
  | .hbm, ⟨42, _⟩ => ⟨S330000x1, .i32⟩
  | .hbm, ⟨43, _⟩ => ⟨S330000, .f32⟩
  | .hbm, ⟨44, _⟩ => ⟨S_, .i32⟩
  | .hbm, ⟨45, _⟩ => ⟨S330000, .i32⟩
  | .hbm, ⟨46, _⟩ => ⟨S330000, .i1⟩
  | .hbm, ⟨47, _⟩ => ⟨S_, .i32⟩
  | .hbm, ⟨48, _⟩ => ⟨S330000, .i32⟩
  | .hbm, ⟨49, _⟩ => ⟨S330000, .i32⟩
  | .hbm, ⟨50, _⟩ => ⟨S330000, .i32⟩
  | .hbm, ⟨51, _⟩ => ⟨S330000x1, .i32⟩
  | .hbm, ⟨52, _⟩ => ⟨S330000, .f32⟩
  | .hbm, ⟨53, _⟩ => ⟨S330000, .f32⟩
  | .hbm, ⟨54, _⟩ => ⟨S_, .i32⟩
  | .hbm, ⟨55, _⟩ => ⟨S330000, .i32⟩
  | .hbm, ⟨56, _⟩ => ⟨S330000, .i32⟩
  | .hbm, ⟨57, _⟩ => ⟨S330000, .i32⟩
  | .hbm, ⟨58, _⟩ => ⟨S_, .f32⟩
  | .hbm, ⟨59, _⟩ => ⟨S104857600, .f32⟩
  | .hbm, ⟨60, _⟩ => ⟨S330000x1, .i32⟩
  | .hbm, ⟨61, _⟩ => ⟨S104857600, .f32⟩
  | .hbm, ⟨62, _⟩ => ⟨S10240x10240, .f32⟩
  | .hbm, ⟨63, _⟩ => ⟨S10240x10240, .bf16⟩
  | .hbm, ⟨64, _⟩ => ⟨S128, .i32⟩
  | .hbm, ⟨65, _⟩ => ⟨S128x1, .i32⟩
  | .hbm, ⟨66, _⟩ => ⟨S1x10000, .i32⟩
  | .hbm, ⟨67, _⟩ => ⟨S128x10000, .i32⟩
  | .hbm, ⟨68, _⟩ => ⟨S128x10000, .i32⟩
  | .hbm, ⟨69, _⟩ => ⟨S128x10000, .i1⟩
  | .hbm, ⟨70, _⟩ => ⟨S128x10000, .f32⟩
  | .hbm, ⟨71, _⟩ => ⟨S_, .f32⟩
  | .hbm, ⟨72, _⟩ => ⟨S128, .f32⟩
  | .hbm, ⟨73, _⟩ => ⟨S128x1, .f32⟩
  | .hbm, ⟨74, _⟩ => ⟨S_, .f32⟩
  | .hbm, ⟨75, _⟩ => ⟨S128x1, .f32⟩
  | .hbm, ⟨76, _⟩ => ⟨S128x1, .f32⟩
  | .hbm, ⟨77, _⟩ => ⟨S128x10000, .f32⟩
  | .hbm, ⟨78, _⟩ => ⟨S128x10000, .f32⟩
  | .hbm, ⟨79, _⟩ => ⟨S_, .i32⟩
  | .hbm, ⟨80, _⟩ => ⟨S_, .f32⟩
  | .hbm, ⟨81, _⟩ => ⟨S128x10240, .f32⟩
  | .hbm, ⟨82, _⟩ => ⟨S128x10240, .bf16⟩
  | .hbm, ⟨83, _⟩ => ⟨S_, .i32⟩
  | .hbm, ⟨84, _⟩ => ⟨S_, .f32⟩
  | .hbm, ⟨85, _⟩ => ⟨S10240x256, .f32⟩
  | .hbm, ⟨86, _⟩ => ⟨S10240x256, .bf16⟩
  | .hbm, ⟨87, _⟩ => ⟨S256x256, .bf16⟩
  | .hbm, ⟨88, _⟩ => ⟨S256x256, .bf16⟩
  | .hbm, ⟨89, _⟩ => ⟨S256x256, .bf16⟩
  | .hbm, ⟨90, _⟩ => ⟨S1x256, .f32⟩
  | .hbm, ⟨91, _⟩ => ⟨S1x256, .f32⟩
  | .hbm, ⟨92, _⟩ => ⟨S1x256, .f32⟩
  | .hbm, ⟨93, _⟩ => ⟨S1x128, .f32⟩
  | .hbm, ⟨94, _⟩ => ⟨S10240x256, .bf16⟩
  | .hbm, ⟨95, _⟩ => ⟨S10240x256, .bf16⟩
  | .hbm, ⟨96, _⟩ => ⟨S10240x256, .bf16⟩
  | .hbm, ⟨97, _⟩ => ⟨S10240x256, .bf16⟩
  | .hbm, ⟨98, _⟩ => ⟨S128x128, .f32⟩
  | .local _ .vmem, ⟨0, _⟩ => ⟨S640x256, .bf16⟩
  | .local _ .vmem, ⟨1, _⟩ => ⟨S640x256, .bf16⟩
  | .local _ .vmem, ⟨2, _⟩ => ⟨S256x256, .bf16⟩
  | .local _ .vmem, ⟨3, _⟩ => ⟨S640x256, .bf16⟩
  | .local _ .vmem, ⟨4, _⟩ => ⟨S640x256, .bf16⟩
  | .local _ .vmem, ⟨5, _⟩ => ⟨S640x10240, .bf16⟩
  | .local _ .vmem, ⟨6, _⟩ => ⟨S640x10240, .bf16⟩
  | .local _ .vmem, ⟨7, _⟩ => ⟨S10240x256, .bf16⟩
  | .local _ .vmem, ⟨8, _⟩ => ⟨S1x256, .f32⟩
  | .local _ .vmem, ⟨9, _⟩ => ⟨S256x256, .bf16⟩
  | .local _ .vmem, ⟨10, _⟩ => ⟨S640x256, .bf16⟩
  | .local _ .vmem, ⟨11, _⟩ => ⟨S640x256, .bf16⟩
  | .local _ .vmem, ⟨12, _⟩ => ⟨S640x10240, .bf16⟩
  | .local _ .vmem, ⟨13, _⟩ => ⟨S640x10240, .bf16⟩
  | .local _ .vmem, ⟨14, _⟩ => ⟨S10240x256, .bf16⟩
  | .local _ .vmem, ⟨15, _⟩ => ⟨S1x256, .f32⟩
  | .local _ .vmem, ⟨16, _⟩ => ⟨S256x256, .bf16⟩
  | .local _ .vmem, ⟨17, _⟩ => ⟨S640x256, .bf16⟩
  | .local _ .vmem, ⟨18, _⟩ => ⟨S640x256, .bf16⟩
  | .local _ .vmem, ⟨19, _⟩ => ⟨S640x10240, .bf16⟩
  | .local _ .vmem, ⟨20, _⟩ => ⟨S640x10240, .bf16⟩
  | .local _ .vmem, ⟨21, _⟩ => ⟨S10240x256, .bf16⟩
  | .local _ .vmem, ⟨22, _⟩ => ⟨S1x256, .f32⟩
  | .local _ .vmem, ⟨23, _⟩ => ⟨S640x256, .bf16⟩
  | .local _ .vmem, ⟨24, _⟩ => ⟨S640x256, .bf16⟩
  | .local _ .vmem, ⟨25, _⟩ => ⟨S128x10240, .bf16⟩
  | .local _ .vmem, ⟨26, _⟩ => ⟨S10240x256, .bf16⟩
  | .local _ .vmem, ⟨27, _⟩ => ⟨S256x128, .f32⟩
  | .local _ .vmem, ⟨28, _⟩ => ⟨S1x128, .f32⟩
  | .local _ .vmem, ⟨29, _⟩ => ⟨S128x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst : Ref sig .tc := ⟨.hbm, 18, rfl⟩
abbrev main_call0_v7 : Ref sig .tc := ⟨.hbm, 19, rfl⟩
abbrev main_call0_cst_0 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_cst_1 : Ref sig .tc := ⟨.hbm, 24, rfl⟩
abbrev main_call0_v11 : Ref sig .tc := ⟨.hbm, 25, rfl⟩
abbrev main_call0_v12 : Ref sig .tc := ⟨.hbm, 26, rfl⟩
abbrev main_call0_cst_2 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_cst_3 : Ref sig .tc := ⟨.hbm, 31, rfl⟩
abbrev main_call0_call0_v0 : Ref sig .tc := ⟨.hbm, 32, rfl⟩
abbrev main_call0_call0_v1 : Ref sig .tc := ⟨.hbm, 33, rfl⟩
abbrev main_call0_v16 : Ref sig .tc := ⟨.hbm, 34, rfl⟩
abbrev main_call0_c : Ref sig .tc := ⟨.hbm, 35, rfl⟩
abbrev main_call0_v17 : Ref sig .tc := ⟨.hbm, 36, rfl⟩
abbrev main_call0_v18 : Ref sig .tc := ⟨.hbm, 37, rfl⟩
abbrev main_call0_c_4 : Ref sig .tc := ⟨.hbm, 38, rfl⟩
abbrev main_call0_v19 : Ref sig .tc := ⟨.hbm, 39, rfl⟩
abbrev main_call0_v20 : Ref sig .tc := ⟨.hbm, 40, rfl⟩
abbrev main_call0_v21 : Ref sig .tc := ⟨.hbm, 41, rfl⟩
abbrev main_call0_v22 : Ref sig .tc := ⟨.hbm, 42, rfl⟩
abbrev main_call0_v23 : Ref sig .tc := ⟨.hbm, 43, rfl⟩
abbrev main_call0_c_5 : Ref sig .tc := ⟨.hbm, 44, rfl⟩
abbrev main_call0_v24 : Ref sig .tc := ⟨.hbm, 45, rfl⟩
abbrev main_call0_v25 : Ref sig .tc := ⟨.hbm, 46, rfl⟩
abbrev main_call0_c_6 : Ref sig .tc := ⟨.hbm, 47, rfl⟩
abbrev main_call0_v26 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_call0_v30 : Ref sig .tc := ⟨.hbm, 52, rfl⟩
abbrev main_call0_v31 : Ref sig .tc := ⟨.hbm, 53, rfl⟩
abbrev main_call0_c_7 : Ref sig .tc := ⟨.hbm, 54, rfl⟩
abbrev main_call0_v32 : Ref sig .tc := ⟨.hbm, 55, rfl⟩
abbrev main_call0_v33 : Ref sig .tc := ⟨.hbm, 56, rfl⟩
abbrev main_call0_v34 : Ref sig .tc := ⟨.hbm, 57, rfl⟩
abbrev main_call0_cst_8 : Ref sig .tc := ⟨.hbm, 58, rfl⟩
abbrev main_call0_v35 : Ref sig .tc := ⟨.hbm, 59, rfl⟩
abbrev main_call0_v36 : Ref sig .tc := ⟨.hbm, 60, rfl⟩
abbrev main_call0_v37 : Ref sig .tc := ⟨.hbm, 61, rfl⟩
abbrev main_call0_v38 : Ref sig .tc := ⟨.hbm, 62, rfl⟩
abbrev main_call0_v39 : Ref sig .tc := ⟨.hbm, 63, rfl⟩
abbrev main_call0_v40 : Ref sig .tc := ⟨.hbm, 64, rfl⟩
abbrev main_call0_v41 : Ref sig .tc := ⟨.hbm, 65, rfl⟩
abbrev main_call0_v42 : Ref sig .tc := ⟨.hbm, 66, rfl⟩
abbrev main_call0_v43 : Ref sig .tc := ⟨.hbm, 67, rfl⟩
abbrev main_call0_v44 : Ref sig .tc := ⟨.hbm, 68, rfl⟩
abbrev main_call0_v45 : Ref sig .tc := ⟨.hbm, 69, rfl⟩
abbrev main_call0_v46 : Ref sig .tc := ⟨.hbm, 70, rfl⟩
abbrev main_call0_cst_9 : Ref sig .tc := ⟨.hbm, 71, rfl⟩
abbrev main_call0_v47 : Ref sig .tc := ⟨.hbm, 72, rfl⟩
abbrev main_call0_v48 : Ref sig .tc := ⟨.hbm, 73, rfl⟩
abbrev main_call0_cst_10 : Ref sig .tc := ⟨.hbm, 74, rfl⟩
abbrev main_call0_v49 : Ref sig .tc := ⟨.hbm, 75, rfl⟩
abbrev main_call0_v50 : Ref sig .tc := ⟨.hbm, 76, rfl⟩
abbrev main_call0_v51 : Ref sig .tc := ⟨.hbm, 77, rfl⟩
abbrev main_call0_v52 : Ref sig .tc := ⟨.hbm, 78, rfl⟩
abbrev main_call0_c_11 : Ref sig .tc := ⟨.hbm, 79, rfl⟩
abbrev main_call0_call1_v0 : Ref sig .tc := ⟨.hbm, 80, rfl⟩
abbrev main_call0_v53 : Ref sig .tc := ⟨.hbm, 81, rfl⟩
abbrev main_call0_v54 : Ref sig .tc := ⟨.hbm, 82, rfl⟩
abbrev main_call0_c_12 : Ref sig .tc := ⟨.hbm, 83, rfl⟩
abbrev main_call0_call2_v0 : Ref sig .tc := ⟨.hbm, 84, rfl⟩
abbrev main_call0_v55 : Ref sig .tc := ⟨.hbm, 85, rfl⟩
abbrev main_call0_v56 : Ref sig .tc := ⟨.hbm, 86, rfl⟩
abbrev main_call0_v57 : Ref sig .tc := ⟨.hbm, 87, rfl⟩
abbrev main_call0_v58 : Ref sig .tc := ⟨.hbm, 88, rfl⟩
abbrev main_call0_v59 : Ref sig .tc := ⟨.hbm, 89, rfl⟩
abbrev main_call0_v60 : Ref sig .tc := ⟨.hbm, 90, rfl⟩
abbrev main_call0_v61 : Ref sig .tc := ⟨.hbm, 91, rfl⟩
abbrev main_call0_v62 : Ref sig .tc := ⟨.hbm, 92, rfl⟩
abbrev main_call0_v63 : Ref sig .tc := ⟨.hbm, 93, rfl⟩
abbrev main_call0_v64 : Ref sig .tc := ⟨.hbm, 94, rfl⟩
abbrev main_call0_v65 : Ref sig .tc := ⟨.hbm, 95, rfl⟩
abbrev main_call0_v66 : Ref sig .tc := ⟨.hbm, 96, rfl⟩
abbrev main_call0_v67 : Ref sig .tc := ⟨.hbm, 97, rfl⟩
abbrev main_v0 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem4_0 : DmaSem sig := 17
abbrev cc2_sem4_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem3_1 : DmaSem sig := 24
abbrev cc4_sem0_0 : DmaSem sig := 25
abbrev cc4_sem1_0 : DmaSem sig := 26
abbrev cc4_sem2_0 : DmaSem sig := 27
abbrev cc4_sem3_0 : DmaSem sig := 28
abbrev cc4_sem4_0 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S640x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S640x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S640x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S640x10240 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10240x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S640x256 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S640x10240 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10240x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S640x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S128x10240 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S10240x256 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10240 : S_.BroadcastsInDim S10240 (![] : Fin 0 → Fin S10240.rank)
  bcast_S330000_S330000x1_0 : S330000.BroadcastsInDim S330000x1 (![0] : Fin 1 → Fin S330000x1.rank)
  bcast_S_S104857600 : S_.BroadcastsInDim S104857600 (![] : Fin 0 → Fin S104857600.rank)
  shapeCasts_S104857600_S10240x10240 : S104857600.ShapeCasts S10240x10240
  bitsLt_bf16_f32 : FTy.bits .bf16 < FTy.bits .f32
  bcast_S128_S128x1_0 : S128.BroadcastsInDim S128x1 (![0] : Fin 1 → Fin S128x1.rank)
  bcast_S10000_S1x10000_1 : S10000.BroadcastsInDim S1x10000 (![1] : Fin 1 → Fin S1x10000.rank)
  bcast_S1x10000_S128x10000_0_1 : S1x10000.BroadcastsInDim S128x10000 (![0, 1] : Fin 2 → Fin S128x10000.rank)
  bcast_S128x1_S128x10000_0_1 : S128x1.BroadcastsInDim S128x10000 (![0, 1] : Fin 2 → Fin S128x10000.rank)
  reducesTo_S128x10000_S128_d1 : S128x10000.ReducesTo [1] S128
  h_S_ : 0 < S_.numel
  bcast_S_S128x1 : S_.BroadcastsInDim S128x1 (![] : Fin 0 → Fin S128x1.rank)
  pads_S128x10000_S128x10240_000_02400 : S128x10000.Pads (![0, 0] : Fin 2 → Nat) ![0, 240] ![0, 0] S128x10240
  pads_S10000x256_S10240x256_02400_000 : S10000x256.Pads (![0, 0] : Fin 2 → Nat) ![240, 0] ![0, 0] S10240x256
  shapeCasts_S256_S1x256 : S256.ShapeCasts S1x256
  shapeCasts_S128_S1x128 : S128.ShapeCasts S1x128
  inb_S640x256_S640x256_0_0 : ∀ a, (![0, 0] : Fin 2 → Nat) a + S640x256.size a ≤ S640x256.size a
  h_S640x256 : 0 < S640x256.numel
  shapeCasts_S640x256_S640x256 : S640x256.ShapeCasts S640x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  packedbf16_S640x256_S640x256_0_0 : (Rect.unit (s := S640x256) ![0, 0] S640x256.size inb_S640x256_S640x256_0_0).PackedRows (EltTy.packing .bf16)
  inb_S640x10240_S640x10240_0_0 : ∀ a, (![0, 0] : Fin 2 → Nat) a + S640x10240.size a ≤ S640x10240.size a
  h_S640x10240 : 0 < S640x10240.numel
  shapeCasts_S640x10240_S640x10240 : S640x10240.ShapeCasts S640x10240
  inb_S10240x256_S10240x256_0_0 : ∀ a, (![0, 0] : Fin 2 → Nat) a + S10240x256.size a ≤ S10240x256.size a
  h_S10240x256 : 0 < S10240x256.numel
  shapeCasts_S10240x256_S10240x256 : S10240x256.ShapeCasts S10240x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S640x256 : S1x256.Broadcasts S640x256
  iota_S640x256_d0_w32 : S640x256.Iotas .tc 32 [0]
  inb_S128x10240_S128x10240_0_0 : ∀ a, (![0, 0] : Fin 2 → Nat) a + S128x10240.size a ≤ S128x10240.size a
  h_S128x10240 : 0 < S128x10240.numel
  shapeCasts_S128x10240_S128x10240 : S128x10240.ShapeCasts S128x10240
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  inb_S128x128_S128x128_0_0 : ∀ a, (![0, 0] : Fin 2 → Nat) a + S128x128.size a ≤ S128x128.size a
  h_S128x128 : 0 < S128x128.numel
  scatter_S10240_S330000x1_S330000_n_0_0_1_wf : ScatterDims.WF S10240 S330000x1 S330000 [] [0] [0] 1
  gather_S10240_S330000x1_S330000_n_0_n_n_0_1_1_wf : GatherDims.WF S10240 S330000x1 S330000 [] [0] [] [0] [] 1 ![1]
  scatter_S104857600_S330000x1_S330000_n_0_0_1_wf : ScatterDims.WF S104857600 S330000x1 S330000 [] [0] [0] 1
  dot_S640x256_S256x256_S640x256_1_0_0_1_n_n_wf : DotDims.WF S640x256 S256x256 S640x256 [1] [0] [0] [1] [] []
  dot_S640x10240_S10240x256_S640x256_1_0_0_1_n_n_wf : DotDims.WF S640x10240 S10240x256 S640x256 [1] [0] [0] [1] [] []
  dot_S128x10240_S10240x256_S128x256_1_0_0_1_n_n_wf : DotDims.WF S128x10240 S10240x256 S128x256 [1] [0] [0] [1] [] []
  dot_S128x256_S256x128_S128x128_1_0_0_1_n_n_wf : DotDims.WF S128x256 S256x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S640x256.size a ≤ S10240x256.size a
  hwx0_0 : ∀ i : grid0.Coords, EltTy.bits .bf16 = 32 ∨ (Rect.block (s := S10240x256) S640x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S640x256.size a ≤ S10240x256.size a
  hwx0_2 : ∀ i : grid0.Coords, EltTy.bits .bf16 = 32 ∨ (Rect.block (s := S10240x256) S640x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S640x10240.size a ≤ S10240x10240.size a
  hwx1_0 : ∀ i : grid1.Coords, EltTy.bits .bf16 = 32 ∨ (Rect.block (s := S10240x10240) S640x10240.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x256.size a ≤ S10240x256.size a
  hwx1_1 : ∀ i : grid1.Coords, EltTy.bits .bf16 = 32 ∨ (Rect.block (s := S10240x256) S10240x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S640x256.size a ≤ S10240x256.size a
  hwx1_4 : ∀ i : grid1.Coords, EltTy.bits .bf16 = 32 ∨ (Rect.block (s := S10240x256) S640x256.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S640x10240.size a ≤ S10240x10240.size a
  hwx2_0 : ∀ i : grid2.Coords, EltTy.bits .bf16 = 32 ∨ (Rect.block (s := S10240x10240) S640x10240.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10240x256.size a ≤ S10240x256.size a
  hwx2_1 : ∀ i : grid2.Coords, EltTy.bits .bf16 = 32 ∨ (Rect.block (s := S10240x256) S10240x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .bf16 = 32 ∨ (Rect.block (s := S256x256) S256x256.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S640x256.size a ≤ S10240x256.size a
  hwx2_4 : ∀ i : grid2.Coords, EltTy.bits .bf16 = 32 ∨ (Rect.block (s := S10240x256) S640x256.size (cc2_transform_4 i) (hinb2_4 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S640x10240.size a ≤ S10240x10240.size a
  hwx3_0 : ∀ i : grid3.Coords, EltTy.bits .bf16 = 32 ∨ (Rect.block (s := S10240x10240) S640x10240.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10240x256.size a ≤ S10240x256.size a
  hwx3_1 : ∀ i : grid3.Coords, EltTy.bits .bf16 = 32 ∨ (Rect.block (s := S10240x256) S10240x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S640x256.size a ≤ S10240x256.size a
  hwx3_3 : ∀ i : grid3.Coords, EltTy.bits .bf16 = 32 ∨ (Rect.block (s := S10240x256) S640x256.size (cc3_transform_3 i) (hinb3_3 i)).WholeWords (EltTy.packing .bf16)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S128x10240.size a ≤ S128x10240.size a
  hwx4_0 : ∀ i : grid4.Coords, EltTy.bits .bf16 = 32 ∨ (Rect.block (s := S128x10240) S128x10240.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10240x256.size a ≤ S10240x256.size a
  hwx4_1 : ∀ i : grid4.Coords, EltTy.bits .bf16 = 32 ∨ (Rect.block (s := S10240x256) S10240x256.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256x128.size a ≤ S256x128.size a
  hwx4_2 : ∀ i : grid4.Coords, EltTy.bits .f32 = 32 ∨ (Rect.block (s := S256x128) S256x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)

variable [Facts₀]

def scatter_S10240_S330000x1_S330000_n_0_0_1 : ScatterDims S10240 S330000x1 S330000 where
  updateWindowDims := []
  insertedWindowDims := [0]
  scatterDimsToOperandDims := [0]
  indexVectorDim := 1
  wf := scatter_S10240_S330000x1_S330000_n_0_0_1_wf
def gather_S10240_S330000x1_S330000_n_0_n_n_0_1_1 : GatherDims S10240 S330000x1 S330000 where
  offsetDims := []
  collapsedSliceDims := [0]
  operandBatchingDims := []
  startIndicesBatchingDims := []
  startIndexMap := [0]
  indexVectorDim := 1
  sliceSizes := ![1]
  wf := gather_S10240_S330000x1_S330000_n_0_n_n_0_1_1_wf
def scatter_S104857600_S330000x1_S330000_n_0_0_1 : ScatterDims S104857600 S330000x1 S330000 where
  updateWindowDims := []
  insertedWindowDims := [0]
  scatterDimsToOperandDims := [0]
  indexVectorDim := 1
  wf := scatter_S104857600_S330000x1_S330000_n_0_0_1_wf
def dot_S640x256_S256x256_S640x256_1_0_0_1_n_n : DotDims S640x256 S256x256 S640x256 where
  lhsContracting := [1]
  rhsContracting := [0]
  lhsNonContracting := [0]
  rhsNonContracting := [1]
  lhsBatch := []
  rhsBatch := []
  wf := dot_S640x256_S256x256_S640x256_1_0_0_1_n_n_wf
def dot_S640x10240_S10240x256_S640x256_1_0_0_1_n_n : DotDims S640x10240 S10240x256 S640x256 where
  lhsContracting := [1]
  rhsContracting := [0]
  lhsNonContracting := [0]
  rhsNonContracting := [1]
  lhsBatch := []
  rhsBatch := []
  wf := dot_S640x10240_S10240x256_S640x256_1_0_0_1_n_n_wf
def dot_S128x10240_S10240x256_S128x256_1_0_0_1_n_n : DotDims S128x10240 S10240x256 S128x256 where
  lhsContracting := [1]
  rhsContracting := [0]
  lhsNonContracting := [0]
  rhsNonContracting := [1]
  lhsBatch := []
  rhsBatch := []
  wf := dot_S128x10240_S10240x256_S128x256_1_0_0_1_n_n_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

abbrev win0_0 : Pipeline.Window sig grid0 :=
  Pipeline.Window.ofSpec (Memref.whole main_call0_v56) S640x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v57) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v64) S640x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v39) S640x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v64) S10240x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v60) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v58) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v65) S640x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_call0_v39) S640x10240.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v65) S10240x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v61) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v59) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v66) S640x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_call0_v39) S640x10240.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v66) S10240x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v62) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v67) S640x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_call0_v54) S128x10240.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_call0_v67) S10240x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S256x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v63) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v0) S128x128.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S10000x256 : Shape := ⟨2, ![10000, 256]⟩
abbrev S2x320000 : Shape := ⟨2, ![2, 320000]⟩
abbrev S10000 : Shape := ⟨1, ![10000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x256 : Shape := ⟨2, ![330000, 256]⟩
abbrev S1x256 : Shape := ⟨2, ![1, 256]⟩
abbrev S128x256 : Shape := ⟨2, ![128, 256]⟩
abbrev S10000x1 : Shape := ⟨2, ![10000, 1]⟩
abbrev S128x1 : Shape := ⟨2, ![128, 1]⟩
abbrev S128x128 : Shape := ⟨2, ![128, 128]⟩
abbrev S1x128 : Shape := ⟨2, ![1, 128]⟩

abbrev nBuf : Space → Nat
  | .hbm => 181
  | .vmem => 0
  | .smem => 0
  | _ => 0

abbrev hbmTy0_0 (i : Nat) : BufTy := match i % 128 with
  | 0 => ⟨S10000x256, .f32⟩
  | 1 => ⟨S2x320000, .i32⟩
  | 2 => ⟨S10000, .i32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S256x128, .f32⟩
  | 10 => ⟨S128, .f32⟩
  | 11 => ⟨S10000, .i32⟩
  | 12 => ⟨S1x320000, .i32⟩
  | 13 => ⟨S320000, .i32⟩
  | 14 => ⟨S330000, .i32⟩
  | 15 => ⟨S1x320000, .i32⟩
  | 16 => ⟨S320000, .i32⟩
  | 17 => ⟨S330000, .i32⟩
  | 18 => ⟨S_, .f32⟩
  | 19 => ⟨S330000, .f32⟩
  | 20 => ⟨S_, .f32⟩
  | 21 => ⟨S10000, .f32⟩
  | 22 => ⟨S330000x1, .i32⟩
  | 23 => ⟨S10000, .f32⟩
  | 24 => ⟨S_, .f32⟩
  | 25 => ⟨S10000, .f32⟩
  | 26 => ⟨S10000, .i1⟩
  | 27 => ⟨S_, .f32⟩
  | 28 => ⟨S10000, .f32⟩
  | 29 => ⟨S10000, .f32⟩
  | 30 => ⟨S10000, .f32⟩
  | 31 => ⟨S_, .f32⟩
  | 32 => ⟨S_, .f32⟩
  | 33 => ⟨S10000, .f32⟩
  | 34 => ⟨S10000, .f32⟩
  | 35 => ⟨S10000x256, .f32⟩
  | 36 => ⟨S_, .i32⟩
  | 37 => ⟨S330000, .i32⟩
  | 38 => ⟨S330000, .i1⟩
  | 39 => ⟨S_, .i32⟩
  | 40 => ⟨S330000, .i32⟩
  | 41 => ⟨S330000, .i32⟩
  | 42 => ⟨S330000, .i32⟩
  | 43 => ⟨S330000x1, .i32⟩
  | 44 => ⟨S330000, .f32⟩
  | 45 => ⟨S_, .i32⟩
  | 46 => ⟨S330000, .i32⟩
  | 47 => ⟨S330000, .i1⟩
  | 48 => ⟨S_, .i32⟩
  | 49 => ⟨S330000, .i32⟩
  | 50 => ⟨S330000, .i32⟩
  | 51 => ⟨S330000, .i32⟩
  | 52 => ⟨S330000x1, .i32⟩
  | 53 => ⟨S330000, .f32⟩
  | 54 => ⟨S330000, .f32⟩
  | 55 => ⟨S_, .i32⟩
  | 56 => ⟨S330000, .i32⟩
  | 57 => ⟨S330000, .i1⟩
  | 58 => ⟨S_, .i32⟩
  | 59 => ⟨S330000, .i32⟩
  | 60 => ⟨S330000, .i32⟩
  | 61 => ⟨S330000, .i32⟩
  | 62 => ⟨S330000x1, .i32⟩
  | 63 => ⟨S330000x256, .f32⟩
  | 64 => ⟨S330000x1, .f32⟩
  | 65 => ⟨S330000x256, .f32⟩
  | 66 => ⟨S330000x256, .f32⟩
  | 67 => ⟨S_, .f32⟩
  | 68 => ⟨S10000x256, .f32⟩
  | 69 => ⟨S330000x1, .i32⟩
  | 70 => ⟨S10000x256, .f32⟩
  | 71 => ⟨S1x256, .f32⟩
  | 72 => ⟨S10000x256, .f32⟩
  | 73 => ⟨S10000x256, .f32⟩
  | 74 => ⟨S_, .f32⟩
  | 75 => ⟨S10000x256, .f32⟩
  | 76 => ⟨S10000x256, .f32⟩
  | 77 => ⟨S10000x256, .f32⟩
  | 78 => ⟨S_, .i32⟩
  | 79 => ⟨S330000, .i32⟩
  | 80 => ⟨S330000, .i1⟩
  | 81 => ⟨S_, .i32⟩
  | 82 => ⟨S330000, .i32⟩
  | 83 => ⟨S330000, .i32⟩
  | 84 => ⟨S330000, .i32⟩
  | 85 => ⟨S330000x1, .i32⟩
  | 86 => ⟨S330000, .f32⟩
  | 87 => ⟨S_, .i32⟩
  | 88 => ⟨S330000, .i32⟩
  | 89 => ⟨S330000, .i1⟩
  | 90 => ⟨S_, .i32⟩
  | 91 => ⟨S330000, .i32⟩
  | 92 => ⟨S330000, .i32⟩
  | 93 => ⟨S330000, .i32⟩
  | 94 => ⟨S330000x1, .i32⟩
  | 95 => ⟨S330000, .f32⟩
  | 96 => ⟨S330000, .f32⟩
  | 97 => ⟨S_, .i32⟩
  | 98 => ⟨S330000, .i32⟩
  | 99 => ⟨S330000, .i1⟩
  | 100 => ⟨S_, .i32⟩
  | 101 => ⟨S330000, .i32⟩
  | 102 => ⟨S330000, .i32⟩
  | 103 => ⟨S330000, .i32⟩
  | 104 => ⟨S330000x1, .i32⟩
  | 105 => ⟨S330000x256, .f32⟩
  | 106 => ⟨S330000x1, .f32⟩
  | 107 => ⟨S330000x256, .f32⟩
  | 108 => ⟨S330000x256, .f32⟩
  | 109 => ⟨S_, .f32⟩
  | 110 => ⟨S10000x256, .f32⟩
  | 111 => ⟨S330000x1, .i32⟩
  | 112 => ⟨S10000x256, .f32⟩
  | 113 => ⟨S1x256, .f32⟩
  | 114 => ⟨S10000x256, .f32⟩
  | 115 => ⟨S10000x256, .f32⟩
  | 116 => ⟨S_, .f32⟩
  | 117 => ⟨S10000x256, .f32⟩
  | 118 => ⟨S10000x256, .f32⟩
  | 119 => ⟨S10000x256, .f32⟩
  | 120 => ⟨S_, .i32⟩
  | 121 => ⟨S330000, .i32⟩
  | 122 => ⟨S330000, .i1⟩
  | 123 => ⟨S_, .i32⟩
  | 124 => ⟨S330000, .i32⟩
  | 125 => ⟨S330000, .i32⟩
  | 126 => ⟨S330000, .i32⟩
  | 127 => ⟨S330000x1, .i32⟩
  | _ => ⟨S10000x256, .f32⟩

abbrev hbmTy0_1 (i : Nat) : BufTy := match i % 128 with
  | 0 => ⟨S330000, .f32⟩
  | 1 => ⟨S_, .i32⟩
  | 2 => ⟨S330000, .i32⟩
  | 3 => ⟨S330000, .i1⟩
  | 4 => ⟨S_, .i32⟩
  | 5 => ⟨S330000, .i32⟩
  | 6 => ⟨S330000, .i32⟩
  | 7 => ⟨S330000, .i32⟩
  | 8 => ⟨S330000x1, .i32⟩
  | 9 => ⟨S330000, .f32⟩
  | 10 => ⟨S330000, .f32⟩
  | 11 => ⟨S_, .i32⟩
  | 12 => ⟨S330000, .i32⟩
  | 13 => ⟨S330000, .i1⟩
  | 14 => ⟨S_, .i32⟩
  | 15 => ⟨S330000, .i32⟩
  | 16 => ⟨S330000, .i32⟩
  | 17 => ⟨S330000, .i32⟩
  | 18 => ⟨S330000x1, .i32⟩
  | 19 => ⟨S330000x256, .f32⟩
  | 20 => ⟨S330000x1, .f32⟩
  | 21 => ⟨S330000x256, .f32⟩
  | 22 => ⟨S330000x256, .f32⟩
  | 23 => ⟨S_, .f32⟩
  | 24 => ⟨S10000x256, .f32⟩
  | 25 => ⟨S330000x1, .i32⟩
  | 26 => ⟨S10000x256, .f32⟩
  | 27 => ⟨S1x256, .f32⟩
  | 28 => ⟨S10000x256, .f32⟩
  | 29 => ⟨S10000x256, .f32⟩
  | 30 => ⟨S_, .f32⟩
  | 31 => ⟨S10000x256, .f32⟩
  | 32 => ⟨S10000x256, .f32⟩
  | 33 => ⟨S_, .f32⟩
  | 34 => ⟨S128x256, .f32⟩
  | 35 => ⟨S10000x1, .i32⟩
  | 36 => ⟨S128x256, .f32⟩
  | 37 => ⟨S_, .f32⟩
  | 38 => ⟨S10000, .f32⟩
  | 39 => ⟨S_, .f32⟩
  | 40 => ⟨S128, .f32⟩
  | 41 => ⟨S10000x1, .i32⟩
  | 42 => ⟨S128, .f32⟩
  | 43 => ⟨S_, .f32⟩
  | 44 => ⟨S128, .f32⟩
  | 45 => ⟨S128, .f32⟩
  | 46 => ⟨S128x1, .f32⟩
  | 47 => ⟨S128x256, .f32⟩
  | 48 => ⟨S128x256, .f32⟩
  | 49 => ⟨S128x128, .f32⟩
  | 50 => ⟨S1x128, .f32⟩
  | 51 => ⟨S128x128, .f32⟩
  | 52 => ⟨S128x128, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_c_14 : Ref sig .tc := ⟨.hbm, 97, rfl⟩
abbrev main_v66 : Ref sig .tc := ⟨.hbm, 98, rfl⟩
abbrev main_v67 : Ref sig .tc := ⟨.hbm, 99, rfl⟩
abbrev main_c_15 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_16 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_call2_cst : Ref sig .tc := ⟨.hbm, 116, rfl⟩
abbrev main_call2_v0 : Ref sig .tc := ⟨.hbm, 117, rfl⟩
abbrev main_v82 : Ref sig .tc := ⟨.hbm, 118, rfl⟩
abbrev main_v83 : Ref sig .tc := ⟨.hbm, 119, rfl⟩
abbrev main_c_17 : Ref sig .tc := ⟨.hbm, 120, rfl⟩
abbrev main_v84 : Ref sig .tc := ⟨.hbm, 121, rfl⟩
abbrev main_v85 : Ref sig .tc := ⟨.hbm, 122, rfl⟩
abbrev main_c_18 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_19 : Ref sig .tc := ⟨.hbm, 129, rfl⟩
abbrev main_v91 : Ref sig .tc := ⟨.hbm, 130, rfl⟩
abbrev main_v92 : Ref sig .tc := ⟨.hbm, 131, rfl⟩
abbrev main_c_20 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_c_21 : Ref sig .tc := ⟨.hbm, 139, rfl⟩
abbrev main_v99 : Ref sig .tc := ⟨.hbm, 140, rfl⟩
abbrev main_v100 : Ref sig .tc := ⟨.hbm, 141, rfl⟩
abbrev main_c_22 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_cst_23 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_call3_cst : Ref sig .tc := ⟨.hbm, 158, rfl⟩
abbrev main_call3_v0 : Ref sig .tc := ⟨.hbm, 159, rfl⟩
abbrev main_v115 : Ref sig .tc := ⟨.hbm, 160, rfl⟩
abbrev main_cst_24 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_25 : Ref sig .tc := ⟨.hbm, 165, rfl⟩
abbrev main_v119 : Ref sig .tc := ⟨.hbm, 166, rfl⟩
abbrev main_cst_26 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_cst_27 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S128x256 : S_.BroadcastsInDim S128x256 (![] : Fin 0 → Fin S128x256.rank)
  bcast_S10000_S10000x1_0 : S10000.BroadcastsInDim S10000x1 (![0] : Fin 1 → Fin S10000x1.rank)
  bcast_S_S128 : S_.BroadcastsInDim S128 (![] : Fin 0 → Fin S128.rank)
  bcast_S128_S128x1_0 : S128.BroadcastsInDim S128x1 (![0] : Fin 1 → Fin S128x1.rank)
  bcast_S128x1_S128x256_0_1 : S128x1.BroadcastsInDim S128x256 (![0, 1] : Fin 2 → Fin S128x256.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  scatter_S10000_S330000x1_S330000_n_0_0_1_wf : ScatterDims.WF S10000 S330000x1 S330000 [] [0] [0] 1
  dot_S10000x256_S256x256_S10000x256_1_0_0_1_n_n_wf : DotDims.WF S10000x256 S256x256 S10000x256 [1] [0] [0] [1] [] []
  gather_S10000_S330000x1_S330000_n_0_n_n_0_1_1_wf : GatherDims.WF S10000 S330000x1 S330000 [] [0] [] [0] [] 1 ![1]
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  scatter_S128x256_S10000x1_S10000x256_1_0_0_1_wf : ScatterDims.WF S128x256 S10000x1 S10000x256 [1] [0] [0] 1
  scatter_S128_S10000x1_S10000_n_0_0_1_wf : ScatterDims.WF S128 S10000x1 S10000 [] [0] [0] 1
  dot_S128x256_S256x128_S128x128_1_0_0_1_n_n_wf : DotDims.WF S128x256 S256x128 S128x128 [1] [0] [0] [1] [] []

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def scatter_S128x256_S10000x1_S10000x256_1_0_0_1 : ScatterDims S128x256 S10000x1 S10000x256 where
  updateWindowDims := [1]
  insertedWindowDims := [0]
  scatterDimsToOperandDims := [0]
  indexVectorDim := 1
  wf := scatter_S128x256_S10000x1_S10000x256_1_0_0_1_wf
def scatter_S128_S10000x1_S10000_n_0_0_1 : ScatterDims S128 S10000x1 S10000 where
  updateWindowDims := []
  insertedWindowDims := [0]
  scatterDimsToOperandDims := [0]
  indexVectorDim := 1
  wf := scatter_S128_S10000x1_S10000_n_0_0_1_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

class Facts : Prop extends Facts₀ where

variable [Facts]
-- ==== Proof.GcnSpec.lean ====
/-
  What the two programs compute, as functions on the extended reals indexed by plain coordinates.

  A graph on `NN = 10000` nodes is given by `NE = 330000` directed edges `s e → d e` (the last `NN` of them the self
  loops). With `deg i` the number of edges into `i`, an edge weighs `nrm e = deg(s e)^(-1/2) · deg(d e)^(-1/2)`
  (`isdOf`: the inverse square root of `max deg 1`, and `0` at degree `0`). One graph convolution sends node features `H` to
  `(Σ_{e → i} (H W)[s e] · nrm e) + b`; three of them with `relu` between, then a mean over the nodes of each of
  `NG = 128` groups (`bg i` the group word of node `i`; a word outside `0 … 127` names no group), a last projection and a bias.

  `refOut` spells this the scatter / gather way: sums over the edges into a node, sums over the nodes of a group.
  `denseOut` spells it the dense way, over arrays padded to `NP = 10240` rows: the adjacency matrix `adj` whose entry
  `(i, j)` adds the weights of the edges `j → i`, the pooling matrix `poolM` whose entry `(g, i)` is `1 / max count 1`
  where node `i` is in group `g`, matrix products with them, and the padded rows of the last layer set to `0`.
  That the two are one function is GcnMath.lean.
-/
import Idealize.ShloMosaic.PureOps.Ideal

noncomputable section

open scoped BigOperators

namespace Cert.GcnSpec

open Idealize.ShloMosaic

/-- Edges, self loops included. -/
abbrev NE : Nat := 330000
/-- Nodes. -/
abbrev NN : Nat := 10000
/-- Rows of the padded arrays. -/
abbrev NP : Nat := 10240
/-- Feature width. -/
abbrev ND : Nat := 256
/-- Groups, and also the width of the result. -/
abbrev NG : Nat := 128

/-- `max x 0`. -/
def relu (x : EReal) : EReal := max x 0

/-- The inverse square root of a degree: of `max g 1` where `g` is positive, `0` elsewhere. -/
def isdOf (g : EReal) : EReal := if 0 < g then Ideal.rsqrt (max g 1) else 0

/-- A node of the unpadded graph as a row of the padded arrays. -/
abbrev up (i : Fin NN) : Fin NP := ⟨i.val, Nat.lt_of_lt_of_le i.isLt (by decide)⟩

section Graph

variable (s d : Fin NE → Fin NN)

/-- The number of edges into node `i`. -/
def deg (i : Fin NN) : EReal := 0 + ∑ e ∈ Finset.univ.filter (fun e => d e = i), (1 : EReal)

/-- Node `i`'s inverse square-root degree. -/
def isd (i : Fin NN) : EReal := isdOf (deg d i)

/-- The weight of edge `e`. -/
def nrm (e : Fin NE) : EReal := isd d (s e) * isd d (d e)

/-- One convolution before the nonlinearity, by edges: project, read at the source, weigh, add up at the target, add the bias. -/
def convRef (H : Fin NN → Fin ND → EReal) (W : Fin ND → Fin ND → EReal) (b : Fin ND → EReal) (i : Fin NN) (c : Fin ND) : EReal :=
  (0 + ∑ e ∈ Finset.univ.filter (fun e => d e = i), (∑ k, H (s e) k * W k c) * nrm s d e) + b c

/-- The dense adjacency: entry `(i, j)` adds the weights of the edges `j → i`; rows and columns from `NN` on are zero. -/
def adj (i j : Fin NP) : EReal :=
  0 + ∑ e ∈ Finset.univ.filter (fun e => (d e).val = i.val ∧ (s e).val = j.val), nrm s d e

end Graph

section Pool

variable (bg : Fin NN → ℤ)

/-- The number of nodes in group `g`, by nodes. -/
def cntRef (g : Fin NG) : EReal := 0 + ∑ i ∈ Finset.univ.filter (fun i => bg i = (g.val : ℤ)), (1 : EReal)

/-- Whether node `i` is in group `g`, as `1` or `0`. -/
def onehot (g : Fin NG) (i : Fin NN) : EReal := if bg i = (g.val : ℤ) then 1 else 0

/-- The number of nodes in group `g`, as a row sum of `onehot`. -/
def cntDense (g : Fin NG) : EReal := 0 + ∑ i : Fin NN, onehot bg g i

/-- The pooling matrix: `onehot / max count 1` on the nodes, `0` on the padding. -/
def poolM (g : Fin NG) (i : Fin NP) : EReal :=
  if h : i.val < NN then Ideal.div (onehot bg g ⟨i.val, h⟩) (max (cntDense bg g) 1) else 0

end Pool

/-- The node features padded with zero rows. -/
def padX (X : Fin NN → Fin ND → EReal) (j : Fin NP) (k : Fin ND) : EReal :=
  if h : j.val < NN then X ⟨j.val, h⟩ k else 0

/-- The last projection and bias, common to both spellings. -/
def classify (pooled : Fin NG → Fin ND → EReal) (LW : Fin ND → Fin NG → EReal) (LB : Fin NG → EReal) (g t : Fin NG) : EReal :=
  (∑ c, pooled g c * LW c t) + LB t

/-- The result, by edges and by nodes. -/
def refOut (s d : Fin NE → Fin NN) (bg : Fin NN → ℤ) (X : Fin NN → Fin ND → EReal)
    (W1 : Fin ND → Fin ND → EReal) (b1 : Fin ND → EReal) (W2 : Fin ND → Fin ND → EReal) (b2 : Fin ND → EReal)
    (W3 : Fin ND → Fin ND → EReal) (b3 : Fin ND → EReal) (LW : Fin ND → Fin NG → EReal) (LB : Fin NG → EReal) :
    Fin NG → Fin NG → EReal :=
  let H1 : Fin NN → Fin ND → EReal := fun i c => relu (convRef s d X W1 b1 i c)
  let H2 : Fin NN → Fin ND → EReal := fun i c => relu (convRef s d H1 W2 b2 i c)
  let H3 : Fin NN → Fin ND → EReal := fun i c => relu (convRef s d H2 W3 b3 i c)
  let pooled : Fin NG → Fin ND → EReal := fun g c =>
    Ideal.div (0 + ∑ i ∈ Finset.univ.filter (fun i => bg i = (g.val : ℤ)), H3 i c) (max (cntRef bg g) 1)
  classify pooled LW LB

/-- The dense chain over arrays as the five kernels see them: `A` the adjacency, `P` the pooling matrix, `XP` the padded
    features. Each matrix product is a plain sum over the contracted coordinate. -/
def denseChain (A : Fin NP → Fin NP → EReal) (P : Fin NG → Fin NP → EReal) (XP : Fin NP → Fin ND → EReal)
    (W1 : Fin ND → Fin ND → EReal) (b1 : Fin ND → EReal) (W2 : Fin ND → Fin ND → EReal) (b2 : Fin ND → EReal)
    (W3 : Fin ND → Fin ND → EReal) (b3 : Fin ND → EReal) (LW : Fin ND → Fin NG → EReal) (LB : Fin NG → EReal) :
    Fin NG → Fin NG → EReal :=
  let Y1 : Fin NP → Fin ND → EReal := fun j c => ∑ k, XP j k * W1 k c
  let R1 : Fin NP → Fin ND → EReal := fun i c => relu ((∑ j, A i j * Y1 j c) + b1 c)
  let Y2 : Fin NP → Fin ND → EReal := fun j c => ∑ k, R1 j k * W2 k c
  let R2 : Fin NP → Fin ND → EReal := fun i c => relu ((∑ j, A i j * Y2 j c) + b2 c)
  let Y3 : Fin NP → Fin ND → EReal := fun j c => ∑ k, R2 j k * W3 k c
  let H3 : Fin NP → Fin ND → EReal := fun i c => if i.val < NN then relu ((∑ j, A i j * Y3 j c) + b3 c) else 0
  let pooled : Fin NG → Fin ND → EReal := fun g c => ∑ i, P g i * H3 i c
  classify pooled LW LB

/-- The result, the dense way. -/
def denseOut (s d : Fin NE → Fin NN) (bg : Fin NN → ℤ) (X : Fin NN → Fin ND → EReal)
    (W1 : Fin ND → Fin ND → EReal) (b1 : Fin ND → EReal) (W2 : Fin ND → Fin ND → EReal) (b2 : Fin ND → EReal)
    (W3 : Fin ND → Fin ND → EReal) (b3 : Fin ND → EReal) (LW : Fin ND → Fin NG → EReal) (LB : Fin NG → EReal) :
    Fin NG → Fin NG → EReal :=
  denseChain (adj s d) (poolM bg) (padX X) W1 b1 W2 b2 W3 b3 LW LB

end Cert.GcnSpec

end
-- ==== Proof.GcnMath.lean ====
/-
  The dense spelling and the by-edges spelling of the three-layer graph convolution with mean pooling are one function
  of their extended-real inputs, for ALL inputs, infinite ones included.

  Only these laws of the extended reals are used: + and * are commutative and associative, 0 * x = 0, and a finite sum
  of NON-NEGATIVE terms distributes over a factor. The edge weights are non-negative (products of inverse square roots),
  and so are the last layer's values (they are relu's), which is where distributivity is needed.
-/
import proofs.«430691_j58471684768359_3_alg».proof.Proof.GcnSpec
import Mathlib.Data.EReal.Operations
import Mathlib.Data.EReal.Inv
import Mathlib.Algebra.BigOperators.Group.Finset.Basic
import Mathlib.Algebra.BigOperators.Group.Finset.Sigma
import Mathlib.Algebra.BigOperators.Group.Finset.Piecewise
import Mathlib.Algebra.Order.BigOperators.Group.Finset

noncomputable section

open scoped BigOperators

namespace Cert.GcnMath

open Idealize.ShloMosaic Cert.GcnSpec

/-! ### Non-negative finite sums distribute over a product

The extended reals are not a semiring (for instance, (1 + (-1)) * ⊤ = 0 while 1 * ⊤ + (-1) * ⊤ = ⊥), but a sum of
NON-NEGATIVE terms does distribute over any factor, infinite or negative ones included. -/

/-- (Σ f) · c = Σ (f · c) when every f i ≥ 0. -/
theorem sum_mul_of_nonneg {ι : Type} (S : Finset ι) (f : ι → EReal) (hf : ∀ i ∈ S, 0 ≤ f i) (c : EReal) :
    (∑ i ∈ S, f i) * c = ∑ i ∈ S, f i * c := by
  classical
  induction S using Finset.induction_on with
  | empty => rw [Finset.sum_empty, Finset.sum_empty, zero_mul]
  | insert a S ha ih =>
    have hS : ∀ i ∈ S, 0 ≤ f i := fun i hi => hf i (Finset.mem_insert_of_mem hi)
    rw [Finset.sum_insert ha, Finset.sum_insert ha,
      EReal.right_distrib_of_nonneg (hf a (Finset.mem_insert_self a S)) (Finset.sum_nonneg hS), ih hS]

/-- c · (Σ f) = Σ (c · f) when every f i ≥ 0. -/
theorem mul_sum_of_nonneg {ι : Type} (S : Finset ι) (f : ι → EReal) (hf : ∀ i ∈ S, 0 ≤ f i) (c : EReal) :
    c * (∑ i ∈ S, f i) = ∑ i ∈ S, c * f i := by
  rw [mul_comm, sum_mul_of_nonneg S f hf c]
  exact Finset.sum_congr rfl fun i _ => mul_comm _ _

/-! ### (1) The edge weights are non-negative -/

/-- The inverse square root of a non-negative extended real is non-negative: it is 0 at ⊤, ⊤ at 0, and the
    reciprocal of a real square root in between. -/
theorem rsqrt_nonneg {y : EReal} (hy : 0 ≤ y) : 0 ≤ Ideal.rsqrt y := by
  induction y using EReal.rec with
  | bot => exact absurd hy (by simp)
  | top => rw [Ideal.rsqrt_top]
  | coe r =>
    have hr : 0 ≤ r := EReal.coe_nonneg.1 hy
    rw [Ideal.rsqrt_coe, if_neg (not_lt.2 hr)]
    split_ifs
    · exact le_top
    · exact EReal.coe_nonneg.2 (inv_nonneg.2 (Real.sqrt_nonneg r))

/-- 0 ≤ isdOf g for every g: either it is 0, or the inverse square root of max g 1 ≥ 1. -/
theorem isdOf_nonneg (g : EReal) : 0 ≤ isdOf g := by
  unfold isdOf
  split_ifs
  · exact rsqrt_nonneg (le_trans zero_le_one (le_max_right g 1))
  · exact le_rfl

/-- Every edge weight is non-negative. -/
theorem nrm_nonneg (s d : Fin NE → Fin NN) (e : Fin NE) : 0 ≤ nrm s d e :=
  EReal.mul_nonneg (isdOf_nonneg _) (isdOf_nonneg _)

/-! ### (2) The aggregation lemma -/

/-- One entry of the adjacency times a factor, as a sum over ALL the edges into i in which only the edges with
    source j contribute: the non-negative weights distribute over the factor. -/
theorem adj_mul (s d : Fin NE → Fin NN) (i : Fin NN) (j : Fin NP) (y : EReal) :
    adj s d (up i) j * y
      = ∑ e ∈ Finset.univ.filter (fun e => d e = i), if up (s e) = j then nrm s d e * y else 0 := by
  have hfil : Finset.univ.filter (fun e => (d e).val = (up i).val ∧ (s e).val = j.val)
      = (Finset.univ.filter (fun e => d e = i)).filter (fun e => up (s e) = j) := by
    rw [Finset.filter_filter]
    apply Finset.filter_congr
    intro e _
    exact ⟨fun h => ⟨Fin.ext h.1, Fin.ext h.2⟩, fun h => ⟨congrArg Fin.val h.1, congrArg Fin.val h.2⟩⟩
  unfold adj
  rw [zero_add, hfil, sum_mul_of_nonneg _ _ (fun e _ => nrm_nonneg s d e), Finset.sum_filter]

/-- THE AGGREGATION LEMMA. A row of the dense adjacency against a column Y is the sum, over the edges into that
    node, of weight times Y at the edge's source: each edge lies in exactly one column, that of its source. -/
theorem adj_mul_sum (s d : Fin NE → Fin NN) (i : Fin NN) (Y : Fin NP → EReal) :
    ∑ j : Fin NP, adj s d (up i) j * Y j
      = ∑ e ∈ Finset.univ.filter (fun e => d e = i), nrm s d e * Y (up (s e)) := by
  rw [Finset.sum_congr rfl (fun j _ => adj_mul s d i j (Y j)), Finset.sum_comm]
  apply Finset.sum_congr rfl
  intro e _
  rw [Finset.sum_ite_eq Finset.univ (up (s e)) (fun j => nrm s d e * Y j), if_pos (Finset.mem_univ _)]

/-! ### (3) One layer, dense against by-edges -/

/-- One dense layer on the padded rows: adjacency times (features times weights), plus bias, then relu. -/
def layerD (s d : Fin NE → Fin NN) (H : Fin NP → Fin ND → EReal) (W : Fin ND → Fin ND → EReal) (b : Fin ND → EReal) :
    Fin NP → Fin ND → EReal :=
  fun i c => relu ((∑ j, adj s d i j * ∑ k, H j k * W k c) + b c)

/-- One layer by edges on the nodes. -/
def layerR (s d : Fin NE → Fin NN) (H : Fin NN → Fin ND → EReal) (W : Fin ND → Fin ND → EReal) (b : Fin ND → EReal) :
    Fin NN → Fin ND → EReal :=
  fun i c => relu (convRef s d H W b i c)

/-- The padded features at a node's row are the node's features. -/
theorem padX_up (X : Fin NN → Fin ND → EReal) (j : Fin NN) (k : Fin ND) : padX X (up j) k = X j k := by
  unfold padX
  rw [dif_pos j.isLt]

/-- If the padded features agree with the node features on the node rows, so do the two layers' results: by the
    aggregation lemma the dense row sum is the sum over the edges into the node, and the products are the same up to
    the order of their factors. -/
theorem layer_eq (s d : Fin NE → Fin NN) (Hd : Fin NP → Fin ND → EReal) (Hr : Fin NN → Fin ND → EReal)
    (h : ∀ j k, Hd (up j) k = Hr j k) (W : Fin ND → Fin ND → EReal) (b : Fin ND → EReal) (i : Fin NN) (c : Fin ND) :
    layerD s d Hd W b (up i) c = layerR s d Hr W b i c := by
  have key : ∀ e : Fin NE,
      nrm s d e * (∑ k, Hd (up (s e)) k * W k c) = (∑ k, Hr (s e) k * W k c) * nrm s d e := by
    intro e
    have hk : ∑ k, Hd (up (s e)) k * W k c = ∑ k, Hr (s e) k * W k c :=
      Finset.sum_congr rfl fun k _ => by rw [h]
    rw [hk, mul_comm]
  unfold layerD layerR convRef
  rw [adj_mul_sum s d i (fun j => ∑ k, Hd j k * W k c), zero_add]
  exact congrArg (fun t => relu (t + b c)) (Finset.sum_congr rfl fun e _ => key e)

/-! ### (4) The pooling lemma -/

/-- The two spellings of a group's size agree: a sum of ones over the group is the sum of its indicator. -/
theorem cntDense_eq_cntRef (bg : Fin NN → ℤ) (g : Fin NG) : cntDense bg g = cntRef bg g := by
  unfold cntDense cntRef onehot
  rw [Finset.sum_filter]

/-- max x 1 is at least 1, so it is not 0. -/
theorem max_one_ne_zero (x : EReal) : max x 1 ≠ 0 :=
  (lt_of_lt_of_le zero_lt_one (le_max_right x 1)).ne'

/-- A sum over the padded rows of a function that vanishes on the padding is the sum over the nodes. -/
theorem sum_pad (F : Fin NP → EReal) (hF : ∀ i : Fin NP, NN ≤ i.val → F i = 0) :
    ∑ i : Fin NP, F i = ∑ i : Fin NN, F (up i) := by
  symm
  apply Finset.sum_of_injOn up
  · intro a _ b _ hab
    have hv : (up a).val = (up b).val := congrArg Fin.val hab
    exact Fin.ext hv
  · intro a _
    exact Finset.mem_coe.2 (Finset.mem_univ _)
  · intro i _ hi
    apply hF
    by_contra hlt
    exact hi ⟨⟨i.val, not_le.1 hlt⟩, Finset.mem_coe.2 (Finset.mem_univ _), Fin.ext rfl⟩
  · intro i _
    rfl

/-- The pooling matrix at a node's row: the reciprocal of max count 1 where the node is in the group, else 0. -/
theorem poolM_up (bg : Fin NN → ℤ) (g : Fin NG) (i : Fin NN) :
    poolM bg g (up i) = if bg i = (g.val : ℤ) then (max (cntRef bg g) 1)⁻¹ else 0 := by
  unfold poolM
  rw [dif_pos i.isLt, cntDense_eq_cntRef]
  unfold Ideal.div onehot
  rw [if_neg (max_one_ne_zero _)]
  split_ifs
  · exact one_mul _
  · exact zero_mul _

/-- THE POOLING LEMMA. A row of the pooling matrix against a column that is non-negative on the nodes is the group's
    sum divided by max count 1: the padding contributes 0 · x = 0, a node outside the group contributes 0, a node in it
    its value times the reciprocal, and the non-negative values distribute over the reciprocal. -/
theorem pool_dense_eq_ref (bg : Fin NN → ℤ) (g : Fin NG) (Hd : Fin NP → EReal) (Hr : Fin NN → EReal)
    (h : ∀ i, Hd (up i) = Hr i) (h0 : ∀ i, 0 ≤ Hr i) :
    ∑ i : Fin NP, poolM bg g i * Hd i
      = Ideal.div (0 + ∑ i ∈ Finset.univ.filter (fun i => bg i = (g.val : ℤ)), Hr i) (max (cntRef bg g) 1) := by
  have hpad : ∀ i : Fin NP, NN ≤ i.val → poolM bg g i * Hd i = 0 := by
    intro i hi
    unfold poolM
    rw [dif_neg (not_lt.2 hi), zero_mul]
  rw [sum_pad (fun i => poolM bg g i * Hd i) hpad]
  unfold Ideal.div
  rw [if_neg (max_one_ne_zero _), zero_add, sum_mul_of_nonneg _ _ (fun i _ => h0 i), Finset.sum_filter]
  apply Finset.sum_congr rfl
  intro i _
  rw [h i, poolM_up]
  split_ifs
  · exact mul_comm _ _
  · exact zero_mul _

/-! ### (5) The two results -/

/-- The dense result with its three layers named. -/
theorem denseOut_eq (s d : Fin NE → Fin NN) (bg : Fin NN → ℤ) (X : Fin NN → Fin ND → EReal)
    (W1 : Fin ND → Fin ND → EReal) (b1 : Fin ND → EReal) (W2 : Fin ND → Fin ND → EReal) (b2 : Fin ND → EReal)
    (W3 : Fin ND → Fin ND → EReal) (b3 : Fin ND → EReal) (LW : Fin ND → Fin NG → EReal) (LB : Fin NG → EReal) :
    denseOut s d bg X W1 b1 W2 b2 W3 b3 LW LB
      = classify (fun g c => ∑ i : Fin NP, poolM bg g i *
          (if i.val < NN then layerD s d (layerD s d (layerD s d (padX X) W1 b1) W2 b2) W3 b3 i c else 0)) LW LB :=
  rfl

/-- The by-edges result with its three layers named. -/
theorem refOut_eq (s d : Fin NE → Fin NN) (bg : Fin NN → ℤ) (X : Fin NN → Fin ND → EReal)
    (W1 : Fin ND → Fin ND → EReal) (b1 : Fin ND → EReal) (W2 : Fin ND → Fin ND → EReal) (b2 : Fin ND → EReal)
    (W3 : Fin ND → Fin ND → EReal) (b3 : Fin ND → EReal) (LW : Fin ND → Fin NG → EReal) (LB : Fin NG → EReal) :
    refOut s d bg X W1 b1 W2 b2 W3 b3 LW LB
      = classify (fun g c => Ideal.div
          (0 + ∑ i ∈ Finset.univ.filter (fun i => bg i = (g.val : ℤ)),
            layerR s d (layerR s d (layerR s d X W1 b1) W2 b2) W3 b3 i c)
          (max (cntRef bg g) 1)) LW LB :=
  rfl

/-- The dense spelling and the by-edges spelling are one function: layer by layer the node rows agree (3), the masked
    last layer is non-negative and agrees on the node rows, so the pooled sums agree (4), and the last projection is the
    same function of the pooled values on both sides. -/
theorem dense_eq_ref (s d : Fin NE → Fin NN) (bg : Fin NN → ℤ) (X : Fin NN → Fin ND → EReal)
    (W1 : Fin ND → Fin ND → EReal) (b1 : Fin ND → EReal) (W2 : Fin ND → Fin ND → EReal) (b2 : Fin ND → EReal)
    (W3 : Fin ND → Fin ND → EReal) (b3 : Fin ND → EReal) (LW : Fin ND → Fin NG → EReal) (LB : Fin NG → EReal) :
    denseOut s d bg X W1 b1 W2 b2 W3 b3 LW LB = refOut s d bg X W1 b1 W2 b2 W3 b3 LW LB := by
  have h1 : ∀ j k, layerD s d (padX X) W1 b1 (up j) k = layerR s d X W1 b1 j k :=
    layer_eq s d (padX X) X (padX_up X) W1 b1
  have h2 : ∀ j k, layerD s d (layerD s d (padX X) W1 b1) W2 b2 (up j) k
      = layerR s d (layerR s d X W1 b1) W2 b2 j k :=
    layer_eq s d _ _ h1 W2 b2
  have h3 : ∀ j k, layerD s d (layerD s d (layerD s d (padX X) W1 b1) W2 b2) W3 b3 (up j) k
      = layerR s d (layerR s d (layerR s d X W1 b1) W2 b2) W3 b3 j k :=
    layer_eq s d _ _ h2 W3 b3
  rw [denseOut_eq, refOut_eq]
  apply congrArg (fun p => classify p LW LB)
  funext g c
  apply pool_dense_eq_ref bg g
    (fun i => if i.val < NN then layerD s d (layerD s d (layerD s d (padX X) W1 b1) W2 b2) W3 b3 i c else 0)
    (fun i => layerR s d (layerR s d (layerR s d X W1 b1) W2 b2) W3 b3 i c)
  · intro i
    show (if (up i).val < NN then _ else 0) = _
    rw [if_pos i.isLt, h3]
  · intro i
    exact le_max_right _ _

end Cert.GcnMath

end
-- ==== Proof.Edges.lean ====
/-
  The edge list of the graph as both programs build it: the `320000` given edges, row `0` of the input their sources
  and row `1` their targets, followed by one self loop per node, `10000` of them. Read at an edge position this is a
  word of the input below `320000` and the position's offset from `320000` above it. Under the range hypothesis on
  the input every such word names a node, and the two-piece concatenation that the programs print is this vector.
-/
import Idealize.ShloMosaic.Lib.ValueIdx
import Idealize.ShloMosaic.Lib.Pipeline.Value

namespace Cert.Edges

open Idealize.ShloMosaic Idealize.ShloMosaic.ValueIdx

/-- A natural below `2 ^ 31` as a word reads signed as itself. -/
private theorem toInt_ofNat_lt (n : Nat) (hn : n < 2 ^ 31) : (BitVec.ofNat 32 n).toInt = (n : ℤ) := by
  rw [BitVec.toInt_ofNat']
  exact Int.bmod_eq_of_le (by omega) (by omega)

/-- The node word of row `r` at edge position `e`: the input's word on the given edges, the offset on the self loops. -/
def nodeW (E : IVec ⟨2, ![2, 320000]⟩ 32) (r : Fin 2) (e : Fin 330000) : BitVec 32 :=
  if h : e.val < 320000 then E (ix2 r ⟨e.val, h⟩) else BitVec.ofNat 32 (e.val - 320000)

/-- Every word of the input, read signed, names a node. -/
def InRange (E : IVec ⟨2, ![2, 320000]⟩ 32) : Prop :=
  ∀ (r : Fin 2) (k : Fin 320000), 0 ≤ (E (ix2 r k)).toInt ∧ (E (ix2 r k)).toInt < 10000

/-- Under the range hypothesis every node word, self loops included, names a node. -/
theorem nodeW_range {E : IVec ⟨2, ![2, 320000]⟩ 32} (hE : InRange E) (r : Fin 2) (e : Fin 330000) :
    0 ≤ (nodeW E r e).toInt ∧ (nodeW E r e).toInt < 10000 := by
  unfold nodeW
  split
  · next h => exact hE r ⟨e.val, h⟩
  · next h =>
    -- a self loop: the offset is below `10000`, far below `2 ^ 31`
    have he := e.isLt
    rw [toInt_ofNat_lt _ (by omega)]
    omega

/-- The node a node word names. -/
def node {E : IVec ⟨2, ![2, 320000]⟩ 32} (hE : InRange E) (r : Fin 2) (e : Fin 330000) : Fin 10000 :=
  ⟨(nodeW E r e).toInt.toNat, by have := nodeW_range hE r e; omega⟩

/-- The node word read signed is its node. -/
theorem nodeW_toInt {E : IVec ⟨2, ![2, 320000]⟩ 32} (hE : InRange E) (r : Fin 2) (e : Fin 330000) :
    (nodeW E r e).toInt = ((node hE r e).val : ℤ) := by
  have h0 := (nodeW_range hE r e).1
  show (nodeW E r e).toInt = (((nodeW E r e).toInt.toNat : ℕ) : ℤ)
  rw [Int.toNat_of_nonneg h0]

/-- The node word is its node as a word. -/
theorem nodeW_eq {E : IVec ⟨2, ![2, 320000]⟩ 32} (hE : InRange E) (r : Fin 2) (e : Fin 330000) :
    nodeW E r e = BitVec.ofNat 32 (node hE r e).val := by
  -- two words that read signed alike are one word
  apply BitVec.eq_of_toInt_eq
  have hn := (node hE r e).isLt
  rw [toInt_ofNat_lt _ (by omega)]
  exact nodeW_toInt hE r e

/-- The two-piece concatenation both programs print, read at `e`, given what its pieces hold: the first piece row `r`
    of the input, the second the positions `0 … 9999`. -/
theorem nodes_concat (E : IVec ⟨2, ![2, 320000]⟩ 32) (r : Fin 2)
    (a : (⟨1, ![320000]⟩ : Shape).Idx → BitVec 32) (ha : ∀ k : Fin 320000, a (ix1 k) = E (ix2 r k))
    (b : (⟨1, ![10000]⟩ : Shape).Idx → BitVec 32) (hb : ∀ k : Fin 10000, b (ix1 k) = BitVec.ofNat 32 k.val)
    (h : Shape.Concatenates [(⟨1, ![320000]⟩ : Shape), ⟨1, ![10000]⟩] ⟨1, ![330000]⟩ 0) (e : Fin 330000) :
    concatenate ⟨1, ![330000]⟩ 0 [⟨⟨1, ![320000]⟩, a⟩, ⟨⟨1, ![10000]⟩, b⟩] h (ix1 e) = nodeW E r e := by
  unfold nodeW
  split
  · next he =>
    -- a given edge: the position falls in the first piece, at the same coordinate
    rw [concatenate_pair_apply_left (t := ⟨1, ![330000]⟩) (s₁ := ⟨1, ![320000]⟩) (s₂ := ⟨1, ![10000]⟩) 0 a b h (ix1 e) rfl
      (ix1 ⟨e.val, he⟩) (fun c => by match c with | ⟨0, _⟩ => rfl)]
    exact ha ⟨e.val, he⟩
  · next he =>
    -- a self loop: the position falls in the second piece, the first extent less
    have hlt : e.val - 320000 < 10000 := by have := e.isLt; omega
    rw [concatenate_pair_apply_right (t := ⟨1, ![330000]⟩) (s₁ := ⟨1, ![320000]⟩) (s₂ := ⟨1, ![10000]⟩) 0 a b h (ix1 e) rfl rfl
      (ix1 ⟨e.val - 320000, hlt⟩) (fun c hc => absurd (Fin.ext (by have h1 : c.val < 1 := c.isLt; show c.val = 0; omega)) hc)
      (by show e.val - 320000 + 320000 = e.val; omega)]
    exact hb ⟨e.val - 320000, hlt⟩

end Cert.Edges
-- ==== Proof.PreEdges.lean ====
/-
  The printed precondition decoded for the edge list: its last conjunct is the conjunction, over every word of the
  edge input, of two signed compares, the word at least `0` and the word below `10000`. Where the precondition holds,
  so does the range hypothesis on the edge list.
-/
import proofs.«430691_j58471684768359_3_alg».proof.Pre_finite_inputs
import proofs.«430691_j58471684768359_3_alg».proof.Proof.Edges
import Idealize.ShloMosaic.Lib.ReduceAll
import Idealize.ShloMosaic.Lib.StableHlo.Predicate

noncomputable section

namespace Cert.PreEdges

open Idealize.ShloMosaic Idealize.ShloMosaic.ValueIdx

open Cert.Pre_finite_inputs in
/-- The scalar shape has one index. -/
instance : Subsingleton Cert.Pre_finite_inputs.S_.Idx := ⟨fun a b => funext fun d => d.elim0⟩

open Cert.Pre_finite_inputs in
/-- The second half of the printed chain already decides the range: its result is a conjunction whose last conjunct
    is the conjunction over the edge input of `0 ≤ word` and `word < 10000`, both compares signed. -/
theorem inRange_of_part2 [Facts] {F : FTy → Type} [FloatOps F] (a1 : IVec S2x320000 32)
    (a9 : FVec F S256x128 .f32) (a10 : FVec F S128 .f32) (v : IVec S_ 1)
    (h : fn_part2 (F := F) a1 a9 a10 v ValueIdx.ix0 = 1#1) : Cert.Edges.InRange a1 := by
  dsimp only [fn_part2] at h
  -- the last conjunct: the conjunction over all words
  have hall := (IntOp.andi_eq_one.1 h).2
  intro r k
  -- at the word `(r, k)`: both compares are `1`
  have hrk := Host.reduce_andi_all _ _ _ _ ValueIdx.ix0 hall (ix2 r k)
  obtain ⟨hge, hlt⟩ := IntOp.andi_eq_one.1 hrk
  have hge' := IntOp.cmpi_sge.1 hge
  have hlt' := IntOp.cmpi_slt.1 hlt
  -- the two broadcast scalars are the literals `0` and `10000`
  have e0 : (0#32 : BitVec 32).toInt = 0 := by decide
  have e1 : (10000#32 : BitVec 32).toInt = 10000 := by decide
  exact ⟨e0 ▸ hge', e1 ▸ hlt'⟩

/-- Where the printed precondition holds, every word of the edge input names a node. -/
theorem inRange_of_pre [Cert.Pre_finite_inputs.Facts]
    (a0 : FVec Ideal Cert.Pre_finite_inputs.S10000x256 .f32) (a1 : IVec Cert.Pre_finite_inputs.S2x320000 32)
    (a2 : IVec Cert.Pre_finite_inputs.S10000 32) (a3 : FVec Ideal Cert.Pre_finite_inputs.S256x256 .f32)
    (a4 : FVec Ideal Cert.Pre_finite_inputs.S256 .f32) (a5 : FVec Ideal Cert.Pre_finite_inputs.S256x256 .f32)
    (a6 : FVec Ideal Cert.Pre_finite_inputs.S256 .f32) (a7 : FVec Ideal Cert.Pre_finite_inputs.S256x256 .f32)
    (a8 : FVec Ideal Cert.Pre_finite_inputs.S256 .f32) (a9 : FVec Ideal Cert.Pre_finite_inputs.S256x128 .f32)
    (a10 : FVec Ideal Cert.Pre_finite_inputs.S128 .f32)
    (h : Cert.Pre_finite_inputs.fn (F := Ideal) a0 a1 a2 a3 a4 a5 a6 a7 a8 a9 a10 = fun _ => 1#1) :
    Cert.Edges.InRange a1 := by
  have h0 := congrFun h ValueIdx.ix0
  -- the chain's first two parts only hand the edge input on to the last
  dsimp only [Cert.Pre_finite_inputs.fn, Cert.Pre_finite_inputs.fn_part1] at h0
  exact inRange_of_part2 a1 a9 a10 _ h0

end Cert.PreEdges

end
-- ==== Proof.Consts.lean ====
/-
  The two float literals both programs spell, as the extended reals their bit patterns denote: `+0.0` is `0` and
  `1.0` is `1`. Stated once here so that no other module opens the IEEE decoding.
-/
import Idealize.ShloMosaic.PureOps.Ideal

noncomputable section

namespace Cert.Consts

open Idealize.ShloMosaic

/-- The word of `+0.0` denotes `0`. -/
theorem ofBits_zero : Ideal.ofBits .f32 0x00000000#32 = 0 := by
  simp [Ideal.ofBits, Ideal.ieee]

/-- The word of `1.0` denotes `1`: sign clear, biased exponent 127, empty fraction. -/
theorem ofBits_one : Ideal.ofBits .f32 0x3F800000#32 = 1 := by
  simp [Ideal.ofBits, Ideal.ieee, -EReal.coe_mul]; norm_num

end Cert.Consts

end
-- ==== Proof.LibSegmentSum.lean ====
/-
  Index-driven host operations read at one index, at the ideal instance (floats are extended reals).

  A segment sum adds, at each segment, the updates whose index word names that segment; an indexed read takes the row
  its index word names. Both are stated over ANY dimension-number record of the right type whose fields are given by
  hypotheses, so that one statement serves every size at which a program uses the operation.

  * `scatterAdd_seg1`   : a one-axis segment sum at a segment.
  * `scatterAdd_segRows`: a segment sum of rows at (segment, column).
  * `gather_rows`       : a gather of rows at (position, column).
  * `gather_seg1`       : a one-axis gather at a position.
  * `clamp_of_inRange`  : a word in range is its own clamp.

  The road for a segment sum: on each operand axis the landing coordinate of an update is its window start (the index
  word read signed, on the axis the index names; zero elsewhere) plus its window coordinate (the update's own coordinate
  on a kept axis; zero on an inserted one). So an update lands on a given element exactly when its index word is the
  element's segment and its remaining coordinates are the element's. The sum over the update indices that land there
  is then re-indexed by coordinates.
-/
import Idealize.ShloMosaic.PureOps.Ideal
import Idealize.ShloMosaic.PureOps.Contract
import Idealize.ShloMosaic.Lib.ValueIdx
import Idealize.ShloMosaic.Lib.ValueIdxRank1
import Idealize.ShloMosaic.Lib.StableHlo.Predicate

noncomputable section

open scoped BigOperators

namespace Cert.LibSegmentSum

open Idealize.ShloMosaic Idealize.ShloMosaic.ValueIdx

/-! ## One-axis segment sum -/

section Seg1

variable {N M w : Nat} (d : ScatterDims ⟨1, ![N]⟩ ⟨2, ![M, 1]⟩ ⟨1, ![M]⟩)

/-- The window's start on the one operand axis is the update's index word, read signed. -/
theorem start_seg1 (hsd : d.scatterDimsToOperandDims = [0]) (hiv : d.indexVectorDim = 1)
    (idx : IVec ⟨2, ![M, 1]⟩ w) (e : Fin M) :
    d.start (ix1 e) idx 0 = (idx (ix2 e 0)).toInt := by
  have hm : (0 : Fin 1) ∈ d.scatterDimsToOperandDims := by rw [hsd]; exact List.mem_singleton.mpr rfl
  unfold ScatterDims.start
  rw [dif_pos hm]
  congr 2
  funext b
  match b with
  | ⟨0, _⟩ =>
    -- the row of the index table: the update's one coordinate
    unfold ScatterDims.siIdx
    rw [dif_neg (by rw [hiv]; simp)]
    unfold ScatterDims.siCoord
    apply Fin.ext
    simp only [Fin.val_cast]
    have one : ∀ X : Fin 1, ((ix1 e : (⟨1, ![M]⟩ : Shape).Idx) X).val = e.val := fun X => by
      obtain rfl : X = 0 := Subsingleton.elim _ _
      rfl
    exact one _
  | ⟨1, _⟩ =>
    -- the column of the index table: the position of operand axis 0 in the map, which is 0
    unfold ScatterDims.siIdx
    rw [dif_pos (by rw [hiv])]
    apply Fin.ext
    show List.idxOf (0 : Fin 1) d.scatterDimsToOperandDims = 0
    rw [hsd]; simp

/-- The operand's one axis is inserted: the update has no coordinate inside the window. -/
theorem window_seg1 (hiw : d.insertedWindowDims = [0]) (j : (⟨1, ![M]⟩ : Shape).Idx) : d.window j 0 = 0 := by
  unfold ScatterDims.window
  rw [dif_neg]
  rw [ScatterDims.sKept, hiw]
  simp [Shape.kept, List.mem_filter]

end Seg1

section Seg1Main

variable {N M w : Nat} (d : ScatterDims ⟨1, ![N]⟩ ⟨2, ![M, 1]⟩ ⟨1, ![M]⟩)

/-- An update lands on segment `i` exactly when its index word, read signed, is `i`. -/
theorem resultIdx_seg1 (hiw : d.insertedWindowDims = [0]) (hsd : d.scatterDimsToOperandDims = [0]) (hiv : d.indexVectorDim = 1)
    (idx : IVec ⟨2, ![M, 1]⟩ w) (e : Fin M) (i : Fin N) :
    d.resultIdx? (ix1 e) idx = some (ix1 i) ↔ (idx (ix2 e 0)).toInt = (i.val : ℤ) := by
  have hs := start_seg1 d hsd hiv idx e
  have hw := window_seg1 d hiw (ix1 e)
  have hi := i.isLt
  constructor
  · intro h
    unfold ScatterDims.resultIdx? at h
    split at h
    · rename_i hall
      have h0 := congrArg Fin.val (congrFun (Option.some.inj h) 0)
      have hb := hall 0
      rw [hs, hw] at hb
      change (d.start (ix1 e) idx 0 + (d.window (ix1 e) 0 : ℤ)).toNat = i.val at h0
      rw [hs, hw] at h0
      omega
    · cases h
  · intro h
    have hall : ∀ a, 0 ≤ d.start (ix1 e) idx a + d.window (ix1 e) a ∧
        d.start (ix1 e) idx a + d.window (ix1 e) a < (⟨1, ![N]⟩ : Shape).size a := by
      intro a
      obtain rfl : a = 0 := Subsingleton.elim _ _
      rw [hs, hw]
      change 0 ≤ (idx (ix2 e 0)).toInt + ((0 : ℕ) : ℤ) ∧ (idx (ix2 e 0)).toInt + ((0 : ℕ) : ℤ) < (N : ℤ)
      omega
    unfold ScatterDims.resultIdx?
    rw [dif_pos hall]
    congr 1
    funext a
    obtain rfl : a = 0 := Subsingleton.elim _ _
    apply Fin.ext
    change (d.start (ix1 e) idx 0 + (d.window (ix1 e) 0 : ℤ)).toNat = i.val
    rw [hs, hw]
    omega

end Seg1Main

/-- A one-axis segment sum read at a segment: the operand there plus the updates whose index word, read signed, is that segment. -/
theorem scatterAdd_seg1 {N M w : Nat} (d : ScatterDims ⟨1, ![N]⟩ ⟨2, ![M, 1]⟩ ⟨1, ![M]⟩)
    (huw : d.updateWindowDims = []) (hiw : d.insertedWindowDims = [0]) (hsd : d.scatterDimsToOperandDims = [0]) (hiv : d.indexVectorDim = 1)
    (x : (⟨1, ![N]⟩ : Shape).Idx → EReal) (idx : IVec ⟨2, ![M, 1]⟩ w) (upd : (⟨1, ![M]⟩ : Shape).Idx → EReal) (i : Fin N) :
    Host.scatterAdd (F := Ideal) (φ := .f32) d x idx upd (ix1 i)
      = x (ix1 i) + ∑ e ∈ Finset.univ.filter (fun e : Fin M => (idx (ix2 e 0)).toInt = (i.val : ℤ)), upd (ix1 e) := by
  change x (ix1 i) + ∑ j ∈ Finset.univ.filter (fun j => d.resultIdx? j idx = some (ix1 i)), upd j = _
  congr 1
  -- a sum over the update indices is a sum over their one coordinate
  rw [Finset.sum_filter, Finset.sum_filter, ← Equiv.sum_comp idxEquiv1.symm]
  refine Finset.sum_congr rfl fun e _ => ?_
  change (if d.resultIdx? (ix1 e) idx = some (ix1 i) then upd (ix1 e) else 0) = _
  simp only [resultIdx_seg1 d hiw hsd hiv idx e i]

/-! ## Segment sum of rows -/

/-- An entry of a one-element list is that element. -/
theorem getElem_of_eq_singleton {α : Type} {l : List α} {a : α} (hl : l = [a]) (k : Nat) (h : k < l.length) : l[k] = a := by
  subst hl
  have hk : k = 0 := by simpa using h
  subst hk
  rfl

section Rows

variable {N M D w : Nat} (d : ScatterDims ⟨2, ![N, D]⟩ ⟨2, ![M, 1]⟩ ⟨2, ![M, D]⟩)

/-- On the segment axis the window's start is the update row's index word, read signed. -/
theorem start_rows0 (huw : d.updateWindowDims = [1]) (hsd : d.scatterDimsToOperandDims = [0]) (hiv : d.indexVectorDim = 1)
    (idx : IVec ⟨2, ![M, 1]⟩ w) (e : Fin M) (c' : Fin D) :
    d.start (ix2 e c') idx 0 = (idx (ix2 e 0)).toInt := by
  have hm : (0 : Fin 2) ∈ d.scatterDimsToOperandDims := by rw [hsd]; exact List.mem_singleton.mpr rfl
  -- the updates' one scatter axis is axis 0
  have hus : d.uScatter = [(0 : Fin 2)] := by
    change (⟨2, ![M, D]⟩ : Shape).kept d.updateWindowDims = [0]
    rw [huw]; rfl
  unfold ScatterDims.start
  rw [dif_pos hm]
  congr 2
  funext b
  match b with
  | ⟨0, _⟩ =>
    unfold ScatterDims.siIdx
    rw [dif_neg (by rw [hiv]; simp)]
    unfold ScatterDims.siCoord
    apply Fin.ext
    simp only [Fin.val_cast]
    have row : ∀ X : Fin 2, X = 0 → ((ix2 e c' : (⟨2, ![M, D]⟩ : Shape).Idx) X).val = e.val := by
      rintro _ rfl; rfl
    exact row _ (getElem_of_eq_singleton hus _ _)
  | ⟨1, _⟩ =>
    unfold ScatterDims.siIdx
    rw [dif_pos (by rw [hiv])]
    apply Fin.ext
    show List.idxOf (0 : Fin 2) d.scatterDimsToOperandDims = 0
    rw [hsd]; simp

/-- The column axis is not named by the index: its window starts at zero. -/
theorem start_rows1 (hsd : d.scatterDimsToOperandDims = [0]) (idx : IVec ⟨2, ![M, 1]⟩ w) (j : (⟨2, ![M, D]⟩ : Shape).Idx) :
    d.start j idx 1 = 0 := by
  unfold ScatterDims.start
  rw [dif_neg (by rw [hsd]; simp)]

/-- The segment axis is inserted: the update has no coordinate inside the window there. -/
theorem window_rows0 (hiw : d.insertedWindowDims = [0]) (j : (⟨2, ![M, D]⟩ : Shape).Idx) : d.window j 0 = 0 := by
  unfold ScatterDims.window
  rw [dif_neg]
  rw [ScatterDims.sKept, hiw]
  simp [Shape.kept, List.mem_filter]

/-- On the column axis the window coordinate is the update's column. -/
theorem window_rows1 (huw : d.updateWindowDims = [1]) (hiw : d.insertedWindowDims = [0]) (e : Fin M) (c' : Fin D) :
    d.window (ix2 e c') 1 = c'.val := by
  have hk : (1 : Fin 2) ∈ d.sKept := by
    rw [ScatterDims.sKept, hiw]
    simp [Shape.kept, List.mem_filter]
  unfold ScatterDims.window
  rw [dif_pos hk]
  have col : ∀ X : Fin 2, X = 1 → ((ix2 e c' : (⟨2, ![M, D]⟩ : Shape).Idx) X).val = c'.val := by
    rintro _ rfl; rfl
  exact col _ (getElem_of_eq_singleton huw _ _)

end Rows

section RowsMain

variable {N M D w : Nat} (d : ScatterDims ⟨2, ![N, D]⟩ ⟨2, ![M, 1]⟩ ⟨2, ![M, D]⟩)

/-- An update element lands on (segment `i`, column `c`) exactly when its row's index word, read signed, is `i`
    and its own column is `c`. -/
theorem resultIdx_rows (huw : d.updateWindowDims = [1]) (hiw : d.insertedWindowDims = [0]) (hsd : d.scatterDimsToOperandDims = [0])
    (hiv : d.indexVectorDim = 1) (idx : IVec ⟨2, ![M, 1]⟩ w) (e : Fin M) (c' : Fin D) (i : Fin N) (c : Fin D) :
    d.resultIdx? (ix2 e c') idx = some (ix2 i c) ↔ ((idx (ix2 e 0)).toInt = (i.val : ℤ) ∧ c' = c) := by
  have hs0 := start_rows0 d huw hsd hiv idx e c'
  have hs1 := start_rows1 d hsd idx (ix2 e c')
  have hw0 := window_rows0 d hiw (ix2 e c')
  have hw1 := window_rows1 d huw hiw e c'
  have hi := i.isLt
  have hc := c.isLt
  have hc' := c'.isLt
  constructor
  · intro h
    unfold ScatterDims.resultIdx? at h
    split at h
    · rename_i hall
      have hf := Option.some.inj h
      have h0 := congrArg Fin.val (congrFun hf 0)
      have h1 := congrArg Fin.val (congrFun hf 1)
      have hb := hall 0
      rw [hs0, hw0] at hb
      change (d.start (ix2 e c') idx 0 + (d.window (ix2 e c') 0 : ℤ)).toNat = i.val at h0
      change (d.start (ix2 e c') idx 1 + (d.window (ix2 e c') 1 : ℤ)).toNat = c.val at h1
      rw [hs0, hw0] at h0
      rw [hs1, hw1] at h1
      exact ⟨by omega, Fin.ext (by omega)⟩
    · cases h
  · rintro ⟨h, rfl⟩
    have hall : ∀ a, 0 ≤ d.start (ix2 e c') idx a + d.window (ix2 e c') a ∧
        d.start (ix2 e c') idx a + d.window (ix2 e c') a < (⟨2, ![N, D]⟩ : Shape).size a := by
      refine Fin.forall_fin_two.mpr ⟨?_, ?_⟩
      · rw [hs0, hw0]
        change 0 ≤ (idx (ix2 e 0)).toInt + ((0 : ℕ) : ℤ) ∧ (idx (ix2 e 0)).toInt + ((0 : ℕ) : ℤ) < (N : ℤ)
        omega
      · rw [hs1, hw1]
        change 0 ≤ (0 : ℤ) + ((c'.val : ℕ) : ℤ) ∧ (0 : ℤ) + ((c'.val : ℕ) : ℤ) < (D : ℤ)
        omega
    unfold ScatterDims.resultIdx?
    rw [dif_pos hall]
    congr 1
    funext a
    apply Fin.ext
    revert a
    refine Fin.forall_fin_two.mpr ⟨?_, ?_⟩
    · change (d.start (ix2 e c') idx 0 + (d.window (ix2 e c') 0 : ℤ)).toNat = i.val
      rw [hs0, hw0]
      omega
    · change (d.start (ix2 e c') idx 1 + (d.window (ix2 e c') 1 : ℤ)).toNat = c'.val
      rw [hs1, hw1]
      omega

end RowsMain

/-- A segment sum of rows read at (segment, column). -/
theorem scatterAdd_segRows {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0]) (hiv : d.indexVectorDim = 1)
    (x : (⟨2, ![N, D]⟩ : Shape).Idx → EReal) (idx : IVec ⟨2, ![M, 1]⟩ w) (upd : (⟨2, ![M, D]⟩ : Shape).Idx → EReal) (i : Fin N) (c : Fin D) :
    Host.scatterAdd (F := Ideal) (φ := .f32) d x idx upd (ix2 i c)
      = x (ix2 i c) + ∑ e ∈ Finset.univ.filter (fun e : Fin M => (idx (ix2 e 0)).toInt = (i.val : ℤ)), upd (ix2 e c) := by
  change x (ix2 i c) + ∑ j ∈ Finset.univ.filter (fun j => d.resultIdx? j idx = some (ix2 i c)), upd j = _
  congr 1
  -- a sum over the update indices is the double sum over (row, column); in each row only column `c` can land
  rw [Finset.sum_filter, Finset.sum_filter, sum_idx2]
  refine Finset.sum_congr rfl fun e _ => ?_
  simp only [resultIdx_rows d huw hiw hsd hiv idx]
  by_cases hP : (idx (ix2 e 0)).toInt = (i.val : ℤ)
  · simp [hP]
  · simp [hP]

/-! ## Gathers -/

/-- The index of row `p` of a one-column table, in the two spellings that name it. -/
theorem ixP_eq {n : Nat} (p : Fin n) : StableHlo.Predicate.ixP p = ix2 p (0 : Fin 1) := by
  funext b; match b with | ⟨0, _⟩ => rfl | ⟨1, _⟩ => rfl

/-- A rank-1 index from its coordinate, in the two spellings that name it. -/
theorem ofFin_eq {n : Nat} (p : Fin n) : Shape.Idx.ofFin p = ix1 p := by
  funext b; match b with | ⟨0, _⟩ => rfl

/-- A one-axis gather (x[idx] of a flat array) read at a position: the entry the index word names, read signed and clamped into [0, N - 1]. -/
theorem gather_seg1 {α : Type} {N M w : Nat} (d : GatherDims ⟨1, ![N]⟩ ⟨2, ![M, 1]⟩ ⟨1, ![M]⟩) (hcoll : d.collapsedSliceDims = [0]) (hob : d.operandBatchingDims = []) (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e 0)).toInt.toNat (N - 1), by omega⟩) := by
  have h := StableHlo.Predicate.gather_take d hcoll hob hsim hivd x idx e hN
  rw [ofFin_eq, ofFin_eq] at h
  simp only [ixP_eq] at h
  exact h

section GRows

variable {N M D w : Nat} (d : GatherDims ⟨2, ![N, D]⟩ ⟨2, ![M, 1]⟩ ⟨2, ![M, D]⟩)

/-- The start-index table is read at (the result's row, 0). -/
theorem siIdx_rows (hoff : d.offsetDims = [1]) (hsim : d.startIndexMap = [0]) (hivd : d.indexVectorDim = 1)
    (e : Fin M) (c : Fin D) (k : Fin d.startIndexMap.length) :
    d.siIdx (ix2 e c) k = ix2 e 0 := by
  -- the result's one batch axis is axis 0
  have hbd : d.batchDims = [(0 : Fin 2)] := by
    change (⟨2, ![M, D]⟩ : Shape).kept d.offsetDims = [0]
    rw [hoff]; rfl
  funext b
  match b with
  | ⟨0, _⟩ =>
    unfold GatherDims.siIdx
    rw [dif_neg (by rw [hivd]; simp)]
    unfold GatherDims.siCoord
    apply Fin.ext
    simp only [Fin.val_cast]
    have row : ∀ X : Fin 2, X = 0 → ((ix2 e c : (⟨2, ![M, D]⟩ : Shape).Idx) X).val = e.val := by
      rintro _ rfl; rfl
    exact row _ (getElem_of_eq_singleton hbd _ _)
  | ⟨1, _⟩ =>
    unfold GatherDims.siIdx
    rw [dif_pos (by rw [hivd])]
    apply Fin.ext
    show k.val = 0
    have hk : k.val < d.startIndexMap.length := k.isLt
    have hl : d.startIndexMap.length = 1 := by rw [hsim]; rfl
    omega

/-- On the column axis the offset coordinate is the result's column. -/
theorem offCoord_rows1 (hoff : d.offsetDims = [1]) (hcoll : d.collapsedSliceDims = [0]) (hob : d.operandBatchingDims = [])
    (e : Fin M) (c : Fin D) : d.offCoord (ix2 e c) 1 = c.val := by
  have hk : (1 : Fin 2) ∈ d.sKept := by rw [GatherDims.mem_sKept, hcoll, hob]; simp
  unfold GatherDims.offCoord
  rw [dif_pos hk]
  have col : ∀ X : Fin 2, X = 1 → ((ix2 e c : (⟨2, ![M, D]⟩ : Shape).Idx) X).val = c.val := by
    rintro _ rfl; rfl
  exact col _ (getElem_of_eq_singleton hoff _ _)

end GRows

/-- A gather of rows (x[idx] of a matrix) read at (position, column): the row the index word names, read signed and clamped into [0, N - 1]. -/
theorem gather_rows {α : Type} {N M D w : Nat} (d : GatherDims ⟨2, ![N, D]⟩ ⟨2, ![M, 1]⟩ ⟨2, ![M, D]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, D])
    (x : (⟨2, ![N, D]⟩ : Shape).Idx → α) (idx : IVec ⟨2, ![M, 1]⟩ w) (e : Fin M) (c : Fin D) (hN : 0 < N) :
    Host.gather d x idx (ix2 e c) = x (ix2 ⟨min (idx (ix2 e 0)).toInt.toNat (N - 1), by omega⟩ c) := by
  have hb : ∀ a : Fin 2, a ∉ d.operandBatchingDims := fun a => by rw [hob]; exact List.not_mem_nil
  unfold Host.gather
  congr 1
  funext a
  apply Fin.ext
  revert a
  refine Fin.forall_fin_two.mpr ⟨?_, ?_⟩
  · -- the row axis: collapsed and named by the index, so the clamped start alone
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    change d.start (ix2 e c) idx 0 + d.batchCoord (ix2 e c) 0 + d.offCoord (ix2 e c) 0 = min (idx (ix2 e 0)).toInt.toNat (N - 1)
    rw [GatherDims.batchCoord_eq_zero _ _ _ (hb 0), GatherDims.offCoord_eq_zero _ _ _ hk]
    simp only [Nat.add_zero]
    unfold GatherDims.start
    rw [dif_pos hm, siIdx_rows d hoff hsim hivd e c, hsl]
    rfl
  · -- the column axis: kept and not named by the index, so the offset coordinate alone
    have hm : (1 : Fin 2) ∉ d.startIndexMap := by rw [hsim]; simp
    change d.start (ix2 e c) idx 1 + d.batchCoord (ix2 e c) 1 + d.offCoord (ix2 e c) 1 = c.val
    rw [GatherDims.batchCoord_eq_zero _ _ _ (hb 1), offCoord_rows1 d hoff hcoll hob e c, Nat.add_zero]
    unfold GatherDims.start
    rw [dif_neg hm, Nat.zero_add]

/-! ## Words -/

/-- A word that, read signed, lies in [0, N) is its own clamp into [0, N - 1]. -/
theorem clamp_of_inRange {N : Nat} (v : BitVec 32) (h0 : 0 ≤ v.toInt) (hN : v.toInt < (N : ℤ)) :
    min v.toInt.toNat (N - 1) = v.toInt.toNat := by
  have h : v.toInt.toNat < N := by omega
  exact Nat.min_eq_left (by omega)

end Cert.LibSegmentSum

end
-- ==== Proof.KHostAdjA.lean ====
/-
  The dense adjacency matrix as the host stretch before the first kernel region spells it, stage by stage, and each
  stage read at one index.

  The stretch lists the edges (the given ones, then one self loop per node), counts the edges into each node, takes the
  inverse square root of each count (zero where the count is zero), weighs every edge by the product of the two inverse
  square roots at its ends, and adds each weight into the slot `target * 10240 + source` of a flat array of
  `10240 * 10240` slots, which it then reads as a square matrix. Under the range hypothesis on the edge words the slot
  of an edge is below `2^31`, two edges share a slot exactly when they share both ends, and the count at a node is
  the degree of the specification; so entry `(i, j)` is the specification's `adj` there (`kadj_apply`).
-/
import proofs.«430691_j58471684768359_3_alg».proof.Proof.Gen.KernelIdeal
import proofs.«430691_j58471684768359_3_alg».proof.Proof.GcnSpec
import proofs.«430691_j58471684768359_3_alg».proof.Proof.Consts
import proofs.«430691_j58471684768359_3_alg».proof.Proof.LibSegmentSum
import proofs.«430691_j58471684768359_3_alg».proof.Proof.Edges
import Idealize.ShloMosaic.Lib.ValueIdx
import Idealize.ShloMosaic.Lib.IdealHost
import Idealize.ShloMosaic.Lib.Pipeline.Value
import Idealize.ShloMosaic.Lib.StableHlo.Predicate

noncomputable section

open scoped BigOperators

namespace Cert.KernelIdeal.KHost

open Cert.KernelIdeal Cert.KernelIdeal.Gen
open Idealize.ShloMosaic Idealize.ShloMosaic.ValueIdx

/-! ## The stages -/

/-- The source words: row `0` of the input, then the positions `0 … 9999`. -/
def ksrc (E : IVec S2x320000 32) : IVec S330000 32 :=
  concatenate S330000 0
    [⟨S320000, fun i => shapeCast S320000 (extractStridedSlice S1x320000 ![0, 0] E slices_S2x320000_S1x320000_0_0)
        shapeCasts_S1x320000_S320000 i⟩,
     ⟨S10000, iotaInDim S10000 32 0⟩] concatenates_S320000_S10000_S330000_d0

/-- The target words: row `1` of the input, then the positions `0 … 9999`. -/
def ktgt (E : IVec S2x320000 32) : IVec S330000 32 :=
  concatenate S330000 0
    [⟨S320000, fun i => shapeCast S320000 (extractStridedSlice S1x320000 ![1, 0] E slices_S2x320000_S1x320000_1_0)
        shapeCasts_S1x320000_S320000 i⟩,
     ⟨S10000, iotaInDim S10000 32 0⟩] concatenates_S320000_S10000_S330000_d0

/-- The count of edges into each of `10240` slots: a segment sum of ones by target word. -/
def kdeg (t : IVec S330000 32) : FVec Ideal S10240 .f32 :=
  Host.scatterAdd scatter_S10240_S330000x1_S330000_n_0_0_1
    (broadcastInDim S10240 ![] bcast_S_S10240 (constant (F := Ideal) S_ .f32 0x00000000#32))
    (broadcastInDim S330000x1 ![0] bcast_S330000_S330000x1_0 t)
    (broadcastInDim S330000 ![] bcast_S_S330000 (constant (F := Ideal) S_ .f32 0x3F800000#32))

/-- The inverse square root of `max count 1` where the count is positive, zero elsewhere. -/
def kisd (g : FVec Ideal S10240 .f32) : FVec Ideal S10240 .f32 :=
  select (cmpf .ogt g (broadcastInDim S10240 ![] bcast_S_S10240 (constant (F := Ideal) S_ .f32 0x00000000#32)))
    (Host.rsqrt (maximumf g (broadcastInDim S10240 ![] bcast_S_S10240 (constant (F := Ideal) S_ .f32 0x3F800000#32))))
    (broadcastInDim S10240 ![] bcast_S_S10240 (id (constant (F := Ideal) S_ .f32 0x00000000#32)))

/-- A vector of `10240` entries read at the words `w`, a negative word moved up by `10240` first. -/
def kgat (x : FVec Ideal S10240 .f32) (w : IVec S330000 32) : FVec Ideal S330000 .f32 :=
  Host.gather gather_S10240_S330000x1_S330000_n_0_n_n_0_1_1 x
    (broadcastInDim S330000x1 ![0] bcast_S330000_S330000x1_0
      (select (cmpi .slt w (broadcastInDim S330000 ![] bcast_S_S330000 (constantI S_ 32 0#32)))
        (addi w (broadcastInDim S330000 ![] bcast_S_S330000 (constantI S_ 32 10240#32))) w))

/-- The slot of each edge: `target * 10240 + source`, in 32-bit words. -/
def kslot (t s : IVec S330000 32) : IVec S330000 32 :=
  addi (muli t (broadcastInDim S330000 ![] bcast_S_S330000 (constantI S_ 32 10240#32))) s

/-- The flat matrix: a segment sum of the weights by slot. -/
def kflat (slot : IVec S330000 32) (wt : FVec Ideal S330000 .f32) : FVec Ideal S104857600 .f32 :=
  Host.scatterAdd scatter_S104857600_S330000x1_S330000_n_0_0_1
    (broadcastInDim S104857600 ![] bcast_S_S104857600 (constant (F := Ideal) S_ .f32 0x00000000#32))
    (broadcastInDim S330000x1 ![0] bcast_S330000_S330000x1_0 slot) wt

/-- The flat matrix read as a square one, in the narrower float format (the same extended real). -/
def ksq (flat : FVec Ideal S104857600 .f32) : FVec Ideal S10240x10240 .bf16 :=
  truncf .bf16 (fun i => shapeCast S10240x10240 flat shapeCasts_S104857600_S10240x10240 i) bitsLt_bf16_f32

/-- The adjacency matrix the stretch builds from the input. -/
def kadj (E : IVec S2x320000 32) : FVec Ideal S10240x10240 .bf16 :=
  ksq (kflat (kslot (ktgt E) (ksrc E))
    (mulf (kgat (kisd (kdeg (ktgt E))) (ksrc E)) (kgat (kisd (kdeg (ktgt E))) (ktgt E))))

/-! ## The stages read at an index -/

/-- Row `r` of the input as a flat vector, read at `k`. -/
theorem row_apply (E : IVec S2x320000 32) (r : Fin 2) (h : S2x320000.Slices ![r.val, 0] S1x320000) (k : Fin 320000) :
    shapeCast S320000 (extractStridedSlice S1x320000 ![r.val, 0] E h) shapeCasts_S1x320000_S320000 (ix1 k) = E (ix2 r k) := by
  refine (shapeCast_apply _ _ (ix1 k) (ix2 (0 : Fin 1) k) ?_).trans ?_
  · rw [Shape.rowMajor_val_two, Shape.rowMajor_val_one]
    show (0 : ℕ) * 320000 + k.val = k.val
    omega
  · refine extractStridedSlice_apply _ E h (ix2 (0 : Fin 1) k) (ix2 r k) fun a => ?_
    match a with
    | ⟨0, _⟩ => show r.val = r.val + 0; omega
    | ⟨1, _⟩ => show k.val = 0 + k.val; omega

/-- The source words are the node words of row `0`. -/
theorem ksrc_apply (E : IVec S2x320000 32) (e : Fin 330000) : ksrc E (ix1 e) = Cert.Edges.nodeW E 0 e :=
  Cert.Edges.nodes_concat E 0 _ (fun k => row_apply E 0 slices_S2x320000_S1x320000_0_0 k) _ (fun k => rfl) _ e

/-- The target words are the node words of row `1`. -/
theorem ktgt_apply (E : IVec S2x320000 32) (e : Fin 330000) : ktgt E (ix1 e) = Cert.Edges.nodeW E 1 e :=
  Cert.Edges.nodes_concat E 1 _ (fun k => row_apply E 1 slices_S2x320000_S1x320000_1_0 k) _ (fun k => rfl) _ e

/-- A vector stood up as a column reads, at `(e, 0)`, the vector at `e`. -/
theorem col_apply {α : Type} (v : S330000.Idx → α) (e : Fin 330000) :
    broadcastInDim S330000x1 ![0] bcast_S330000_S330000x1_0 v (ix2 e 0) = v (ix1 e) := by
  refine broadcastInDim_apply _ _ v (ix2 e 0) (ix1 e) fun a => ?_
  match a with
  | ⟨0, _⟩ => exact (if_neg (by decide : ¬ ((330000 : ℕ) = 1))).symm

/-- The count at slot `n`: zero plus one for every edge whose target word, read signed, is `n`. -/
theorem kdeg_apply (t : IVec S330000 32) (n : Fin 10240) :
    kdeg t (ix1 n) = 0 + ∑ e ∈ Finset.univ.filter (fun e : Fin 330000 => (t (ix1 e)).toInt = (n.val : ℤ)), (1 : EReal) := by
  unfold kdeg
  rw [Cert.LibSegmentSum.scatterAdd_seg1 (N := 10240) (M := 330000) (w := 32) scatter_S10240_S330000x1_S330000_n_0_0_1 rfl rfl rfl rfl]
  rw [broadcastInDim_scalar_apply, constant_apply, Cert.Consts.ofBits_zero]
  refine congrArg (fun s : EReal => (0 : EReal) + s) ?_
  refine Finset.sum_congr (Finset.filter_congr fun e _ => by rw [col_apply]) fun e _ => ?_
  rw [broadcastInDim_scalar_apply, constant_apply, Cert.Consts.ofBits_one]

/-- The inverse square root stage is the specification's `isdOf` of the count. -/
theorem kisd_apply (g : FVec Ideal S10240 .f32) (n : Fin 10240) : kisd g (ix1 n) = Cert.GcnSpec.isdOf (g (ix1 n)) := by
  show Scalar.select (Ideal.cmp .ogt (g (ix1 n)) (Ideal.ofBits .f32 0x00000000#32))
      (Ideal.rsqrt (max (g (ix1 n)) (Ideal.ofBits .f32 0x3F800000#32))) (Ideal.ofBits .f32 0x00000000#32) = _
  rw [Cert.Consts.ofBits_zero, Cert.Consts.ofBits_one]
  unfold Cert.GcnSpec.isdOf Ideal.cmp
  by_cases h : 0 < g (ix1 n)
  · rw [if_pos h, decide_eq_true h]; exact select_one _ _
  · rw [if_neg h, decide_eq_false h]; exact select_zero _ _

/-- The gather at a word that, read signed, lies in `[0, 10240)` reads the vector at that word. -/
theorem kgat_apply (x : FVec Ideal S10240 .f32) (w : IVec S330000 32) (e : Fin 330000)
    (h0 : 0 ≤ (w (ix1 e)).toInt) (h1 : (w (ix1 e)).toInt < 10240) :
    kgat x w (ix1 e) = x (ix1 ⟨(w (ix1 e)).toInt.toNat, by omega⟩) := by
  unfold kgat
  rw [Cert.LibSegmentSum.gather_seg1 (N := 10240) (M := 330000) (w := 32) gather_S10240_S330000x1_S330000_n_0_n_n_0_1_1 rfl rfl rfl rfl _ _ e (by decide)]
  have hsel : (select (cmpi .slt w (broadcastInDim S330000 ![] bcast_S_S330000 (constantI S_ 32 0#32)))
      (addi w (broadcastInDim S330000 ![] bcast_S_S330000 (constantI S_ 32 10240#32))) w) (ix1 e) = w (ix1 e) := by
    show Scalar.select (BitVec.ofBool ((w (ix1 e)).slt 0#32)) _ (w (ix1 e)) = w (ix1 e)
    have hs : (w (ix1 e)).slt 0#32 = false := by
      simp only [BitVec.slt, BitVec.toInt_zero, decide_eq_false_iff_not, not_lt]; exact h0
    rw [hs]; exact select_zero _ _
  refine congrArg x (congrArg ix1 (Fin.ext ?_))
  show min _ _ = _
  rw [col_apply, hsel]
  exact Cert.LibSegmentSum.clamp_of_inRange _ h0 (by omega)

/-- The slot word of an edge. -/
theorem kslot_apply (t s : IVec S330000 32) (e : Fin 330000) : kslot t s (ix1 e) = t (ix1 e) * 10240#32 + s (ix1 e) := rfl

/-- The flat matrix at slot `p`: zero plus the weights of the edges whose slot word, read signed, is `p`. -/
theorem kflat_apply (slot : IVec S330000 32) (wt : FVec Ideal S330000 .f32) (p : Fin 104857600) :
    kflat slot wt (ix1 p)
      = 0 + ∑ e ∈ Finset.univ.filter (fun e : Fin 330000 => (slot (ix1 e)).toInt = (p.val : ℤ)), wt (ix1 e) := by
  unfold kflat
  rw [Cert.LibSegmentSum.scatterAdd_seg1 (N := 104857600) (M := 330000) (w := 32) scatter_S104857600_S330000x1_S330000_n_0_0_1 rfl rfl rfl rfl]
  rw [broadcastInDim_scalar_apply, constant_apply, Cert.Consts.ofBits_zero]
  refine congrArg (fun s : EReal => (0 : EReal) + s) ?_
  exact Finset.sum_congr (Finset.filter_congr fun e _ => by rw [col_apply]) fun e _ => rfl

/-- The square matrix at `(i, j)` is the flat one at slot `i * 10240 + j`. -/
theorem ksq_apply (flat : FVec Ideal S104857600 .f32) (i j : Fin 10240) :
    ksq flat (ix2 i j) = flat (ix1 ⟨i.val * 10240 + j.val, by have := i.isLt; have := j.isLt; omega⟩) := by
  show shapeCast S10240x10240 flat shapeCasts_S104857600_S10240x10240 (ix2 i j) = _
  refine shapeCast_apply _ _ (ix2 i j) (ix1 ⟨i.val * 10240 + j.val, by have := i.isLt; have := j.isLt; omega⟩) ?_
  rw [Shape.rowMajor_val_two, Shape.rowMajor_val_one]
  rfl

/-! ## The entry -/

section Entry

variable {E : IVec S2x320000 32} (hE : Cert.Edges.InRange E)

/-- The count at a node's slot is the specification's degree of the node: an edge's target word, read signed, is the
    node exactly when the edge's target is the node. -/
theorem kdeg_node (n : Fin 10000) :
    kdeg (ktgt E) (ix1 ⟨n.val, by have := n.isLt; omega⟩) = Cert.GcnSpec.deg (Cert.Edges.node hE 1) n := by
  rw [kdeg_apply]
  unfold Cert.GcnSpec.deg
  refine congrArg (fun s : EReal => (0 : EReal) + s) ?_
  refine Finset.sum_congr (Finset.filter_congr fun e _ => ?_) fun _ _ => rfl
  rw [ktgt_apply, Cert.Edges.nodeW_toInt hE]
  show ((Cert.Edges.node hE 1 e).val : ℤ) = (n.val : ℤ) ↔ Cert.Edges.node hE 1 e = n
  rw [Fin.ext_iff]
  omega

/-- The inverse square roots read at the node words of row `r` are the specification's at those nodes. -/
theorem kgat_node (W : IVec S330000 32) (r : Fin 2) (hW : ∀ e, W (ix1 e) = Cert.Edges.nodeW E r e) (e : Fin 330000) :
    kgat (kisd (kdeg (ktgt E))) W (ix1 e) = Cert.GcnSpec.isd (Cert.Edges.node hE 1) (Cert.Edges.node hE r e) := by
  have hr := Cert.Edges.nodeW_range hE r e
  rw [kgat_apply _ _ _ (by rw [hW]; exact hr.1) (by rw [hW]; have := hr.2; omega), kisd_apply]
  unfold Cert.GcnSpec.isd
  refine congrArg Cert.GcnSpec.isdOf ?_
  rw [← kdeg_node hE (Cert.Edges.node hE r e)]
  refine congrArg (kdeg (ktgt E)) (congrArg ix1 (Fin.ext ?_))
  show (W (ix1 e)).toInt.toNat = (Cert.Edges.node hE r e).val
  rw [hW]
  rfl

/-- The slot word of an edge, read signed, is `target * 10240 + source`: below `2^31`, so nothing wraps. -/
theorem slot_toInt (e : Fin 330000) :
    (kslot (ktgt E) (ksrc E) (ix1 e)).toInt
      = ((Cert.Edges.node hE 1 e).val : ℤ) * 10240 + ((Cert.Edges.node hE 0 e).val : ℤ) := by
  rw [kslot_apply, ktgt_apply, ksrc_apply, Cert.Edges.nodeW_eq hE 1 e, Cert.Edges.nodeW_eq hE 0 e]
  have h1 := (Cert.Edges.node hE 1 e).isLt
  have h0 := (Cert.Edges.node hE 0 e).isLt
  have hw : BitVec.ofNat 32 (Cert.Edges.node hE 1 e).val * 10240#32 + BitVec.ofNat 32 (Cert.Edges.node hE 0 e).val
      = BitVec.ofNat 32 ((Cert.Edges.node hE 1 e).val * 10240 + (Cert.Edges.node hE 0 e).val) := by
    rw [BitVec.ofNat_add, BitVec.ofNat_mul]
  rw [hw, StableHlo.Predicate.toInt_ofNat_small _ (by omega)]
  omega

/-- Entry `(i, j)` of the adjacency the stretch builds is the specification's: the edges in slot `i * 10240 + j` are
    those from `j` to `i`, and each weighs the product of the inverse square-root degrees at its ends. -/
theorem kadj_apply (i j : Fin 10240) :
    kadj E (ix2 i j) = Cert.GcnSpec.adj (Cert.Edges.node hE 0) (Cert.Edges.node hE 1) i j := by
  unfold kadj
  rw [ksq_apply, kflat_apply]
  unfold Cert.GcnSpec.adj
  refine congrArg (fun s : EReal => (0 : EReal) + s) ?_
  refine Finset.sum_congr (Finset.filter_congr fun e _ => ?_) fun e _ => ?_
  · rw [slot_toInt hE e]
    have h1 := (Cert.Edges.node hE 1 e).isLt
    have h0 := (Cert.Edges.node hE 0 e).isLt
    have hi := i.isLt
    have hj := j.isLt
    show ((Cert.Edges.node hE 1 e).val : ℤ) * 10240 + ((Cert.Edges.node hE 0 e).val : ℤ) = ((i.val * 10240 + j.val : ℕ) : ℤ)
      ↔ (Cert.Edges.node hE 1 e).val = i.val ∧ (Cert.Edges.node hE 0 e).val = j.val
    omega
  · rw [mulf_apply, kgat_node hE (ksrc E) 0 (ksrc_apply E) e, kgat_node hE (ktgt E) 1 (ktgt_apply E) e]
    rfl

end Entry

end Cert.KernelIdeal.KHost

end
-- ==== Proof.KHostAdj.lean ====
/-
  The adjacency buffer at the first kernel region's entry, read at one entry.

  The host stretch before the first region writes the buffer as the last of a chain of operations on the edge input.
  Read back through the stretch, the buffer is the staged adjacency `kadj` of the edge words (`w_adj`: each
  operation's result is its function of its operands' results, down to the input); and `kadj` at `(i, j)` is the
  specification's dense adjacency (`kadj_apply`, which needs the range hypothesis on the edge words).
-/
import proofs.«430691_j58471684768359_3_alg».proof.Proof.FrameKernelIdeal
import proofs.«430691_j58471684768359_3_alg».proof.Proof.KHostAdjA
import Idealize.ShloMosaic.Lib.StableHlo.Run

noncomputable section

open scoped BigOperators

namespace Cert.KernelIdeal.KHost

open Cert.KernelIdeal Cert.KernelIdeal.Gen Cert.KernelIdeal.GenP
open Idealize.ShloMosaic Idealize.ShloMosaic.TcCoe Idealize.ShloMosaic.ValueIdx

variable (m : (ℓ : Loc nD τ sig) → Buf (Elt Ideal) ℓ) (ρ : Dev nD → PrngReg)

set_option maxRecDepth 8192 in
set_option maxHeartbeats 8000000 in
/-- The adjacency buffer after the stretch is the staged adjacency of the input's edge words. -/
theorem w_adj (c : Dev nD) :
    (W1 m ρ c (Proc.devRef .tc main_call0_v39) : FVec Ideal S10240x10240 .bf16) = kadj (m ((c : Thread nD τ).loc main_arg1)) := by
  show StableHlo.after hostOps0 (W0 m ρ c) (Proc.devRef .tc main_call0_v39) = kadj (W0 m ρ c (Proc.devRef .tc main_arg1))
  unfold kadj ksq kflat kslot kgat kisd kdeg ktgt ksrc
  after_results_simp
  try simp only [StableHlo.TRef.ofBuf, StableHlo.TRef.toBuf, cast_eq]
  try rfl

/-- The adjacency buffer at the first region's entry, read at `(i, j)`, is the specification's dense adjacency of the
    graph whose edges are the node words of the input. -/
theorem adj_read (c : Dev nD) (hE : Cert.Edges.InRange (m ((c : Thread nD τ).loc main_arg1))) (i j : Fin 10240) :
    (V1 m ρ c main_call0_v39 : S10240x10240.Idx → EReal) (ix2 i j)
      = Cert.GcnSpec.adj (Cert.Edges.node hE 0) (Cert.Edges.node hE 1) i j :=
  (congrFun (w_adj m ρ c) (ix2 i j)).trans (kadj_apply hE i j)

end Cert.KernelIdeal.KHost

end
-- ==== Proof.KHostRestA.lean ====
/-
  The host stretch's arrays other than the adjacency, as functions of the argument they are computed from, read at an
  entry. The pooling array over the group words `B`: the indicator of "node `n`'s word is row `g`'s number" (a word
  equals the word of a small natural exactly when it reads signed as that natural), its row sums, the quotient by the
  row sum clamped below at `1`, and `240` zero columns behind: the pooling matrix of the words read signed. The
  padded features: the features with `240` zero rows below. At the ideal instance a change of float format is the
  identity and the float of the integer `0` is `0`.
-/
import proofs.«430691_j58471684768359_3_alg».proof.Proof.Gen.KernelIdeal
import proofs.«430691_j58471684768359_3_alg».proof.Proof.GcnSpec
import proofs.«430691_j58471684768359_3_alg».proof.Proof.Consts
import Idealize.ShloMosaic.Lib.ValueIdx
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

namespace Cert.KernelIdeal.KHost.Rest

open Cert.KernelIdeal Cert.KernelIdeal.Gen Idealize.ShloMosaic Idealize.ShloMosaic.ValueIdx
open scoped BigOperators

/-! ## Words -/

/-- A natural below `2 ^ 31` as a 32-bit word reads signed as itself. -/
theorem toInt_ofNat_small (n : Nat) (hn : n < 2 ^ 31) : (BitVec.ofNat 32 n).toInt = (n : ℤ) := by
  rw [BitVec.toInt_ofNat']
  exact Int.bmod_eq_of_le (by omega) (by omega)

/-- The bit of "the word `w` is the word of `g`", read unsigned as a real, is the indicator of "`w` read signed is `g`":
    a word is determined by its signed reading, and the word of a small natural reads signed as that natural. -/
theorem eqBit_real (w : BitVec 32) (g : Nat) (hg : g < 2 ^ 31) :
    (((IntOp.cmpi .eq w (BitVec.ofNat 32 g)).toNat : ℝ) : EReal) = if w.toInt = (g : ℤ) then 1 else 0 := by
  have hgi := toInt_ofNat_small g hg
  by_cases h : w = BitVec.ofNat 32 g
  · subst h
    rw [if_pos hgi]
    simp [IntOp.cmpi]
  · have hne : ¬ w.toInt = (g : ℤ) := fun e => h (BitVec.eq_of_toInt_eq (e.trans hgi.symm))
    rw [if_neg hne]
    simp [IntOp.cmpi, h]

/-! ## The pooling matrix, stage by stage, over the group words `B` -/

section Pool

variable (B : IVec S10000 32)

/-- The group words laid over the `128` group rows. -/
def poolWords : IVec S128x10000 32 :=
  broadcastInDim S128x10000 ![0, 1] bcast_S1x10000_S128x10000_0_1 (broadcastInDim S1x10000 ![1] bcast_S10000_S1x10000_1 B)

/-- The row numbers as words laid over the `10000` node columns. -/
def poolIota : IVec S128x10000 32 :=
  broadcastInDim S128x10000 ![0, 1] bcast_S128x1_S128x10000_0_1 (broadcastInDim S128x1 ![0] bcast_S128_S128x1_0 (iotaInDim S128 32 0))

/-- The indicator array: where node `n`'s group word is row `g`'s number, the float of the bit of their equality. -/
def poolInd : FVec Ideal S128x10000 .f32 := uitofp .f32 (cmpi .eq (poolWords B) poolIota)

/-- Its row sums from the initial `0.0`. -/
def poolCnt : FVec Ideal S128 .f32 :=
  Host.reduceAdd (poolInd B) (constant S_ .f32 0x00000000#32) reducesTo_S128x10000_S128_d1 h_S_

/-- The row sums clamped below at `1.0`, laid over the node columns. -/
def poolDen : FVec Ideal S128x10000 .f32 :=
  broadcastInDim S128x10000 ![0, 1] bcast_S128x1_S128x10000_0_1
    (maximumf (broadcastInDim S128x1 ![0] bcast_S128_S128x1_0 (poolCnt B))
      (broadcastInDim S128x1 ![] bcast_S_S128x1 (constant S_ .f32 0x3F800000#32)))

/-- The quotient, padded with `240` columns of the float of the integer `0`, in the narrower format. -/
def poolArr : FVec Ideal S128x10240 .bf16 :=
  truncf .bf16
    (pad S128x10240 ![0, 0] ![0, 240] ![0, 0] (Host.divf (poolInd B) (poolDen B))
      (sitofp (F := Ideal) .f32 (constantI S_ 32 0#32)) pads_S128x10000_S128x10240_000_02400 h_S_)
    bitsLt_bf16_f32

theorem poolWords_apply (g : Fin 128) (n : Fin 10000) : poolWords B (ix2 g n) = B (ix1 n) := by
  unfold poolWords
  rw [broadcastInDim_apply ![0, 1] bcast_S1x10000_S128x10000_0_1 _ (ix2 g n) (ix2 (0 : Fin 1) n) (fun a => by
    match a with
    | ⟨0, _⟩ => rfl
    | ⟨1, _⟩ => rfl)]
  exact broadcastInDim_apply ![1] bcast_S10000_S1x10000_1 B (ix2 (0 : Fin 1) n) (ix1 n) (fun a => by
    match a with
    | ⟨0, _⟩ => rfl)

theorem poolIota_apply (g : Fin 128) (n : Fin 10000) : poolIota (ix2 g n) = BitVec.ofNat 32 g.val := by
  unfold poolIota
  rw [broadcastInDim_apply ![0, 1] bcast_S128x1_S128x10000_0_1 _ (ix2 g n) (ix2 g (0 : Fin 1)) (fun a => by
    match a with
    | ⟨0, _⟩ => rfl
    | ⟨1, _⟩ => rfl)]
  rw [broadcastInDim_apply ![0] bcast_S128_S128x1_0 _ (ix2 g (0 : Fin 1)) (ix1 g) (fun a => by
    match a with
    | ⟨0, _⟩ => rfl)]
  rfl

/-- The indicator at `(g, n)`: `1` where node `n`'s word read signed is `g`, else `0`. -/
theorem poolInd_apply (g : Fin 128) (n : Fin 10000) :
    poolInd B (ix2 g n) = if (B (ix1 n)).toInt = (g.val : ℤ) then 1 else 0 := by
  show (((IntOp.cmpi .eq (poolWords B (ix2 g n)) (poolIota (ix2 g n))).toNat : ℝ) : EReal) = _
  rw [poolWords_apply, poolIota_apply]
  exact eqBit_real _ _ (by have := g.isLt; omega)

end Pool

section Pool

variable (B : IVec S10000 32)

/-- Row `g`'s count: the initial zero plus the sum of the indicator over the nodes. -/
theorem poolCnt_apply (g : Fin 128) : poolCnt B (ix1 g) = 0 + ∑ n : Fin 10000, poolInd B (ix2 g n) := by
  have hR : S128x10000.Reduces [1] S128 := by decide
  unfold poolCnt
  rw [hostReduceAdd_apply, Ideal.hostReduceAdd_single reducesTo_S128x10000_S128_d1 hR, constant_apply,
    Cert.Consts.ofBits_zero]
  show (0 : EReal) + ∑ k : Fin 10000, poolInd B (hR.lift (ix1 g) k) = _
  refine congrArg (fun s => (0 : EReal) + s) (Finset.sum_congr rfl fun k _ => congrArg (poolInd B) ?_)
  funext a
  match a with
  | ⟨0, _⟩ => rfl
  | ⟨1, _⟩ => rfl

/-- The divisor at `(g, n)`: row `g`'s count clamped below at `1`. -/
theorem poolDen_apply (g : Fin 128) (n : Fin 10000) : poolDen B (ix2 g n) = max (poolCnt B (ix1 g)) 1 := by
  unfold poolDen
  rw [broadcastInDim_apply ![0, 1] bcast_S128x1_S128x10000_0_1 _ (ix2 g n) (ix2 g (0 : Fin 1)) (fun a => by
    match a with
    | ⟨0, _⟩ => rfl
    | ⟨1, _⟩ => rfl)]
  rw [maximumf_apply, broadcastInDim_apply ![0] bcast_S128_S128x1_0 _ (ix2 g (0 : Fin 1)) (ix1 g) (fun a => by
    match a with
    | ⟨0, _⟩ => rfl)]
  rw [broadcastInDim_scalar_apply, constant_apply, Cert.Consts.ofBits_one]

/-- The padding value: the float of the integer `0` is `0`. -/
theorem padZero (j : S_.Idx) : sitofp (F := Ideal) .f32 (constantI S_ 32 0#32) j = (0 : EReal) := by
  show (((0#32 : BitVec 32).toInt : ℝ) : EReal) = 0
  simp

/-- On the node columns the pooling array is the quotient. -/
theorem poolArr_apply_in (g : Fin 128) (i : Fin 10240) (h : i.val < 10000) :
    poolArr B (ix2 g i) = Ideal.div (poolInd B (ix2 g ⟨i.val, h⟩)) (max (poolCnt B (ix1 g)) 1) := by
  unfold poolArr
  rw [truncf_apply]
  refine (pad_apply_of_inside (s := S128x10000) (t := S128x10240) ![0, 0] ![0, 240] ![0, 0]
    (Host.divf (poolInd B) (poolDen B)) (sitofp (F := Ideal) .f32 (constantI S_ 32 0#32))
    pads_S128x10000_S128x10240_000_02400 h_S_ (ix2 g i) (ix2 g ⟨i.val, h⟩) (fun a => ?_)).trans ?_
  · match a with
    | ⟨0, _⟩ => exact (by omega : g.val = 0 + g.val * (0 + 1))
    | ⟨1, _⟩ => exact (by omega : i.val = 0 + i.val * (0 + 1))
  · rw [hostDivf_apply, poolDen_apply]

/-- On the padding columns it is `0`. -/
theorem poolArr_apply_out (g : Fin 128) (i : Fin 10240) (h : ¬ i.val < 10000) : poolArr B (ix2 g i) = 0 := by
  unfold poolArr
  rw [truncf_apply]
  refine (pad_apply_of_not_inside (s := S128x10000) (t := S128x10240) ![0, 0] ![0, 240] ![0, 0]
    (Host.divf (poolInd B) (poolDen B)) (sitofp (F := Ideal) .f32 (constantI S_ 32 0#32))
    pads_S128x10000_S128x10240_000_02400 h_S_ (ix2 g i) (1 : Fin 2) ?_).trans (padZero _)
  show ¬ (0 ≤ i.val ∧ (i.val - 0) % (0 + 1) = 0 ∧ (i.val - 0) / (0 + 1) < 10000)
  omega

/-- The pooling array is the pooling matrix of the group words read signed. -/
theorem poolArr_spec (g : Fin 128) (i : Fin 10240) :
    poolArr B (ix2 g i) = Cert.GcnSpec.poolM (fun n => (B (ix1 n)).toInt) g i := by
  unfold Cert.GcnSpec.poolM
  split
  · next h =>
    rw [poolArr_apply_in B g i h, poolCnt_apply]
    unfold Cert.GcnSpec.cntDense Cert.GcnSpec.onehot
    simp only [poolInd_apply]
  · next h => exact poolArr_apply_out B g i h

end Pool

/-! ## The padded node features -/

/-- The node features padded with `240` rows of the float of the integer `0`, in the narrower format. -/
def xpadArr (X : FVec Ideal S10000x256 .f32) : FVec Ideal S10240x256 .bf16 :=
  truncf .bf16
    (pad S10240x256 ![0, 0] ![240, 0] ![0, 0] X (sitofp (F := Ideal) .f32 (constantI S_ 32 0#32))
      pads_S10000x256_S10240x256_02400_000 h_S_)
    bitsLt_bf16_f32

/-- The padded array is the features on the node rows and `0` below them. -/
theorem xpadArr_spec (X : FVec Ideal S10000x256 .f32) (j : Fin 10240) (k : Fin 256) :
    xpadArr X (ix2 j k) = Cert.GcnSpec.padX (fun n k' => X (ix2 n k')) j k := by
  unfold Cert.GcnSpec.padX xpadArr
  rw [truncf_apply]
  split
  · next h =>
    have h' : j.val < 10000 := h
    refine pad_apply_of_inside (s := S10000x256) (t := S10240x256) ![0, 0] ![240, 0] ![0, 0] X
      (sitofp (F := Ideal) .f32 (constantI S_ 32 0#32)) pads_S10000x256_S10240x256_02400_000 h_S_
      (ix2 j k) (ix2 ⟨j.val, h'⟩ k) (fun a => ?_)
    match a with
    | ⟨0, _⟩ => exact (by omega : j.val = 0 + j.val * (0 + 1))
    | ⟨1, _⟩ => exact (by omega : k.val = 0 + k.val * (0 + 1))
  · next h =>
    have h' : ¬ j.val < 10000 := h
    refine (pad_apply_of_not_inside (s := S10000x256) (t := S10240x256) ![0, 0] ![240, 0] ![0, 0] X
      (sitofp (F := Ideal) .f32 (constantI S_ 32 0#32)) pads_S10000x256_S10240x256_02400_000 h_S_
      (ix2 j k) (0 : Fin 2) ?_).trans (padZero _)
    show ¬ (0 ≤ j.val ∧ (j.val - 0) % (0 + 1) = 0 ∧ (j.val - 0) / (0 + 1) < 10000)
    omega

end Cert.KernelIdeal.KHost.Rest

end
-- ==== Proof.KHostRest.lean ====
/-
  The arrays the host stretch hands the five kernel regions, other than the adjacency, read at an entry in terms of
  the launch memory: the pooling matrix (the one-hot of the group words divided by the clamped row count, padded with
  zero columns), the node features padded with zero rows, the three weight matrices and the last projection (unchanged:
  at the ideal instance a change of float format is the identity), and the four bias vectors laid out as one-row arrays.

  Each buffer is first shown to hold the composed term of the host operations over the launch contents of the argument
  it is computed from; that term is then read at an index.
-/
import proofs.«430691_j58471684768359_3_alg».proof.Proof.FrameKernelIdeal
import proofs.«430691_j58471684768359_3_alg».proof.Proof.KHostRestA
import proofs.«430691_j58471684768359_3_alg».proof.Proof.GcnSpec
import proofs.«430691_j58471684768359_3_alg».proof.Proof.Consts
import Idealize.ShloMosaic.Lib.ValueIdx
import Idealize.ShloMosaic.Lib.Pipeline.Value
import Idealize.ShloMosaic.Lib.ValueLayout
import Idealize.ShloMosaic.PureOps.Ideal.Laws
import Idealize.ShloMosaic.Lib.StableHlo.Run

noncomputable section

namespace Cert.KernelIdeal.KHost

open Cert.KernelIdeal Cert.KernelIdeal.Gen Cert.KernelIdeal.GenP Idealize.ShloMosaic Idealize.ShloMosaic.ValueIdx
open Idealize.ShloMosaic.TcCoe

variable (m : (ℓ : Loc nD τ sig) → Buf (Elt Ideal) ℓ) (ρ : Dev nD → PrngReg)

/-! ## Each buffer holds its composed term -/

namespace Rest

set_option maxRecDepth 8192 in
set_option maxHeartbeats 4000000 in
/-- The pooling buffer holds the pooling array of the group words at launch. -/
theorem pool_eq (c : Dev nD) :
    V1 m ρ c main_call0_v54 = poolArr (m ((c : Thread nD τ).loc main_arg2) : IVec S10000 32) := by
  show StableHlo.after hostOps0 (W0 m ρ c) (Proc.devRef .tc main_call0_v54) = _
  after_results_simp <;> rfl

set_option maxRecDepth 8192 in
set_option maxHeartbeats 4000000 in
/-- The padded-features buffer holds the padded array of the features at launch. -/
theorem xpad_eq (c : Dev nD) :
    V1 m ρ c main_call0_v56 = xpadArr (m ((c : Thread nD τ).loc main_arg0) : FVec Ideal S10000x256 .f32) := by
  show StableHlo.after hostOps0 (W0 m ρ c) (Proc.devRef .tc main_call0_v56) = _
  after_results_simp <;> rfl

set_option maxRecDepth 8192 in
set_option maxHeartbeats 4000000 in
/-- The three weight buffers hold the weights at launch in the narrower format. -/
theorem w1_eq (c : Dev nD) :
    V1 m ρ c main_call0_v57
      = (truncf (F := Ideal) .bf16 (m ((c : Thread nD τ).loc main_arg3) : FVec Ideal S256x256 .f32) bitsLt_bf16_f32 :
          FVec Ideal S256x256 .bf16) := by
  show StableHlo.after hostOps0 (W0 m ρ c) (Proc.devRef .tc main_call0_v57) = _
  after_results_simp <;> rfl

set_option maxRecDepth 8192 in
set_option maxHeartbeats 4000000 in
theorem w2_eq (c : Dev nD) :
    V1 m ρ c main_call0_v58
      = (truncf (F := Ideal) .bf16 (m ((c : Thread nD τ).loc main_arg5) : FVec Ideal S256x256 .f32) bitsLt_bf16_f32 :
          FVec Ideal S256x256 .bf16) := by
  show StableHlo.after hostOps0 (W0 m ρ c) (Proc.devRef .tc main_call0_v58) = _
  after_results_simp <;> rfl

set_option maxRecDepth 8192 in
set_option maxHeartbeats 4000000 in
theorem w3_eq (c : Dev nD) :
    V1 m ρ c main_call0_v59
      = (truncf (F := Ideal) .bf16 (m ((c : Thread nD τ).loc main_arg7) : FVec Ideal S256x256 .f32) bitsLt_bf16_f32 :
          FVec Ideal S256x256 .bf16) := by
  show StableHlo.after hostOps0 (W0 m ρ c) (Proc.devRef .tc main_call0_v59) = _
  after_results_simp <;> rfl

set_option maxRecDepth 8192 in
set_option maxHeartbeats 4000000 in
/-- The four bias buffers hold the bias vectors at launch, recast as one-row arrays. -/
theorem b1_eq (c : Dev nD) :
    V1 m ρ c main_call0_v60
      = (shapeCast S1x256 (m ((c : Thread nD τ).loc main_arg4) : FVec Ideal S256 .f32) shapeCasts_S256_S1x256 :
          FVec Ideal S1x256 .f32) := by
  show StableHlo.after hostOps0 (W0 m ρ c) (Proc.devRef .tc main_call0_v60) = _
  after_results_simp <;> rfl

set_option maxRecDepth 8192 in
set_option maxHeartbeats 4000000 in
theorem b2_eq (c : Dev nD) :
    V1 m ρ c main_call0_v61
      = (shapeCast S1x256 (m ((c : Thread nD τ).loc main_arg6) : FVec Ideal S256 .f32) shapeCasts_S256_S1x256 :
          FVec Ideal S1x256 .f32) := by
  show StableHlo.after hostOps0 (W0 m ρ c) (Proc.devRef .tc main_call0_v61) = _
  after_results_simp <;> rfl

set_option maxRecDepth 8192 in
set_option maxHeartbeats 4000000 in
theorem b3_eq (c : Dev nD) :
    V1 m ρ c main_call0_v62
      = (shapeCast S1x256 (m ((c : Thread nD τ).loc main_arg8) : FVec Ideal S256 .f32) shapeCasts_S256_S1x256 :
          FVec Ideal S1x256 .f32) := by
  show StableHlo.after hostOps0 (W0 m ρ c) (Proc.devRef .tc main_call0_v62) = _
  after_results_simp <;> rfl

set_option maxRecDepth 8192 in
set_option maxHeartbeats 4000000 in
theorem lb_eq (c : Dev nD) :
    V1 m ρ c main_call0_v63
      = (shapeCast S1x128 (m ((c : Thread nD τ).loc main_arg10) : FVec Ideal S128 .f32) shapeCasts_S128_S1x128 :
          FVec Ideal S1x128 .f32) := by
  show StableHlo.after hostOps0 (W0 m ρ c) (Proc.devRef .tc main_call0_v63) = _
  after_results_simp <;> rfl

set_option maxRecDepth 8192 in
set_option maxHeartbeats 4000000 in
/-- No host operation writes the last projection's buffer: it holds its launch contents. -/
theorem lw_eq (c : Dev nD) : V1 m ρ c main_arg9 = m ((c : Thread nD τ).loc main_arg9) := by
  show StableHlo.after hostOps0 (W0 m ρ c) (Proc.devRef .tc main_arg9) = _
  after_results_simp <;> rfl

end Rest

open Rest

/-! ## The arrays at an entry -/

/-- The pooling matrix as the regions find it. -/
theorem pool_read (c : Dev nD) (g : Fin 128) (i : Fin 10240) :
    (V1 m ρ c main_call0_v54 : S128x10240.Idx → EReal) (ix2 g i)
      = Cert.GcnSpec.poolM (fun n => ((m ((c : Thread nD τ).loc main_arg2) : S10000.Idx → BitVec 32) (ix1 n)).toInt) g i := by
  rw [pool_eq m ρ c]
  exact poolArr_spec _ g i

/-- The padded node features as the regions find them. -/
theorem xpad_read (c : Dev nD) (j : Fin 10240) (k : Fin 256) :
    (V1 m ρ c main_call0_v56 : S10240x256.Idx → EReal) (ix2 j k)
      = Cert.GcnSpec.padX (fun n k' => (m ((c : Thread nD τ).loc main_arg0) : S10000x256.Idx → EReal) (ix2 n k')) j k := by
  rw [xpad_eq m ρ c]
  exact xpadArr_spec _ j k

/-- The first layer's weights. -/
theorem w1_read (c : Dev nD) (k c' : Fin 256) :
    (V1 m ρ c main_call0_v57 : S256x256.Idx → EReal) (ix2 k c')
      = (m ((c : Thread nD τ).loc main_arg3) : S256x256.Idx → EReal) (ix2 k c') := by
  rw [w1_eq m ρ c]; rfl

/-- The second layer's weights. -/
theorem w2_read (c : Dev nD) (k c' : Fin 256) :
    (V1 m ρ c main_call0_v58 : S256x256.Idx → EReal) (ix2 k c')
      = (m ((c : Thread nD τ).loc main_arg5) : S256x256.Idx → EReal) (ix2 k c') := by
  rw [w2_eq m ρ c]; rfl

/-- The third layer's weights. -/
theorem w3_read (c : Dev nD) (k c' : Fin 256) :
    (V1 m ρ c main_call0_v59 : S256x256.Idx → EReal) (ix2 k c')
      = (m ((c : Thread nD τ).loc main_arg7) : S256x256.Idx → EReal) (ix2 k c') := by
  rw [w3_eq m ρ c]; rfl

/-- The first layer's bias as a row. -/
theorem b1_read (c : Dev nD) (c' : Fin 256) :
    (V1 m ρ c main_call0_v60 : S1x256.Idx → EReal) (ix2 0 c')
      = (m ((c : Thread nD τ).loc main_arg4) : S256.Idx → EReal) (ix1 c') := by
  rw [b1_eq m ρ c]
  exact shapeCast_a_1a_apply _ shapeCasts_S256_S1x256 0 c'

/-- The second layer's bias as a row. -/
theorem b2_read (c : Dev nD) (c' : Fin 256) :
    (V1 m ρ c main_call0_v61 : S1x256.Idx → EReal) (ix2 0 c')
      = (m ((c : Thread nD τ).loc main_arg6) : S256.Idx → EReal) (ix1 c') := by
  rw [b2_eq m ρ c]
  exact shapeCast_a_1a_apply _ shapeCasts_S256_S1x256 0 c'

/-- The third layer's bias as a row. -/
theorem b3_read (c : Dev nD) (c' : Fin 256) :
    (V1 m ρ c main_call0_v62 : S1x256.Idx → EReal) (ix2 0 c')
      = (m ((c : Thread nD τ).loc main_arg8) : S256.Idx → EReal) (ix1 c') := by
  rw [b3_eq m ρ c]
  exact shapeCast_a_1a_apply _ shapeCasts_S256_S1x256 0 c'

/-- The last bias as a row. -/
theorem lb_read (c : Dev nD) (t : Fin 128) :
    (V1 m ρ c main_call0_v63 : S1x128.Idx → EReal) (ix2 0 t)
      = (m ((c : Thread nD τ).loc main_arg10) : S128.Idx → EReal) (ix1 t) := by
  rw [lb_eq m ρ c]
  exact shapeCast_a_1a_apply _ shapeCasts_S128_S1x128 0 t

/-- The last projection: no host operation writes it. -/
theorem lw_read (c : Dev nD) (k : Fin 256) (t : Fin 128) :
    (V1 m ρ c main_arg9 : S256x128.Idx → EReal) (ix2 k t)
      = (m ((c : Thread nD τ).loc main_arg9) : S256x128.Idx → EReal) (ix2 k t) := by
  rw [lw_eq m ρ c]

end Cert.KernelIdeal.KHost

end
-- ==== Proof.KRegion04.lean ====
/-
  Regions 0 and 4 of the kernel, each read as one function of the arrays it finds.

  Region 0 multiplies the padded features by the first weight matrix: the result's entry (j, c') is the sum over k of
  x_pad (j, k) * W1 (k, c'). Region 4 pools and classifies: entry (g, t) is the sum over c' of
  (the sum over i of P (g, i) * h3 (i, c')) * lin_w (c', t), plus lin_b t.
-/
import proofs.«430691_j58471684768359_3_alg».proof.Proof.FrameKernelIdeal
import proofs.«430691_j58471684768359_3_alg».proof.Proof.GcnSpec
import proofs.«430691_j58471684768359_3_alg».proof.Proof.Consts
import Idealize.ShloMosaic.Lib.Pipeline.Value
import Idealize.ShloMosaic.Lib.ValueIdx
import Idealize.ShloMosaic.PureOps.Ideal.Laws

noncomputable section

open scoped BigOperators

namespace Cert.KernelIdeal.KVal

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-block access, however spelt. -/
theorem hz2 : (![0, 0] : Fin 2 → Nat) = fun _ => 0 := funext fun a => by fin_cases a <;> rfl

/-! ## Region 0: the features times the first weights -/

/-- The left operand's row is the output's row. -/
theorem lhsA_0 (i : S640x256.Idx) (q : dot_S640x256_S256x256_S640x256_1_0_0_1_n_n.contr.Idx) :
    (dot_S640x256_S256x256_S640x256_1_0_0_1_n_n.lhsIdx i q 0).val = (i 0).val := by
  unfold DotDims.lhsIdx
  rw [dif_neg (show ¬(0 : Fin S640x256.rank) ∈ dot_S640x256_S256x256_S640x256_1_0_0_1_n_n.lhsBatch by decide), dif_pos (show (0 : Fin S640x256.rank) ∈ dot_S640x256_S256x256_S640x256_1_0_0_1_n_n.lhsNonContracting by decide)]
  rfl
/-- The left operand's column is the contracted coordinate. -/
theorem lhsA_1 (i : S640x256.Idx) (q : dot_S640x256_S256x256_S640x256_1_0_0_1_n_n.contr.Idx) :
    (dot_S640x256_S256x256_S640x256_1_0_0_1_n_n.lhsIdx i q 1).val = (q ⟨0, by decide⟩).val :=
  dot_S640x256_S256x256_S640x256_1_0_0_1_n_n.lhsIdx_val_of_single rfl i q
/-- The right operand's row is the contracted coordinate. -/
theorem rhsA_0 (i : S640x256.Idx) (q : dot_S640x256_S256x256_S640x256_1_0_0_1_n_n.contr.Idx) :
    (dot_S640x256_S256x256_S640x256_1_0_0_1_n_n.rhsIdx i q 0).val = (q ⟨0, by decide⟩).val :=
  dot_S640x256_S256x256_S640x256_1_0_0_1_n_n.rhsIdx_val_of_single rfl i q
/-- The right operand's column is the output's column. -/
theorem rhsA_1 (i : S640x256.Idx) (q : dot_S640x256_S256x256_S640x256_1_0_0_1_n_n.contr.Idx) :
    (dot_S640x256_S256x256_S640x256_1_0_0_1_n_n.rhsIdx i q 1).val = (i 1).val := by
  unfold DotDims.rhsIdx
  rw [dif_neg (show ¬(1 : Fin S256x256.rank) ∈ dot_S640x256_S256x256_S640x256_1_0_0_1_n_n.rhsBatch by decide), dif_pos (show (1 : Fin S256x256.rank) ∈ dot_S640x256_S256x256_S640x256_1_0_0_1_n_n.rhsNonContracting by decide)]
  rfl

/-- The product into a zero accumulator, at row `p` and column `q`: the sum over the contracted coordinate. -/
theorem mmA_apply (prec : Option ContractPrecision) {φ₁ φ₂ : FTy} (a : FVec Ideal S640x256 φ₁) (b : FVec Ideal S256x256 φ₂) (p : Fin 640) (q : Fin 256) :
    matmul dot_S640x256_S256x256_S640x256_1_0_0_1_n_n prec a b (constant S640x256 .f32 0x00000000#32) (ix2 p q)
      = ∑ k : Fin 256, a (ix2 p k) * b (ix2 k q) := by
  simp only [matmul]
  rw [Ideal.matmul_constant_zero_apply, ← Equiv.sum_comp (contrEquiv1 dot_S640x256_S256x256_S640x256_1_0_0_1_n_n 256 rfl rfl).symm]
  refine Finset.sum_congr rfl fun k _ => ?_
  have hk := contrEquiv1_symm_val dot_S640x256_S256x256_S640x256_1_0_0_1_n_n 256 rfl rfl k
  have el : dot_S640x256_S256x256_S640x256_1_0_0_1_n_n.lhsIdx (ix2 p q) ((contrEquiv1 dot_S640x256_S256x256_S640x256_1_0_0_1_n_n 256 rfl rfl).symm k) = ix2 p k := funext fun a => Fin.ext (by
    match a with
    | ⟨0, _⟩ => exact lhsA_0 _ _
    | ⟨1, _⟩ => exact (lhsA_1 _ _).trans hk)
  have er : dot_S640x256_S256x256_S640x256_1_0_0_1_n_n.rhsIdx (ix2 p q) ((contrEquiv1 dot_S640x256_S256x256_S640x256_1_0_0_1_n_n 256 rfl rfl).symm k) = ix2 k q := funext fun a => Fin.ext (by
    match a with
    | ⟨0, _⟩ => exact (rhsA_0 _ _).trans hk
    | ⟨1, _⟩ => exact rhsA_1 _ _)
  rw [el, er]

/-- Region 0's stored block at row `p`, column `q`: the row of the feature block against the column of the weights. -/
theorem pay0_apply (x0 : Vec Ideal S640x256 .bf16) (x1 : Vec Ideal S256x256 .bf16) (p : Fin 640) (q : Fin 256) :
    (k0_pay1 x0 x1 : S640x256.Idx → EReal) (ix2 p q) = ∑ k : Fin 256, x0 (ix2 p k) * x1 (ix2 k q) := by
  unfold k0_pay1
  rw [truncf_apply, shapeCast_self, shapeCast_self, mmA_apply]

/-- What region 0 leaves in its output array: the features times the first weights, as the region finds both. -/
def G0 (c : Dev nD) : S10240x256.Idx → EReal := fun i =>
  ∑ k : Fin 256, @id (S10240x256.Idx → EReal) (V c main_call0_v56) (ix2 (i 0) k)
    * @id (S256x256.Idx → EReal) (V c main_call0_v57) (ix2 k (i 1))

/-- The printed index maps over the 16 points: the feature block and the output block are the point's, the weights whole. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t` is rows `640 t … 640 t + 639` of the padded features. -/
theorem iblk0_0_apply (c : Dev nD) (t : Fin cfg0.N) (x : S640x256.Idx) (i : S10240x256.Idx)
    (h0 : (i 0).val = t.val * 640 + (x 0).val) (h1 : (i 1).val = (x 1).val) :
    (iblk0 V c 0 t : S640x256.Idx → EReal) x = @id (S10240x256.Idx → EReal) (V c main_call0_v56) i := by
  obtain ⟨e0, e1, -, -, -, -⟩ := idx_facts0 t
  unfold iblk0
  rw [View.read_apply]
  show V c main_call0_v56 _ = V c main_call0_v56 _
  congr 1
  funext a
  apply Fin.ext
  match a with
  | ⟨0, _⟩ => show win0_0.index t (0 : Fin 2) * 640 + 1 * (x 0).val = (i 0).val; rw [e0, h0]; omega
  | ⟨1, _⟩ => show win0_0.index t (1 : Fin 2) * 256 + 1 * (x 1).val = (i 1).val; rw [e1, h1]; omega

/-- The weight block at every point is the whole weight matrix. -/
theorem iblk0_1_apply (c : Dev nD) (t : Fin cfg0.N) (x : S256x256.Idx) :
    (iblk0 V c 1 t : S256x256.Idx → EReal) x = @id (S256x256.Idx → EReal) (V c main_call0_v57) x := by
  obtain ⟨-, -, e2, e3, -, -⟩ := idx_facts0 t
  unfold iblk0
  rw [View.read_apply]
  show V c main_call0_v57 _ = V c main_call0_v57 _
  congr 1
  funext a
  apply Fin.ext
  match a with
  | ⟨0, _⟩ => show win0_1.index t (0 : Fin 2) * 256 + 1 * (x 0).val = (x 0).val; rw [e2]; omega
  | ⟨1, _⟩ => show win0_1.index t (1 : Fin 2) * 256 + 1 * (x 1).val = (x 1).val; rw [e3]; omega

/-- What point `t` writes back is block `t` of `G0`. -/
theorem flushed0_eq (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz2]
  simp only [View.ld_unit_zero (S := S640x256) hz2, View.ld_unit_zero (S := S256x256) hz2]
  funext y
  obtain ⟨p, q, rfl⟩ : ∃ (p : Fin 640) (q : Fin 256), y = ix2 p q := ⟨y 0, y 1, eq_ix2 y⟩
  rw [View.read_apply]
  show (k0_pay1 (iblk0 V c 0 t) (iblk0 V c 1 t) : S640x256.Idx → EReal) (ix2 p q) = G0 V c (((cfg0.win 2).blk t).view.emb (ix2 p q))
  rw [pay0_apply]
  unfold G0
  obtain ⟨-, -, -, -, e4, e5⟩ := idx_facts0 t
  refine Finset.sum_congr rfl fun k _ => ?_
  rw [iblk0_0_apply V c t (ix2 p k) (ix2 ((((cfg0.win 2).blk t).view.emb (ix2 p q)) 0) k)
      (by show win0_2.index t (0 : Fin 2) * 640 + 1 * p.val = t.val * 640 + p.val; rw [e4]; omega) rfl,
    iblk0_1_apply V c t (ix2 k q)]
  have hq : (((cfg0.win 2).blk t).view.emb (ix2 p q)) 1 = q :=
    Fin.ext (by show win0_2.index t (1 : Fin 2) * 256 + 1 * q.val = q.val; rw [e5]; omega)
  rw [hq]

/-- An index of the output array is in point `t`'s block iff each coordinate is in the block's range on its axis. -/
theorem mem_blk0 (t : Fin cfg0.N) (i : S10240x256.Idx) :
    i ∈ ((cfg0.win 2).blk t).view.set ↔ ∀ a : Fin 2, win0_2.index t a * S640x256.size a ≤ (i a).val
      ∧ (i a).val < win0_2.index t a * S640x256.size a + S640x256.size a := by
  show i ∈ ((View.whole main_call0_v64).slice (win0_2.rect t)).set ↔ _
  rw [View.set_slice_whole, Rect.mem_set_unit]
  exact Iff.rfl

/-- Row `r` of the output is written by point `r / 640`. -/
theorem cover0 (i : S10240x256.Idx) :
    ∃ t : Fin cfg0.N, (cfg0.win 2).flush t = true ∧ i ∈ ((cfg0.win 2).blk t).view.set := by
  have hi0 : (i 0).val < 10240 := (i 0).isLt
  have hi1 : (i 1).val < 256 := (i 1).isLt
  have hN : cfg0.N = 16 := N_0
  obtain ⟨t, ht⟩ : ∃ t : Fin cfg0.N, t.val = (i 0).val / 640 := ⟨⟨(i 0).val / 640, by rw [hN]; omega⟩, rfl⟩
  obtain ⟨-, -, -, -, e4, e5⟩ := idx_facts0 t
  refine ⟨t, flush0_2 t, ?_⟩
  rw [mem_blk0]
  intro a
  match a with
  | ⟨0, _⟩ =>
    show win0_2.index t (0 : Fin 2) * 640 ≤ (i 0).val ∧ (i 0).val < win0_2.index t (0 : Fin 2) * 640 + 640
    rw [e4, ht]; omega
  | ⟨1, _⟩ =>
    show win0_2.index t (1 : Fin 2) * 256 ≤ (i 1).val ∧ (i 1).val < win0_2.index t (1 : Fin 2) * 256 + 256
    rw [e5]; omega

/-- Region 0's output array after the region is `G0`. -/
theorem final0 (c : Dev nD) : (dat0 V c).arrAt 2 cfg0.N = G0 V c :=
  (dat0 V c).arrAt_eq_of_cover 2 (G0 V c) (fun t _ => flushed0_eq V c t) cover0

/-! ## Region 4: pool, project, add the bias -/

/-- The left operand's row is the output's row. -/
theorem lhsB_0 (i : S128x256.Idx) (q : dot_S128x10240_S10240x256_S128x256_1_0_0_1_n_n.contr.Idx) :
    (dot_S128x10240_S10240x256_S128x256_1_0_0_1_n_n.lhsIdx i q 0).val = (i 0).val := by
  unfold DotDims.lhsIdx
  rw [dif_neg (show ¬(0 : Fin S128x10240.rank) ∈ dot_S128x10240_S10240x256_S128x256_1_0_0_1_n_n.lhsBatch by decide), dif_pos (show (0 : Fin S128x10240.rank) ∈ dot_S128x10240_S10240x256_S128x256_1_0_0_1_n_n.lhsNonContracting by decide)]
  rfl
/-- The left operand's column is the contracted coordinate. -/
theorem lhsB_1 (i : S128x256.Idx) (q : dot_S128x10240_S10240x256_S128x256_1_0_0_1_n_n.contr.Idx) :
    (dot_S128x10240_S10240x256_S128x256_1_0_0_1_n_n.lhsIdx i q 1).val = (q ⟨0, by decide⟩).val :=
  dot_S128x10240_S10240x256_S128x256_1_0_0_1_n_n.lhsIdx_val_of_single rfl i q
/-- The right operand's row is the contracted coordinate. -/
theorem rhsB_0 (i : S128x256.Idx) (q : dot_S128x10240_S10240x256_S128x256_1_0_0_1_n_n.contr.Idx) :
    (dot_S128x10240_S10240x256_S128x256_1_0_0_1_n_n.rhsIdx i q 0).val = (q ⟨0, by decide⟩).val :=
  dot_S128x10240_S10240x256_S128x256_1_0_0_1_n_n.rhsIdx_val_of_single rfl i q
/-- The right operand's column is the output's column. -/
theorem rhsB_1 (i : S128x256.Idx) (q : dot_S128x10240_S10240x256_S128x256_1_0_0_1_n_n.contr.Idx) :
    (dot_S128x10240_S10240x256_S128x256_1_0_0_1_n_n.rhsIdx i q 1).val = (i 1).val := by
  unfold DotDims.rhsIdx
  rw [dif_neg (show ¬(1 : Fin S10240x256.rank) ∈ dot_S128x10240_S10240x256_S128x256_1_0_0_1_n_n.rhsBatch by decide), dif_pos (show (1 : Fin S10240x256.rank) ∈ dot_S128x10240_S10240x256_S128x256_1_0_0_1_n_n.rhsNonContracting by decide)]
  rfl

/-- The product into a zero accumulator, at row `p` and column `q`: the sum over the contracted coordinate. -/
theorem mmB_apply (prec : Option ContractPrecision) {φ₁ φ₂ : FTy} (a : FVec Ideal S128x10240 φ₁) (b : FVec Ideal S10240x256 φ₂) (p : Fin 128) (q : Fin 256) :
    matmul dot_S128x10240_S10240x256_S128x256_1_0_0_1_n_n prec a b (constant S128x256 .f32 0x00000000#32) (ix2 p q)
      = ∑ k : Fin 10240, a (ix2 p k) * b (ix2 k q) := by
  simp only [matmul]
  rw [Ideal.matmul_constant_zero_apply, ← Equiv.sum_comp (contrEquiv1 dot_S128x10240_S10240x256_S128x256_1_0_0_1_n_n 10240 rfl rfl).symm]
  refine Finset.sum_congr rfl fun k _ => ?_
  have hk := contrEquiv1_symm_val dot_S128x10240_S10240x256_S128x256_1_0_0_1_n_n 10240 rfl rfl k
  have el : dot_S128x10240_S10240x256_S128x256_1_0_0_1_n_n.lhsIdx (ix2 p q) ((contrEquiv1 dot_S128x10240_S10240x256_S128x256_1_0_0_1_n_n 10240 rfl rfl).symm k) = ix2 p k := funext fun a => Fin.ext (by
    match a with
    | ⟨0, _⟩ => exact lhsB_0 _ _
    | ⟨1, _⟩ => exact (lhsB_1 _ _).trans hk)
  have er : dot_S128x10240_S10240x256_S128x256_1_0_0_1_n_n.rhsIdx (ix2 p q) ((contrEquiv1 dot_S128x10240_S10240x256_S128x256_1_0_0_1_n_n 10240 rfl rfl).symm k) = ix2 k q := funext fun a => Fin.ext (by
    match a with
    | ⟨0, _⟩ => exact (rhsB_0 _ _).trans hk
    | ⟨1, _⟩ => exact rhsB_1 _ _)
  rw [el, er]

/-- The left operand's row is the output's row. -/
theorem lhsC_0 (i : S128x128.Idx) (q : dot_S128x256_S256x128_S128x128_1_0_0_1_n_n.contr.Idx) :
    (dot_S128x256_S256x128_S128x128_1_0_0_1_n_n.lhsIdx i q 0).val = (i 0).val := by
  unfold DotDims.lhsIdx
  rw [dif_neg (show ¬(0 : Fin S128x256.rank) ∈ dot_S128x256_S256x128_S128x128_1_0_0_1_n_n.lhsBatch by decide), dif_pos (show (0 : Fin S128x256.rank) ∈ dot_S128x256_S256x128_S128x128_1_0_0_1_n_n.lhsNonContracting by decide)]
  rfl
/-- The left operand's column is the contracted coordinate. -/
theorem lhsC_1 (i : S128x128.Idx) (q : dot_S128x256_S256x128_S128x128_1_0_0_1_n_n.contr.Idx) :
    (dot_S128x256_S256x128_S128x128_1_0_0_1_n_n.lhsIdx i q 1).val = (q ⟨0, by decide⟩).val :=
  dot_S128x256_S256x128_S128x128_1_0_0_1_n_n.lhsIdx_val_of_single rfl i q
/-- The right operand's row is the contracted coordinate. -/
theorem rhsC_0 (i : S128x128.Idx) (q : dot_S128x256_S256x128_S128x128_1_0_0_1_n_n.contr.Idx) :
    (dot_S128x256_S256x128_S128x128_1_0_0_1_n_n.rhsIdx i q 0).val = (q ⟨0, by decide⟩).val :=
  dot_S128x256_S256x128_S128x128_1_0_0_1_n_n.rhsIdx_val_of_single rfl i q
/-- The right operand's column is the output's column. -/
theorem rhsC_1 (i : S128x128.Idx) (q : dot_S128x256_S256x128_S128x128_1_0_0_1_n_n.contr.Idx) :
    (dot_S128x256_S256x128_S128x128_1_0_0_1_n_n.rhsIdx i q 1).val = (i 1).val := by
  unfold DotDims.rhsIdx
  rw [dif_neg (show ¬(1 : Fin S256x128.rank) ∈ dot_S128x256_S256x128_S128x128_1_0_0_1_n_n.rhsBatch by decide), dif_pos (show (1 : Fin S256x128.rank) ∈ dot_S128x256_S256x128_S128x128_1_0_0_1_n_n.rhsNonContracting by decide)]
  rfl

/-- The product into a zero accumulator, at row `p` and column `q`: the sum over the contracted coordinate. -/
theorem mmC_apply (prec : Option ContractPrecision) {φ₁ φ₂ : FTy} (a : FVec Ideal S128x256 φ₁) (b : FVec Ideal S256x128 φ₂) (p : Fin 128) (q : Fin 128) :
    matmul dot_S128x256_S256x128_S128x128_1_0_0_1_n_n prec a b (constant S128x128 .f32 0x00000000#32) (ix2 p q)
      = ∑ k : Fin 256, a (ix2 p k) * b (ix2 k q) := by
  simp only [matmul]
  rw [Ideal.matmul_constant_zero_apply, ← Equiv.sum_comp (contrEquiv1 dot_S128x256_S256x128_S128x128_1_0_0_1_n_n 256 rfl rfl).symm]
  refine Finset.sum_congr rfl fun k _ => ?_
  have hk := contrEquiv1_symm_val dot_S128x256_S256x128_S128x128_1_0_0_1_n_n 256 rfl rfl k
  have el : dot_S128x256_S256x128_S128x128_1_0_0_1_n_n.lhsIdx (ix2 p q) ((contrEquiv1 dot_S128x256_S256x128_S128x128_1_0_0_1_n_n 256 rfl rfl).symm k) = ix2 p k := funext fun a => Fin.ext (by
    match a with
    | ⟨0, _⟩ => exact lhsC_0 _ _
    | ⟨1, _⟩ => exact (lhsC_1 _ _).trans hk)
  have er : dot_S128x256_S256x128_S128x128_1_0_0_1_n_n.rhsIdx (ix2 p q) ((contrEquiv1 dot_S128x256_S256x128_S128x128_1_0_0_1_n_n 256 rfl rfl).symm k) = ix2 k q := funext fun a => Fin.ext (by
    match a with
    | ⟨0, _⟩ => exact (rhsC_0 _ _).trans hk
    | ⟨1, _⟩ => exact rhsC_1 _ _)
  rw [el, er]

/-- The bias row [1,128] spread over the 128 rows reads the row's entry of the column. -/
theorem bias4_apply (x : S1x128.Idx → EReal) (g t : Fin 128) :
    broadcastTo S128x128 x broadcasts_S1x128_S128x128 (ix2 g t) = x (ix2 0 t) :=
  broadcastTo_apply x _ (ix2 g t) (ix2 0 t) (fun a => by match a with | ⟨0, _⟩ => rfl | ⟨1, _⟩ => rfl)

/-- Region 4's stored block at (g, t): pool, project, add the bias. -/
theorem pay4_apply (x0 : Vec Ideal S128x10240 .bf16) (x1 : Vec Ideal S10240x256 .bf16) (x2 : Vec Ideal S256x128 .f32)
    (x3 : Vec Ideal S1x128 .f32) (g t : Fin 128) :
    (k4_pay1 x0 x1 x2 x3 : S128x128.Idx → EReal) (ix2 g t)
      = (∑ c' : Fin 256, (∑ i : Fin 10240, x0 (ix2 g i) * x1 (ix2 i c')) * x2 (ix2 c' t)) + x3 (ix2 0 t) := by
  unfold k4_pay1
  rw [addf_apply, shapeCast_self, shapeCast_self, shapeCast_self, bias4_apply, mmC_apply]
  congr 1
  refine Finset.sum_congr rfl fun c' _ => ?_
  rw [mmB_apply]

/-- What region 4 leaves in the result: pooled rows projected, plus the bias, of the arrays as the region finds them. -/
def G4 (c : Dev nD) : S128x128.Idx → EReal := fun y =>
  (∑ c' : Fin 256, (∑ i : Fin 10240, @id (S128x10240.Idx → EReal) (V c main_call0_v54) (ix2 (y 0) i)
        * @id (S10240x256.Idx → EReal) (V c main_call0_v67) (ix2 i c'))
      * @id (S256x128.Idx → EReal) (V c main_arg9) (ix2 c' (y 1)))
    + @id (S1x128.Idx → EReal) (V c main_call0_v63) (ix2 0 (y 1))

/-- The printed index maps at the one point: every window is its whole array. -/
theorem idx_facts4 : ∀ t : Fin cfg4.N, win4_0.index t (0 : Fin 2) = 0 ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

/-- The pooling block is the pooling matrix. -/
theorem iblk4_0_apply (c : Dev nD) (t : Fin cfg4.N) (x : S128x10240.Idx) :
    (iblk4 V c 0 t : S128x10240.Idx → EReal) x = @id (S128x10240.Idx → EReal) (V c main_call0_v54) x := by
  obtain ⟨e0, e1, -⟩ := idx_facts4 t
  unfold iblk4
  rw [View.read_apply]
  show V c main_call0_v54 _ = V c main_call0_v54 _
  congr 1
  funext a
  apply Fin.ext
  match a with
  | ⟨0, _⟩ => show win4_0.index t (0 : Fin 2) * 128 + 1 * (x 0).val = (x 0).val; rw [e0]; omega
  | ⟨1, _⟩ => show win4_0.index t (1 : Fin 2) * 10240 + 1 * (x 1).val = (x 1).val; rw [e1]; omega

/-- The node-feature block is the whole last layer. -/
theorem iblk4_1_apply (c : Dev nD) (t : Fin cfg4.N) (x : S10240x256.Idx) :
    (iblk4 V c 1 t : S10240x256.Idx → EReal) x = @id (S10240x256.Idx → EReal) (V c main_call0_v67) x := by
  obtain ⟨-, -, e0, e1, -⟩ := idx_facts4 t
  unfold iblk4
  rw [View.read_apply]
  show V c main_call0_v67 _ = V c main_call0_v67 _
  congr 1
  funext a
  apply Fin.ext
  match a with
  | ⟨0, _⟩ => show win4_1.index t (0 : Fin 2) * 10240 + 1 * (x 0).val = (x 0).val; rw [e0]; omega
  | ⟨1, _⟩ => show win4_1.index t (1 : Fin 2) * 256 + 1 * (x 1).val = (x 1).val; rw [e1]; omega

/-- The projection block is the whole projection matrix. -/
theorem iblk4_2_apply (c : Dev nD) (t : Fin cfg4.N) (x : S256x128.Idx) :
    (iblk4 V c 2 t : S256x128.Idx → EReal) x = @id (S256x128.Idx → EReal) (V c main_arg9) x := by
  obtain ⟨-, -, -, -, e0, e1, -⟩ := idx_facts4 t
  unfold iblk4
  rw [View.read_apply]
  show V c main_arg9 _ = V c main_arg9 _
  congr 1
  funext a
  apply Fin.ext
  match a with
  | ⟨0, _⟩ => show win4_2.index t (0 : Fin 2) * 256 + 1 * (x 0).val = (x 0).val; rw [e0]; omega
  | ⟨1, _⟩ => show win4_2.index t (1 : Fin 2) * 128 + 1 * (x 1).val = (x 1).val; rw [e1]; omega

/-- The bias block is the whole bias row. -/
theorem iblk4_3_apply (c : Dev nD) (t : Fin cfg4.N) (x : S1x128.Idx) :
    (iblk4 V c 3 t : S1x128.Idx → EReal) x = @id (S1x128.Idx → EReal) (V c main_call0_v63) x := by
  obtain ⟨-, -, -, -, -, -, e0, e1, -⟩ := idx_facts4 t
  unfold iblk4
  rw [View.read_apply]
  show V c main_call0_v63 _ = V c main_call0_v63 _
  congr 1
  funext a
  apply Fin.ext
  match a with
  | ⟨0, _⟩ => show win4_3.index t (0 : Fin 2) * 1 + 1 * (x 0).val = (x 0).val; rw [e0]; omega
  | ⟨1, _⟩ => show win4_3.index t (1 : Fin 2) * 128 + 1 * (x 1).val = (x 1).val; rw [e1]; omega

/-- What the one point writes back is the whole of `G4`. -/
theorem flushed4_eq (c : Dev nD) (t : Fin cfg4.N) :
    (dat4 V c).flushed 4 t = ((cfg4.win 4).blk t).view.read (Elt Ideal) (G4 V c) := by
  show (cfg4.win 4).cut (grid4.coords t) ((dat4 V c).after 4 t) = _
  rw [after4_4]
  unfold out4_4
  rw [View.canon_unit_zero hz2]
  simp only [View.ld_unit_zero (S := S128x10240) hz2, View.ld_unit_zero (S := S10240x256) hz2,
    View.ld_unit_zero (S := S256x128) hz2, View.ld_unit_zero (S := S1x128) hz2]
  funext y
  obtain ⟨g, u, rfl⟩ : ∃ (g : Fin 128) (u : Fin 128), y = ix2 g u := ⟨y 0, y 1, eq_ix2 y⟩
  rw [View.read_apply]
  show (k4_pay1 (iblk4 V c 0 t) (iblk4 V c 1 t) (iblk4 V c 2 t) (iblk4 V c 3 t) : S128x128.Idx → EReal) (ix2 g u)
    = G4 V c (((cfg4.win 4).blk t).view.emb (ix2 g u))
  rw [pay4_apply]
  unfold G4
  obtain ⟨-, -, -, -, -, -, -, -, e8, e9⟩ := idx_facts4 t
  have hg : (((cfg4.win 4).blk t).view.emb (ix2 g u)) 0 = g :=
    Fin.ext (by show win4_4.index t (0 : Fin 2) * 128 + 1 * g.val = g.val; rw [e8]; omega)
  have hu : (((cfg4.win 4).blk t).view.emb (ix2 g u)) 1 = u :=
    Fin.ext (by show win4_4.index t (1 : Fin 2) * 128 + 1 * u.val = u.val; rw [e9]; omega)
  rw [hg, hu]
  exact congrArg₂ (fun a b : EReal => a + b)
    (Finset.sum_congr rfl fun c' _ => congrArg₂ (fun a b : EReal => a * b)
      (Finset.sum_congr rfl fun i _ => congrArg₂ (fun a b : EReal => a * b)
        (iblk4_0_apply V c t (ix2 g i)) (iblk4_1_apply V c t (ix2 i c')))
      (iblk4_2_apply V c t (ix2 c' u)))
    (iblk4_3_apply V c t (ix2 0 u))

/-- An index of the result is in the one point's block iff each coordinate is in the block's range on its axis. -/
theorem mem_blk4 (t : Fin cfg4.N) (i : S128x128.Idx) :
    i ∈ ((cfg4.win 4).blk t).view.set ↔ ∀ a : Fin 2, win4_4.index t a * S128x128.size a ≤ (i a).val
      ∧ (i a).val < win4_4.index t a * S128x128.size a + S128x128.size a := by
  show i ∈ ((View.whole main_v0).slice (win4_4.rect t)).set ↔ _
  rw [View.set_slice_whole, Rect.mem_set_unit]
  exact Iff.rfl

/-- The one point's block is the whole result. -/
theorem cover4 (i : S128x128.Idx) :
    ∃ t : Fin cfg4.N, (cfg4.win 4).flush t = true ∧ i ∈ ((cfg4.win 4).blk t).view.set := by
  have hi0 : (i 0).val < 128 := (i 0).isLt
  have hi1 : (i 1).val < 128 := (i 1).isLt
  have hN : cfg4.N = 1 := N_4
  obtain ⟨t, -⟩ : ∃ t : Fin cfg4.N, t.val = 0 := ⟨⟨0, by rw [hN]; omega⟩, rfl⟩
  obtain ⟨-, -, -, -, -, -, -, -, e8, e9⟩ := idx_facts4 t
  refine ⟨t, flush4_4 t, ?_⟩
  rw [mem_blk4]
  intro a
  match a with
  | ⟨0, _⟩ =>
    show win4_4.index t (0 : Fin 2) * 128 ≤ (i 0).val ∧ (i 0).val < win4_4.index t (0 : Fin 2) * 128 + 128
    rw [e8]; omega
  | ⟨1, _⟩ =>
    show win4_4.index t (1 : Fin 2) * 128 ≤ (i 1).val ∧ (i 1).val < win4_4.index t (1 : Fin 2) * 128 + 128
    rw [e9]; omega

/-- The result after region 4 is `G4`. -/
theorem final4 (c : Dev nD) : (dat4 V c).arrAt 4 cfg4.N = G4 V c :=
  (dat4 V c).arrAt_eq_of_cover 4 (G4 V c) (fun t _ => flushed4_eq V c t) cover4

/-! ## The two output arrays, read at an index -/

theorem region0_out (c : Dev nD) (j : Fin 10240) (c' : Fin 256) :
    ((dat0 V c).arrAt 2 cfg0.N : S10240x256.Idx → EReal) (ix2 j c')
      = ∑ k : Fin 256, @id (S10240x256.Idx → EReal) (V c main_call0_v56) (ix2 j k)
          * @id (S256x256.Idx → EReal) (V c main_call0_v57) (ix2 k c') := by
  rw [final0]
  rfl

theorem region4_out (c : Dev nD) (g t : Fin 128) :
    ((dat4 V c).arrAt 4 cfg4.N : S128x128.Idx → EReal) (ix2 g t)
      = (∑ c' : Fin 256, (∑ i : Fin 10240, @id (S128x10240.Idx → EReal) (V c main_call0_v54) (ix2 g i)
            * @id (S10240x256.Idx → EReal) (V c main_call0_v67) (ix2 i c'))
          * @id (S256x128.Idx → EReal) (V c main_arg9) (ix2 c' t))
        + @id (S1x128.Idx → EReal) (V c main_call0_v63) (ix2 0 t) := by
  rw [final4]
  rfl

end Cert.KernelIdeal.KVal

end
-- ==== Proof.KAgg.lean ====
/-
  What the three aggregation regions share, read at an index: the product of a block of 640 adjacency rows
  with the whole feature array as the plain sum over the 10240 columns, the bias row spread over a block,
  and a block of 640 rows of the adjacency as a function of the whole matrix.
-/
import proofs.«430691_j58471684768359_3_alg».proof.Proof.FrameKernelIdeal
import proofs.«430691_j58471684768359_3_alg».proof.Proof.GcnSpec
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

open scoped BigOperators

namespace Cert.KernelIdeal.KVal

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

open Cert.GcnSpec (relu)

/-- The zero offsets of a load or store of a whole staging buffer. -/
theorem hz : (![0, 0] : Fin 2 → Nat) = fun _ => 0 := funext fun a => by
  match a with
  | ⟨0, _⟩ => rfl
  | ⟨1, _⟩ => rfl

/-! ## The aggregation product [640,10240] × [10240,256] at an index -/

theorem aggLhs_0 (i : S640x256.Idx) (q : dot_S640x10240_S10240x256_S640x256_1_0_0_1_n_n.contr.Idx) :
    (dot_S640x10240_S10240x256_S640x256_1_0_0_1_n_n.lhsIdx i q 0).val = (i 0).val := by
  unfold DotDims.lhsIdx
  rw [dif_neg (show ¬(0 : Fin S640x10240.rank) ∈ dot_S640x10240_S10240x256_S640x256_1_0_0_1_n_n.lhsBatch by decide), dif_pos (show (0 : Fin S640x10240.rank) ∈ dot_S640x10240_S10240x256_S640x256_1_0_0_1_n_n.lhsNonContracting by decide)]
  rfl
theorem aggLhs_1 (i : S640x256.Idx) (q : dot_S640x10240_S10240x256_S640x256_1_0_0_1_n_n.contr.Idx) :
    (dot_S640x10240_S10240x256_S640x256_1_0_0_1_n_n.lhsIdx i q 1).val = (q ⟨0, by decide⟩).val :=
  dot_S640x10240_S10240x256_S640x256_1_0_0_1_n_n.lhsIdx_val_of_single rfl i q
theorem aggRhs_0 (i : S640x256.Idx) (q : dot_S640x10240_S10240x256_S640x256_1_0_0_1_n_n.contr.Idx) :
    (dot_S640x10240_S10240x256_S640x256_1_0_0_1_n_n.rhsIdx i q 0).val = (q ⟨0, by decide⟩).val :=
  dot_S640x10240_S10240x256_S640x256_1_0_0_1_n_n.rhsIdx_val_of_single rfl i q
theorem aggRhs_1 (i : S640x256.Idx) (q : dot_S640x10240_S10240x256_S640x256_1_0_0_1_n_n.contr.Idx) :
    (dot_S640x10240_S10240x256_S640x256_1_0_0_1_n_n.rhsIdx i q 1).val = (i 1).val := by
  unfold DotDims.rhsIdx
  rw [dif_neg (show ¬(1 : Fin S10240x256.rank) ∈ dot_S640x10240_S10240x256_S640x256_1_0_0_1_n_n.rhsBatch by decide), dif_pos (show (1 : Fin S10240x256.rank) ∈ dot_S640x10240_S10240x256_S640x256_1_0_0_1_n_n.rhsNonContracting by decide)]
  rfl

/-- Rows of the adjacency block times the whole feature array, into a zero accumulator: the plain sum over the 10240 columns. -/
theorem aggMatmul_apply (l : FVec Ideal S640x10240 .bf16) (r : FVec Ideal S10240x256 .bf16) (p : Fin 640) (q : Fin 256) :
    matmul dot_S640x10240_S10240x256_S640x256_1_0_0_1_n_n none l r (constant S640x256 .f32 0x00000000#32) (ix2 p q)
      = ∑ j : Fin 10240, l (ix2 p j) * r (ix2 j q) := by
  show FloatOps.matmul dot_S640x10240_S10240x256_S640x256_1_0_0_1_n_n none l r (constant S640x256 .f32 0x00000000#32) (ix2 p q) = _
  rw [Ideal.matmul_constant_zero_apply, ← Equiv.sum_comp (contrEquiv1 dot_S640x10240_S10240x256_S640x256_1_0_0_1_n_n 10240 rfl rfl).symm]
  refine Finset.sum_congr rfl fun k _ => ?_
  have hk := contrEquiv1_symm_val dot_S640x10240_S10240x256_S640x256_1_0_0_1_n_n 10240 rfl rfl k
  have el : dot_S640x10240_S10240x256_S640x256_1_0_0_1_n_n.lhsIdx (ix2 p q) ((contrEquiv1 dot_S640x10240_S10240x256_S640x256_1_0_0_1_n_n 10240 rfl rfl).symm k) = ix2 p k := funext fun a => Fin.ext (by
    match a with
    | ⟨0, _⟩ => exact aggLhs_0 _ _
    | ⟨1, _⟩ => exact (aggLhs_1 _ _).trans hk)
  have er : dot_S640x10240_S10240x256_S640x256_1_0_0_1_n_n.rhsIdx (ix2 p q) ((contrEquiv1 dot_S640x10240_S10240x256_S640x256_1_0_0_1_n_n 10240 rfl rfl).symm k) = ix2 k q := funext fun a => Fin.ext (by
    match a with
    | ⟨0, _⟩ => exact (aggRhs_0 _ _).trans hk
    | ⟨1, _⟩ => exact aggRhs_1 _ _)
  rw [el, er]

/-- The bias row [1,256] spread over the 640 rows of a block reads the row's entry of the column. -/
theorem biasRow_apply (b : FVec Ideal S1x256 .f32) (p : Fin 640) (q : Fin 256) :
    broadcastTo S640x256 b broadcasts_S1x256_S640x256 (ix2 p q) = b (ix2 0 q) := by
  refine broadcastTo_apply b broadcasts_S1x256_S640x256 (ix2 p q) (ix2 0 q) fun a => ?_
  match a with
  | ⟨0, _⟩ => rfl
  | ⟨1, _⟩ => rfl

/-- Rows 640 t … 640 t + 639 of the adjacency, as a block of 640 rows. -/
def rowBlock (A : S10240x10240.Idx → EReal) (t : Nat) (ht : t < 16) : S640x10240.Idx → EReal :=
  fun y => A (ix2 ⟨t * 640 + (y 0).val, by have := idx2_lt0 y; omega⟩ (y 1))

theorem rowBlock_apply (A : S10240x10240.Idx → EReal) (t : Nat) (ht : t < 16) (p : Fin 640) (j : Fin 10240) :
    rowBlock A t ht (ix2 p j) = A (ix2 ⟨t * 640 + p.val, by have := p.isLt; omega⟩ j) := rfl

end Cert.KernelIdeal.KVal

end
-- ==== Proof.KRegion12.lean ====
/-
  The two fused aggregation regions read at an index: each row block of the output is
  relu (A · y + b) · W, so the whole output array at (i, c') is the sum over k of
  relu ((Σ_j A[i, j] · y[j, k]) + b[k]) · W[k, c'].
-/
import proofs.«430691_j58471684768359_3_alg».proof.Proof.FrameKernelIdeal
import proofs.«430691_j58471684768359_3_alg».proof.Proof.GcnSpec
import proofs.«430691_j58471684768359_3_alg».proof.Proof.KAgg
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

open scoped BigOperators

namespace Cert.KernelIdeal.KVal

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

open Cert.GcnSpec (relu)

/-! ## The projection product [640,256] × [256,256] at an index -/

theorem projLhs_0 (i : S640x256.Idx) (q : dot_S640x256_S256x256_S640x256_1_0_0_1_n_n.contr.Idx) :
    (dot_S640x256_S256x256_S640x256_1_0_0_1_n_n.lhsIdx i q 0).val = (i 0).val := by
  unfold DotDims.lhsIdx
  rw [dif_neg (show ¬(0 : Fin S640x256.rank) ∈ dot_S640x256_S256x256_S640x256_1_0_0_1_n_n.lhsBatch by decide), dif_pos (show (0 : Fin S640x256.rank) ∈ dot_S640x256_S256x256_S640x256_1_0_0_1_n_n.lhsNonContracting by decide)]
  rfl
theorem projLhs_1 (i : S640x256.Idx) (q : dot_S640x256_S256x256_S640x256_1_0_0_1_n_n.contr.Idx) :
    (dot_S640x256_S256x256_S640x256_1_0_0_1_n_n.lhsIdx i q 1).val = (q ⟨0, by decide⟩).val :=
  dot_S640x256_S256x256_S640x256_1_0_0_1_n_n.lhsIdx_val_of_single rfl i q
theorem projRhs_0 (i : S640x256.Idx) (q : dot_S640x256_S256x256_S640x256_1_0_0_1_n_n.contr.Idx) :
    (dot_S640x256_S256x256_S640x256_1_0_0_1_n_n.rhsIdx i q 0).val = (q ⟨0, by decide⟩).val :=
  dot_S640x256_S256x256_S640x256_1_0_0_1_n_n.rhsIdx_val_of_single rfl i q
theorem projRhs_1 (i : S640x256.Idx) (q : dot_S640x256_S256x256_S640x256_1_0_0_1_n_n.contr.Idx) :
    (dot_S640x256_S256x256_S640x256_1_0_0_1_n_n.rhsIdx i q 1).val = (i 1).val := by
  unfold DotDims.rhsIdx
  rw [dif_neg (show ¬(1 : Fin S256x256.rank) ∈ dot_S640x256_S256x256_S640x256_1_0_0_1_n_n.rhsBatch by decide), dif_pos (show (1 : Fin S256x256.rank) ∈ dot_S640x256_S256x256_S640x256_1_0_0_1_n_n.rhsNonContracting by decide)]
  rfl

/-- A block of hidden rows times the next layer's weights, into a zero accumulator: the plain sum over the 256 features. -/
theorem projMatmul_apply (l : FVec Ideal S640x256 .bf16) (r : FVec Ideal S256x256 .bf16) (p : Fin 640) (q : Fin 256) :
    matmul dot_S640x256_S256x256_S640x256_1_0_0_1_n_n none l r (constant S640x256 .f32 0x00000000#32) (ix2 p q)
      = ∑ k : Fin 256, l (ix2 p k) * r (ix2 k q) := by
  show FloatOps.matmul dot_S640x256_S256x256_S640x256_1_0_0_1_n_n none l r (constant S640x256 .f32 0x00000000#32) (ix2 p q) = _
  rw [Ideal.matmul_constant_zero_apply, ← Equiv.sum_comp (contrEquiv1 dot_S640x256_S256x256_S640x256_1_0_0_1_n_n 256 rfl rfl).symm]
  refine Finset.sum_congr rfl fun k _ => ?_
  have hk := contrEquiv1_symm_val dot_S640x256_S256x256_S640x256_1_0_0_1_n_n 256 rfl rfl k
  have el : dot_S640x256_S256x256_S640x256_1_0_0_1_n_n.lhsIdx (ix2 p q) ((contrEquiv1 dot_S640x256_S256x256_S640x256_1_0_0_1_n_n 256 rfl rfl).symm k) = ix2 p k := funext fun a => Fin.ext (by
    match a with
    | ⟨0, _⟩ => exact projLhs_0 _ _
    | ⟨1, _⟩ => exact (projLhs_1 _ _).trans hk)
  have er : dot_S640x256_S256x256_S640x256_1_0_0_1_n_n.rhsIdx (ix2 p q) ((contrEquiv1 dot_S640x256_S256x256_S640x256_1_0_0_1_n_n 256 rfl rfl).symm k) = ix2 k q := funext fun a => Fin.ext (by
    match a with
    | ⟨0, _⟩ => exact (projRhs_0 _ _).trans hk
    | ⟨1, _⟩ => exact projRhs_1 _ _)
  rw [el, er]

/-- The fused body's stored block at (p, q): the hidden row relu (A-row · y + b), then its product with column q of the weights. -/
theorem pay1_apply (x0 : Vec Ideal S640x10240 .bf16) (x1 : Vec Ideal S10240x256 .bf16) (x2 : Vec Ideal S1x256 .f32) (x3 : Vec Ideal S256x256 .bf16) (p : Fin 640) (q : Fin 256) :
    k1_pay1 x0 x1 x2 x3 (ix2 p q)
      = ∑ k : Fin 256, relu ((∑ j : Fin 10240, x0 (ix2 p j) * x1 (ix2 j k)) + x2 (ix2 0 k)) * x3 (ix2 k q) := by
  unfold k1_pay1
  simp only [shapeCast_self]
  rw [truncf_apply, projMatmul_apply]
  refine Finset.sum_congr rfl fun k _ => ?_
  rw [truncf_apply, maximumf_apply, addf_apply, aggMatmul_apply, biasRow_apply, broadcast_apply]
  show max _ (Ideal.ofBits .f32 0x00000000#32) * _ = _
  rw [Ideal.ofBits_zero_f32]
  rfl

/-- The fused body's stored block at (p, q): the hidden row relu (A-row · y + b), then its product with column q of the weights. -/
theorem pay2_apply (x0 : Vec Ideal S640x10240 .bf16) (x1 : Vec Ideal S10240x256 .bf16) (x2 : Vec Ideal S1x256 .f32) (x3 : Vec Ideal S256x256 .bf16) (p : Fin 640) (q : Fin 256) :
    k2_pay1 x0 x1 x2 x3 (ix2 p q)
      = ∑ k : Fin 256, relu ((∑ j : Fin 10240, x0 (ix2 p j) * x1 (ix2 j k)) + x2 (ix2 0 k)) * x3 (ix2 k q) := by
  unfold k2_pay1
  simp only [shapeCast_self]
  rw [truncf_apply, projMatmul_apply]
  refine Finset.sum_congr rfl fun k _ => ?_
  rw [truncf_apply, maximumf_apply, addf_apply, aggMatmul_apply, biasRow_apply, broadcast_apply]
  show max _ (Ideal.ofBits .f32 0x00000000#32) * _ = _
  rw [Ideal.ofBits_zero_f32]
  rfl

/-! ## The whole arrays -/

/-- The fused layer on whole arrays: row i of relu (A · Y + b), times column c' of W. -/
def fusedArr (A : S10240x10240.Idx → EReal) (Y : S10240x256.Idx → EReal) (B : S1x256.Idx → EReal) (W : S256x256.Idx → EReal) :
    S10240x256.Idx → EReal :=
  fun y => ∑ k : Fin 256, relu ((∑ j : Fin 10240, A (ix2 (y 0) j) * Y (ix2 j k)) + B (ix2 0 k)) * W (ix2 k (y 1))

theorem fusedArr_apply (A : S10240x10240.Idx → EReal) (Y : S10240x256.Idx → EReal) (B : S1x256.Idx → EReal) (W : S256x256.Idx → EReal)
    (r : Fin 10240) (q : Fin 256) :
    fusedArr A Y B W (ix2 r q) = ∑ k : Fin 256, relu ((∑ j : Fin 10240, A (ix2 r j) * Y (ix2 j k)) + B (ix2 0 k)) * W (ix2 k q) := rfl

/-! ## Region 1 -/

theorem lt16_1 (t : Fin cfg1.N) : t.val < 16 := lt_of_lt_of_eq t.isLt N_1

/-- The printed index maps over the 16 points: the adjacency's and the output's row blocks move with the point, every
    other window stays on its whole array. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The adjacency's block at point t is its rows 640 t … 640 t + 639. -/
theorem iblk1_0_eq (c : Dev nD) (t : Fin cfg1.N) : iblk1 V c 0 t = rowBlock (V c main_call0_v39) t.val (lt16_1 t) := by
  obtain ⟨e0, e1, -⟩ := idx_facts1 t
  funext y
  unfold iblk1 rowBlock
  rw [View.read_apply]
  show V c main_call0_v39 (((cfg1.win 0).blk t).view.emb y) = V c main_call0_v39 _
  refine congrArg _ (funext fun a => Fin.ext ?_)
  match a with
  | ⟨0, _⟩ => show win1_0.index t (0 : Fin 2) * 640 + 1 * (y 0).val = t.val * 640 + (y 0).val; rw [e0]; omega
  | ⟨1, _⟩ => show win1_0.index t (1 : Fin 2) * 10240 + 1 * (y 1).val = (y 1).val; rw [e1]; omega

/-- The feature window's block is the whole array at every point. -/
theorem iblk1_1_eq (c : Dev nD) (t : Fin cfg1.N) : iblk1 V c 1 t = V c main_call0_v64 := by
  obtain ⟨-, -, e0, e1, -⟩ := idx_facts1 t
  funext y
  unfold iblk1
  rw [View.read_apply]
  show V c main_call0_v64 (((cfg1.win 1).blk t).view.emb y) = V c main_call0_v64 y
  refine congrArg _ (funext fun a => Fin.ext ?_)
  match a with
  | ⟨0, _⟩ => show win1_1.index t (0 : Fin 2) * 10240 + 1 * (y 0).val = (y 0).val; rw [e0]; omega
  | ⟨1, _⟩ => show win1_1.index t (1 : Fin 2) * 256 + 1 * (y 1).val = (y 1).val; rw [e1]; omega

/-- The bias window's block is the whole row at every point. -/
theorem iblk1_2_eq (c : Dev nD) (t : Fin cfg1.N) : iblk1 V c 2 t = V c main_call0_v60 := by
  obtain ⟨-, -, -, -, e0, e1, -⟩ := idx_facts1 t
  funext y
  unfold iblk1
  rw [View.read_apply]
  show V c main_call0_v60 (((cfg1.win 2).blk t).view.emb y) = V c main_call0_v60 y
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

/-- The weight window's block is the whole matrix at every point. -/
theorem iblk1_3_eq (c : Dev nD) (t : Fin cfg1.N) : iblk1 V c 3 t = V c main_call0_v58 := by
  obtain ⟨-, -, -, -, -, -, e0, e1, -⟩ := idx_facts1 t
  funext y
  unfold iblk1
  rw [View.read_apply]
  show V c main_call0_v58 (((cfg1.win 3).blk t).view.emb y) = V c main_call0_v58 y
  refine congrArg _ (funext fun a => Fin.ext ?_)
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

/-- What the body leaves in the output's staging buffer at point t, over the arrays the region finds. -/
theorem flushed1_pay (c : Dev nD) (t : Fin cfg1.N) :
    (dat1 V c).flushed 4 t = (cfg1.win 4).cut (grid1.coords t)
      (k1_pay1 (rowBlock (V c main_call0_v39) t.val (lt16_1 t)) (V c main_call0_v64) (V c main_call0_v60) (V c main_call0_v58)) := by
  show (cfg1.win 4).cut (grid1.coords t) ((dat1 V c).after 4 t) = _
  rw [after1_4]
  unfold out1_4
  rw [View.canon_unit_zero hz]
  simp only [View.ld_unit_zero (S := S640x10240) hz, View.ld_unit_zero (S := S10240x256) hz, View.ld_unit_zero (S := S1x256) hz, View.ld_unit_zero (S := S256x256) hz]
  rw [iblk1_0_eq, iblk1_1_eq, iblk1_2_eq, iblk1_3_eq]

/-- Where element (p, q) of the output's block at point t sits in the array: row 640 t + p, column q. -/
theorem outEmb1 (t : Fin cfg1.N) (p : Fin 640) (q : Fin 256) :
    ((cfg1.win 4).blk t).view.emb (ix2 p q) = ix2 (⟨t.val * 640 + p.val, by have := lt16_1 t; have := p.isLt; omega⟩ : Fin 10240) q := by
  obtain ⟨-, -, -, -, -, -, -, -, e0, e1⟩ := idx_facts1 t
  refine funext fun a => Fin.ext ?_
  match a with
  | ⟨0, _⟩ => show win1_4.index t (0 : Fin 2) * 640 + 1 * p.val = t.val * 640 + p.val; rw [e0]; omega
  | ⟨1, _⟩ => show win1_4.index t (1 : Fin 2) * 256 + 1 * q.val = q.val; rw [e1]; omega

/-- What point t writes back is block t of the fused layer of the arrays as the region finds them. -/
theorem flushed1_eq (c : Dev nD) (t : Fin cfg1.N) :
    (dat1 V c).flushed 4 t = ((cfg1.win 4).blk t).view.read (Elt Ideal)
      (fusedArr (V c main_call0_v39) (V c main_call0_v64) (V c main_call0_v60) (V c main_call0_v58)) := by
  rw [flushed1_pay]
  funext y
  obtain ⟨p, q, rfl⟩ : ∃ (p : Fin 640) (q : Fin 256), y = ix2 p q := ⟨y 0, y 1, eq_ix2 y⟩
  rw [View.read_apply, outEmb1, fusedArr_apply]
  show k1_pay1 (rowBlock (V c main_call0_v39) t.val (lt16_1 t)) (V c main_call0_v64) (V c main_call0_v60) (V c main_call0_v58) (ix2 p q) = _
  rw [pay1_apply]
  simp only [rowBlock_apply]
  rfl

/-- Every row of the output array is in the block of the point its row number divided by 640 names. -/
theorem cover1 (i : S10240x256.Idx) : ∃ t : Fin cfg1.N, (cfg1.win 4).flush t = true ∧ i ∈ ((cfg1.win 4).blk t).view.set := by
  have hi0 : (i 0).val < 10240 := idx2_lt0 i
  have hi1 : (i 1).val < 256 := idx2_lt1 i
  obtain ⟨t, ht⟩ : ∃ t : Fin cfg1.N, t.val = (i 0).val / 640 := ⟨⟨(i 0).val / 640, by rw [show cfg1.N = 16 from N_1]; omega⟩, rfl⟩
  obtain ⟨-, -, -, -, -, -, -, -, e0, e1⟩ := idx_facts1 t
  refine ⟨t, flush1_4 t, ?_⟩
  show i ∈ ((View.whole main_call0_v65).slice (win1_4.rect t)).set
  rw [View.set_slice_whole, Rect.mem_set_unit]
  intro a
  match a with
  | ⟨0, _⟩ => show win1_4.index t (0 : Fin 2) * 640 ≤ (i 0).val ∧ (i 0).val < win1_4.index t (0 : Fin 2) * 640 + 640; rw [e0, ht]; omega
  | ⟨1, _⟩ => show win1_4.index t (1 : Fin 2) * 256 ≤ (i 1).val ∧ (i 1).val < win1_4.index t (1 : Fin 2) * 256 + 256; rw [e1]; omega

/-- The output array of region 1 is the fused layer of the arrays the region finds. -/
theorem region1_arr (c : Dev nD) :
    (dat1 V c).arrAt 4 cfg1.N = fusedArr (V c main_call0_v39) (V c main_call0_v64) (V c main_call0_v60) (V c main_call0_v58) :=
  (dat1 V c).arrAt_eq_of_cover 4 _ (fun t _ => flushed1_eq V c t) cover1

theorem region1_out (c : Dev nD) (i : Fin 10240) (c' : Fin 256) :
    ((dat1 V c).arrAt 4 cfg1.N : S10240x256.Idx → EReal) (ix2 i c')
      = ∑ k : Fin 256, Cert.GcnSpec.relu ((∑ j : Fin 10240, @id (S10240x10240.Idx → EReal) (V c main_call0_v39) (ix2 i j) * @id (S10240x256.Idx → EReal) (V c main_call0_v64) (ix2 j k)) + @id (S1x256.Idx → EReal) (V c main_call0_v60) (ix2 0 k)) * @id (S256x256.Idx → EReal) (V c main_call0_v58) (ix2 k c') := by
  rw [region1_arr]
  rfl
/-! ## Region 2 -/

theorem lt16_2 (t : Fin cfg2.N) : t.val < 16 := lt_of_lt_of_eq t.isLt N_2

/-- The printed index maps over the 16 points: the adjacency's and the output's row blocks move with the point, every
    other window stays on its whole array. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The adjacency's block at point t is its rows 640 t … 640 t + 639. -/
theorem iblk2_0_eq (c : Dev nD) (t : Fin cfg2.N) : iblk2 V c 0 t = rowBlock (V c main_call0_v39) t.val (lt16_2 t) := by
  obtain ⟨e0, e1, -⟩ := idx_facts2 t
  funext y
  unfold iblk2 rowBlock
  rw [View.read_apply]
  show V c main_call0_v39 (((cfg2.win 0).blk t).view.emb y) = V c main_call0_v39 _
  refine congrArg _ (funext fun a => Fin.ext ?_)
  match a with
  | ⟨0, _⟩ => show win2_0.index t (0 : Fin 2) * 640 + 1 * (y 0).val = t.val * 640 + (y 0).val; rw [e0]; omega
  | ⟨1, _⟩ => show win2_0.index t (1 : Fin 2) * 10240 + 1 * (y 1).val = (y 1).val; rw [e1]; omega

/-- The feature window's block is the whole array at every point. -/
theorem iblk2_1_eq (c : Dev nD) (t : Fin cfg2.N) : iblk2 V c 1 t = V c main_call0_v65 := by
  obtain ⟨-, -, e0, e1, -⟩ := idx_facts2 t
  funext y
  unfold iblk2
  rw [View.read_apply]
  show V c main_call0_v65 (((cfg2.win 1).blk t).view.emb y) = V c main_call0_v65 y
  refine congrArg _ (funext fun a => Fin.ext ?_)
  match a with
  | ⟨0, _⟩ => show win2_1.index t (0 : Fin 2) * 10240 + 1 * (y 0).val = (y 0).val; rw [e0]; omega
  | ⟨1, _⟩ => show win2_1.index t (1 : Fin 2) * 256 + 1 * (y 1).val = (y 1).val; rw [e1]; omega

/-- The bias window's block is the whole row at every point. -/
theorem iblk2_2_eq (c : Dev nD) (t : Fin cfg2.N) : iblk2 V c 2 t = V c main_call0_v61 := by
  obtain ⟨-, -, -, -, e0, e1, -⟩ := idx_facts2 t
  funext y
  unfold iblk2
  rw [View.read_apply]
  show V c main_call0_v61 (((cfg2.win 2).blk t).view.emb y) = V c main_call0_v61 y
  refine congrArg _ (funext fun a => Fin.ext ?_)
  match a with
  | ⟨0, _⟩ => show win2_2.index t (0 : Fin 2) * 1 + 1 * (y 0).val = (y 0).val; rw [e0]; omega
  | ⟨1, _⟩ => show win2_2.index t (1 : Fin 2) * 256 + 1 * (y 1).val = (y 1).val; rw [e1]; omega

/-- The weight window's block is the whole matrix at every point. -/
theorem iblk2_3_eq (c : Dev nD) (t : Fin cfg2.N) : iblk2 V c 3 t = V c main_call0_v59 := by
  obtain ⟨-, -, -, -, -, -, e0, e1, -⟩ := idx_facts2 t
  funext y
  unfold iblk2
  rw [View.read_apply]
  show V c main_call0_v59 (((cfg2.win 3).blk t).view.emb y) = V c main_call0_v59 y
  refine congrArg _ (funext fun a => Fin.ext ?_)
  match a with
  | ⟨0, _⟩ => show win2_3.index t (0 : Fin 2) * 256 + 1 * (y 0).val = (y 0).val; rw [e0]; omega
  | ⟨1, _⟩ => show win2_3.index t (1 : Fin 2) * 256 + 1 * (y 1).val = (y 1).val; rw [e1]; omega

/-- What the body leaves in the output's staging buffer at point t, over the arrays the region finds. -/
theorem flushed2_pay (c : Dev nD) (t : Fin cfg2.N) :
    (dat2 V c).flushed 4 t = (cfg2.win 4).cut (grid2.coords t)
      (k2_pay1 (rowBlock (V c main_call0_v39) t.val (lt16_2 t)) (V c main_call0_v65) (V c main_call0_v61) (V c main_call0_v59)) := by
  show (cfg2.win 4).cut (grid2.coords t) ((dat2 V c).after 4 t) = _
  rw [after2_4]
  unfold out2_4
  rw [View.canon_unit_zero hz]
  simp only [View.ld_unit_zero (S := S640x10240) hz, View.ld_unit_zero (S := S10240x256) hz, View.ld_unit_zero (S := S1x256) hz, View.ld_unit_zero (S := S256x256) hz]
  rw [iblk2_0_eq, iblk2_1_eq, iblk2_2_eq, iblk2_3_eq]

/-- Where element (p, q) of the output's block at point t sits in the array: row 640 t + p, column q. -/
theorem outEmb2 (t : Fin cfg2.N) (p : Fin 640) (q : Fin 256) :
    ((cfg2.win 4).blk t).view.emb (ix2 p q) = ix2 (⟨t.val * 640 + p.val, by have := lt16_2 t; have := p.isLt; omega⟩ : Fin 10240) q := by
  obtain ⟨-, -, -, -, -, -, -, -, e0, e1⟩ := idx_facts2 t
  refine funext fun a => Fin.ext ?_
  match a with
  | ⟨0, _⟩ => show win2_4.index t (0 : Fin 2) * 640 + 1 * p.val = t.val * 640 + p.val; rw [e0]; omega
  | ⟨1, _⟩ => show win2_4.index t (1 : Fin 2) * 256 + 1 * q.val = q.val; rw [e1]; omega

/-- What point t writes back is block t of the fused layer of the arrays as the region finds them. -/
theorem flushed2_eq (c : Dev nD) (t : Fin cfg2.N) :
    (dat2 V c).flushed 4 t = ((cfg2.win 4).blk t).view.read (Elt Ideal)
      (fusedArr (V c main_call0_v39) (V c main_call0_v65) (V c main_call0_v61) (V c main_call0_v59)) := by
  rw [flushed2_pay]
  funext y
  obtain ⟨p, q, rfl⟩ : ∃ (p : Fin 640) (q : Fin 256), y = ix2 p q := ⟨y 0, y 1, eq_ix2 y⟩
  rw [View.read_apply, outEmb2, fusedArr_apply]
  show k2_pay1 (rowBlock (V c main_call0_v39) t.val (lt16_2 t)) (V c main_call0_v65) (V c main_call0_v61) (V c main_call0_v59) (ix2 p q) = _
  rw [pay2_apply]
  simp only [rowBlock_apply]
  rfl

/-- Every row of the output array is in the block of the point its row number divided by 640 names. -/
theorem cover2 (i : S10240x256.Idx) : ∃ t : Fin cfg2.N, (cfg2.win 4).flush t = true ∧ i ∈ ((cfg2.win 4).blk t).view.set := by
  have hi0 : (i 0).val < 10240 := idx2_lt0 i
  have hi1 : (i 1).val < 256 := idx2_lt1 i
  obtain ⟨t, ht⟩ : ∃ t : Fin cfg2.N, t.val = (i 0).val / 640 := ⟨⟨(i 0).val / 640, by rw [show cfg2.N = 16 from N_2]; omega⟩, rfl⟩
  obtain ⟨-, -, -, -, -, -, -, -, e0, e1⟩ := idx_facts2 t
  refine ⟨t, flush2_4 t, ?_⟩
  show i ∈ ((View.whole main_call0_v66).slice (win2_4.rect t)).set
  rw [View.set_slice_whole, Rect.mem_set_unit]
  intro a
  match a with
  | ⟨0, _⟩ => show win2_4.index t (0 : Fin 2) * 640 ≤ (i 0).val ∧ (i 0).val < win2_4.index t (0 : Fin 2) * 640 + 640; rw [e0, ht]; omega
  | ⟨1, _⟩ => show win2_4.index t (1 : Fin 2) * 256 ≤ (i 1).val ∧ (i 1).val < win2_4.index t (1 : Fin 2) * 256 + 256; rw [e1]; omega

/-- The output array of region 2 is the fused layer of the arrays the region finds. -/
theorem region2_arr (c : Dev nD) :
    (dat2 V c).arrAt 4 cfg2.N = fusedArr (V c main_call0_v39) (V c main_call0_v65) (V c main_call0_v61) (V c main_call0_v59) :=
  (dat2 V c).arrAt_eq_of_cover 4 _ (fun t _ => flushed2_eq V c t) cover2

theorem region2_out (c : Dev nD) (i : Fin 10240) (c' : Fin 256) :
    ((dat2 V c).arrAt 4 cfg2.N : S10240x256.Idx → EReal) (ix2 i c')
      = ∑ k : Fin 256, Cert.GcnSpec.relu ((∑ j : Fin 10240, @id (S10240x10240.Idx → EReal) (V c main_call0_v39) (ix2 i j) * @id (S10240x256.Idx → EReal) (V c main_call0_v65) (ix2 j k)) + @id (S1x256.Idx → EReal) (V c main_call0_v61) (ix2 0 k)) * @id (S256x256.Idx → EReal) (V c main_call0_v59) (ix2 k c') := by
  rw [region2_arr]
  rfl

end Cert.KernelIdeal.KVal

end
-- ==== Proof.KRegion3.lean ====
/-
  The plain aggregation region read at an index: each row block of the output is relu (A · y + b)
  with the rows from 10000 on set to zero, so the whole output array at (i, c') is
  relu ((Σ_j A[i, j] · y[j, c']) + b[c']) where i < 10000 and 0 elsewhere.
-/
import proofs.«430691_j58471684768359_3_alg».proof.Proof.FrameKernelIdeal
import proofs.«430691_j58471684768359_3_alg».proof.Proof.GcnSpec
import proofs.«430691_j58471684768359_3_alg».proof.Proof.KAgg
import Idealize.ShloMosaic.Lib.ValueIdx
import Idealize.ShloMosaic.Lib.Pipeline.Value
import Idealize.ShloMosaic.PureOps.Ideal.Laws
import Idealize.ShloMosaic.Lib.ValueLayout

set_option maxRecDepth 16384

noncomputable section

open scoped BigOperators

namespace Cert.KernelIdeal.KVal

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

open Cert.GcnSpec (relu)

/-! ## The row mask of the plain layer, on 32-bit words -/

/-- The row number 640 t + p as the word the body computes: no wrap at 32 bits. -/
theorem rowWord (t p : Nat) :
    IntOp.addi (Scalar.muli (BitVec.ofNat 32 t) 640#32) (BitVec.ofNat 32 p) = BitVec.ofNat 32 (t * 640 + p) := by
  unfold IntOp.addi Scalar.muli IntOp.muli
  apply BitVec.eq_of_toNat_eq
  simp only [BitVec.toNat_add, BitVec.toNat_mul, BitVec.toNat_ofNat, Nat.reducePow, Nat.reduceMod]
  omega

/-- Below 10240 the signed comparison with 10000 is the comparison of the numbers. -/
theorem slt_small (n : Nat) (hn : n < 10240) : (BitVec.ofNat 32 n).slt 10000#32 = decide (n < 10000) := by
  have h1 : (BitVec.ofNat 32 n).toInt = (n : Int) := by
    rw [BitVec.toInt_eq_toNat_of_lt (by rw [BitVec.toNat_ofNat]; omega), BitVec.toNat_ofNat]; omega
  have h2 : (10000#32 : BitVec 32).toInt = 10000 := by decide
  unfold BitVec.slt
  rw [h1, h2]
  simp

/-- The mask bit of row p of the block at point t: set exactly when 640 t + p is a node's row. -/
theorem rowMask (t p : Nat) (ht : t < 16) (hp : p < 640) :
    IntOp.cmpi .slt (IntOp.addi (Scalar.muli (BitVec.ofNat 32 t) 640#32) (BitVec.ofNat 32 p)) 10000#32
      = if t * 640 + p < 10000 then 1#1 else 0#1 := by
  rw [rowWord]
  unfold IntOp.cmpi
  show BitVec.ofBool ((BitVec.ofNat 32 (t * 640 + p)).slt 10000#32) = _
  rw [slt_small _ (by omega)]
  by_cases h : t * 640 + p < 10000
  · rw [if_pos h, decide_eq_true h]; rfl
  · rw [if_neg h, decide_eq_false h]; rfl

/-! ## The whole array -/

/-- The plain layer on whole arrays: relu (A · Y + b) on the nodes' rows, zero on the padding. -/
def plainArr (A : S10240x10240.Idx → EReal) (Y : S10240x256.Idx → EReal) (B : S1x256.Idx → EReal) : S10240x256.Idx → EReal :=
  fun y => if (y 0).val < 10000 then relu ((∑ j : Fin 10240, A (ix2 (y 0) j) * Y (ix2 j (y 1))) + B (ix2 0 (y 1))) else 0

theorem plainArr_apply (A : S10240x10240.Idx → EReal) (Y : S10240x256.Idx → EReal) (B : S1x256.Idx → EReal) (r : Fin 10240) (q : Fin 256) :
    plainArr A Y B (ix2 r q) = if r.val < 10000 then relu ((∑ j : Fin 10240, A (ix2 r j) * Y (ix2 j q)) + B (ix2 0 q)) else 0 := rfl

/-- The plain body's stored block at (p, q), at the grid position i: the hidden entry where row 640 i + p is a node's, zero elsewhere. -/
theorem pay3_apply (i : grid3.Coords) (x0 : Vec Ideal S640x10240 .bf16) (x1 : Vec Ideal S10240x256 .bf16) (x2 : Vec Ideal S1x256 .f32) (p : Fin 640) (q : Fin 256) :
    k3_pay1 i x0 x1 x2 (ix2 p q)
      = if (i 0).val * 640 + p.val < 10000 then relu ((∑ j : Fin 10240, x0 (ix2 p j) * x1 (ix2 j q)) + x2 (ix2 0 q)) else 0 := by
  have ht : (i 0).val < 16 := (i 0).isLt
  unfold k3_pay1
  simp only [shapeCast_self]
  show Scalar.select (IntOp.cmpi .slt (IntOp.addi (Scalar.muli (BitVec.ofNat 32 (i 0).val) 640#32) (iota .tc S640x256 32 [0] iota_S640x256_d0_w32 (ix2 p q))) 10000#32)
      (max (matmul (F := Ideal) dot_S640x10240_S10240x256_S640x256_1_0_0_1_n_n none x0 x1 (constant (F := Ideal) S640x256 .f32 0x00000000#32) (ix2 p q)
        + broadcastTo S640x256 x2 broadcasts_S1x256_S640x256 (ix2 p q)) (Ideal.ofBits .f32 0x00000000#32))
      (Ideal.ofBits .f32 0x00000000#32) = _
  rw [aggMatmul_apply, biasRow_apply, iota_single_apply, Ideal.ofBits_zero_f32]
  show Scalar.select (IntOp.cmpi .slt (IntOp.addi (Scalar.muli (BitVec.ofNat 32 (i 0).val) 640#32) (BitVec.ofNat 32 p.val)) 10000#32) _ _ = _
  rw [rowMask _ _ ht p.isLt]
  by_cases h : (i 0).val * 640 + p.val < 10000
  · rw [if_pos h, if_pos h, select_one]; rfl
  · rw [if_neg h, if_neg h, select_zero]

/-! ## Region 3 -/

theorem lt16_3 (t : Fin cfg3.N) : t.val < 16 := lt_of_lt_of_eq t.isLt N_3

/-- The printed index maps over the 16 points: the adjacency's and the output's row blocks move with the point, the
    feature and bias windows stay on their whole arrays, and the grid position is the point's number. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ (grid3.coords t (0 : Fin 1)).val = t.val :=
  (by decide +kernel : ∀ t : Fin grid3.N, _)

/-- The adjacency's block at point t is its rows 640 t … 640 t + 639. -/
theorem iblk3_0_eq (c : Dev nD) (t : Fin cfg3.N) : iblk3 V c 0 t = rowBlock (V c main_call0_v39) t.val (lt16_3 t) := by
  obtain ⟨e0, e1, -⟩ := idx_facts3 t
  funext y
  unfold iblk3 rowBlock
  rw [View.read_apply]
  show V c main_call0_v39 (((cfg3.win 0).blk t).view.emb y) = V c main_call0_v39 _
  refine congrArg _ (funext fun a => Fin.ext ?_)
  match a with
  | ⟨0, _⟩ => show win3_0.index t (0 : Fin 2) * 640 + 1 * (y 0).val = t.val * 640 + (y 0).val; rw [e0]; omega
  | ⟨1, _⟩ => show win3_0.index t (1 : Fin 2) * 10240 + 1 * (y 1).val = (y 1).val; rw [e1]; omega

/-- The feature window's block is the whole array at every point. -/
theorem iblk3_1_eq (c : Dev nD) (t : Fin cfg3.N) : iblk3 V c 1 t = V c main_call0_v66 := by
  obtain ⟨-, -, e0, e1, -⟩ := idx_facts3 t
  funext y
  unfold iblk3
  rw [View.read_apply]
  show V c main_call0_v66 (((cfg3.win 1).blk t).view.emb y) = V c main_call0_v66 y
  refine congrArg _ (funext fun a => Fin.ext ?_)
  match a with
  | ⟨0, _⟩ => show win3_1.index t (0 : Fin 2) * 10240 + 1 * (y 0).val = (y 0).val; rw [e0]; omega
  | ⟨1, _⟩ => show win3_1.index t (1 : Fin 2) * 256 + 1 * (y 1).val = (y 1).val; rw [e1]; omega

/-- The bias window's block is the whole row at every point. -/
theorem iblk3_2_eq (c : Dev nD) (t : Fin cfg3.N) : iblk3 V c 2 t = V c main_call0_v62 := by
  obtain ⟨-, -, -, -, e0, e1, -⟩ := idx_facts3 t
  funext y
  unfold iblk3
  rw [View.read_apply]
  show V c main_call0_v62 (((cfg3.win 2).blk t).view.emb y) = V c main_call0_v62 y
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 256 + 1 * (y 1).val = (y 1).val; rw [e1]; omega

/-- What the body leaves in the output's staging buffer at point t, over the arrays the region finds. -/
theorem flushed3_pay (c : Dev nD) (t : Fin cfg3.N) :
    (dat3 V c).flushed 3 t = (cfg3.win 3).cut (grid3.coords t)
      (k3_pay1 (grid3.coords t) (rowBlock (V c main_call0_v39) t.val (lt16_3 t)) (V c main_call0_v66) (V c main_call0_v62)) := by
  show (cfg3.win 3).cut (grid3.coords t) ((dat3 V c).after 3 t) = _
  rw [after3_3]
  unfold out3_3
  rw [View.canon_unit_zero hz]
  simp only [View.ld_unit_zero (S := S640x10240) hz, View.ld_unit_zero (S := S10240x256) hz, View.ld_unit_zero (S := S1x256) hz]
  rw [iblk3_0_eq, iblk3_1_eq, iblk3_2_eq]

/-- Where element (p, q) of the output's block at point t sits in the array: row 640 t + p, column q. -/
theorem outEmb3 (t : Fin cfg3.N) (p : Fin 640) (q : Fin 256) :
    ((cfg3.win 3).blk t).view.emb (ix2 p q) = ix2 (⟨t.val * 640 + p.val, by have := lt16_3 t; have := p.isLt; omega⟩ : Fin 10240) q := by
  obtain ⟨-, -, -, -, -, -, e0, e1, -⟩ := idx_facts3 t
  refine funext fun a => Fin.ext ?_
  match a with
  | ⟨0, _⟩ => show win3_3.index t (0 : Fin 2) * 640 + 1 * p.val = t.val * 640 + p.val; rw [e0]; omega
  | ⟨1, _⟩ => show win3_3.index t (1 : Fin 2) * 256 + 1 * q.val = q.val; rw [e1]; omega

/-- What point t writes back is block t of the plain layer of the arrays as the region finds them. -/
theorem flushed3_eq (c : Dev nD) (t : Fin cfg3.N) :
    (dat3 V c).flushed 3 t = ((cfg3.win 3).blk t).view.read (Elt Ideal)
      (plainArr (V c main_call0_v39) (V c main_call0_v66) (V c main_call0_v62)) := by
  obtain ⟨-, -, -, -, -, -, -, -, eg⟩ := idx_facts3 t
  rw [flushed3_pay]
  funext y
  obtain ⟨p, q, rfl⟩ : ∃ (p : Fin 640) (q : Fin 256), y = ix2 p q := ⟨y 0, y 1, eq_ix2 y⟩
  rw [View.read_apply, outEmb3, plainArr_apply]
  show k3_pay1 (grid3.coords t) (rowBlock (V c main_call0_v39) t.val (lt16_3 t)) (V c main_call0_v66) (V c main_call0_v62) (ix2 p q) = _
  rw [pay3_apply, eg]
  simp only [rowBlock_apply]
  rfl

/-- Every row of the output array is in the block of the point its row number divided by 640 names. -/
theorem cover3 (i : S10240x256.Idx) : ∃ t : Fin cfg3.N, (cfg3.win 3).flush t = true ∧ i ∈ ((cfg3.win 3).blk t).view.set := by
  have hi0 : (i 0).val < 10240 := idx2_lt0 i
  have hi1 : (i 1).val < 256 := idx2_lt1 i
  obtain ⟨t, ht⟩ : ∃ t : Fin cfg3.N, t.val = (i 0).val / 640 := ⟨⟨(i 0).val / 640, by rw [show cfg3.N = 16 from N_3]; omega⟩, rfl⟩
  obtain ⟨-, -, -, -, -, -, e0, e1, -⟩ := idx_facts3 t
  refine ⟨t, flush3_3 t, ?_⟩
  show i ∈ ((View.whole main_call0_v67).slice (win3_3.rect t)).set
  rw [View.set_slice_whole, Rect.mem_set_unit]
  intro a
  match a with
  | ⟨0, _⟩ => show win3_3.index t (0 : Fin 2) * 640 ≤ (i 0).val ∧ (i 0).val < win3_3.index t (0 : Fin 2) * 640 + 640; rw [e0, ht]; omega
  | ⟨1, _⟩ => show win3_3.index t (1 : Fin 2) * 256 ≤ (i 1).val ∧ (i 1).val < win3_3.index t (1 : Fin 2) * 256 + 256; rw [e1]; omega

/-- The output array of region 3 is the plain layer of the arrays the region finds. -/
theorem region3_arr (c : Dev nD) :
    (dat3 V c).arrAt 3 cfg3.N = plainArr (V c main_call0_v39) (V c main_call0_v66) (V c main_call0_v62) :=
  (dat3 V c).arrAt_eq_of_cover 3 _ (fun t _ => flushed3_eq V c t) cover3

theorem region3_out (c : Dev nD) (i : Fin 10240) (c' : Fin 256) :
    ((dat3 V c).arrAt 3 cfg3.N : S10240x256.Idx → EReal) (ix2 i c')
      = if i.val < 10000 then Cert.GcnSpec.relu ((∑ j : Fin 10240, @id (S10240x10240.Idx → EReal) (V c main_call0_v39) (ix2 i j) * @id (S10240x256.Idx → EReal) (V c main_call0_v66) (ix2 j c')) + @id (S1x256.Idx → EReal) (V c main_call0_v62) (ix2 0 c')) else 0 := by
  rw [region3_arr]
  rfl

end Cert.KernelIdeal.KVal

end
-- ==== Proof.KChain.lean ====
/-
  The five regions composed: the kernel's result as the dense chain of the arrays region 0 finds.

  Each region's output array is a function of the arrays it finds (the region lemmas); an array no region writes is, at
  every later region, what region 0 found; the adjacency is staged by regions 1, 2 and 3 and never written back. Walking
  every array back to region 0's entry and substituting innermost first gives the chain: three graph convolutions on the
  padded arrays, the padded rows of the last set to zero, pooling, the projection and its bias.
-/
import proofs.«430691_j58471684768359_3_alg».proof.Proof.KRegion04
import proofs.«430691_j58471684768359_3_alg».proof.Proof.KRegion12
import proofs.«430691_j58471684768359_3_alg».proof.Proof.KRegion3

noncomputable section

open scoped BigOperators

namespace Cert.KernelIdeal.KVal

open Cert.KernelIdeal Cert.KernelIdeal.Gen Cert.KernelIdeal.GenP Idealize.ShloMosaic Idealize.ShloMosaic.ValueIdx
open Idealize.ShloMosaic.TcCoe Idealize.SL.Sem
open Idealize.ShloMosaic.Pipeline (Dat)

variable (m : (ℓ : Loc nD τ sig) → Buf (Elt Ideal) ℓ) (ρ : Dev nD → PrngReg)

/-! ## The stages of the chain, as functions of the arrays region 0 finds -/

/-- Rows of `H` against columns of `W`. -/
def proj (H : Fin 10240 → Fin 256 → EReal) (W : Fin 256 → Fin 256 → EReal) (j : Fin 10240) (c' : Fin 256) : EReal :=
  ∑ k : Fin 256, H j k * W k c'

/-- One aggregation: the adjacency's row against the column of `Y`, the bias added, the negative part dropped. -/
def conv (A : Fin 10240 → Fin 10240 → EReal) (Y : Fin 10240 → Fin 256 → EReal) (b : Fin 256 → EReal)
    (i : Fin 10240) (c' : Fin 256) : EReal :=
  Cert.GcnSpec.relu ((∑ j : Fin 10240, A i j * Y j c') + b c')

/-- Pooling: the pooling matrix's row against the column of `H`. -/
def pool (P : Fin 128 → Fin 10240 → EReal) (H : Fin 10240 → Fin 256 → EReal) (g : Fin 128) (c' : Fin 256) : EReal :=
  ∑ i : Fin 10240, P g i * H i c'

/-- The first projection. -/
def sY1 (c : Dev nD) : Fin 10240 → Fin 256 → EReal := proj (fun j k => (V1 m ρ c main_call0_v56 : S10240x256.Idx → EReal) (ix2 j k)) (fun k c' => (V1 m ρ c main_call0_v57 : S256x256.Idx → EReal) (ix2 k c'))
/-- The first layer, projected by the second weights. -/
def sY2 (c : Dev nD) : Fin 10240 → Fin 256 → EReal := proj (conv (fun i j => (V1 m ρ c main_call0_v39 : S10240x10240.Idx → EReal) (ix2 i j)) (sY1 m ρ c) (fun c' => (V1 m ρ c main_call0_v60 : S1x256.Idx → EReal) (ix2 0 c'))) (fun k c' => (V1 m ρ c main_call0_v58 : S256x256.Idx → EReal) (ix2 k c'))
/-- The second layer, projected by the third weights. -/
def sY3 (c : Dev nD) : Fin 10240 → Fin 256 → EReal := proj (conv (fun i j => (V1 m ρ c main_call0_v39 : S10240x10240.Idx → EReal) (ix2 i j)) (sY2 m ρ c) (fun c' => (V1 m ρ c main_call0_v61 : S1x256.Idx → EReal) (ix2 0 c'))) (fun k c' => (V1 m ρ c main_call0_v59 : S256x256.Idx → EReal) (ix2 k c'))
/-- The third layer, its padded rows zero. -/
def sH3 (c : Dev nD) : Fin 10240 → Fin 256 → EReal := fun i c' =>
  if i.val < 10000 then conv (fun i j => (V1 m ρ c main_call0_v39 : S10240x10240.Idx → EReal) (ix2 i j)) (sY3 m ρ c) (fun c' => (V1 m ρ c main_call0_v62 : S1x256.Idx → EReal) (ix2 0 c')) i c' else 0

/-! ## The region lemmas' right-hand sides as stages -/

/-- A projection of rows against columns, spelt over arrays of the index type. -/
theorem form0 (X : S10240x256.Idx → EReal) (W : S256x256.Idx → EReal) (j : Fin 10240) (c' : Fin 256) :
    (∑ k : Fin 256, @id (S10240x256.Idx → EReal) X (ix2 j k) * @id (S256x256.Idx → EReal) W (ix2 k c'))
      = proj (fun j k => X (ix2 j k)) (fun k c' => W (ix2 k c')) j c' := rfl

/-- An aggregation followed by a projection, spelt over arrays of the index type. -/
theorem form12 (A : S10240x10240.Idx → EReal) (Y : S10240x256.Idx → EReal) (b : S1x256.Idx → EReal)
    (W : S256x256.Idx → EReal) (i : Fin 10240) (c' : Fin 256) :
    (∑ k : Fin 256, Cert.GcnSpec.relu ((∑ j : Fin 10240, @id (S10240x10240.Idx → EReal) A (ix2 i j)
          * @id (S10240x256.Idx → EReal) Y (ix2 j k)) + @id (S1x256.Idx → EReal) b (ix2 0 k))
        * @id (S256x256.Idx → EReal) W (ix2 k c'))
      = proj (conv (fun i j => A (ix2 i j)) (fun j k => Y (ix2 j k)) (fun k => b (ix2 0 k))) (fun k c' => W (ix2 k c')) i c' := rfl

/-- An aggregation with the padded rows zero, spelt over arrays of the index type. -/
theorem form3 (A : S10240x10240.Idx → EReal) (Y : S10240x256.Idx → EReal) (b : S1x256.Idx → EReal)
    (i : Fin 10240) (c' : Fin 256) :
    (if i.val < 10000 then Cert.GcnSpec.relu ((∑ j : Fin 10240, @id (S10240x10240.Idx → EReal) A (ix2 i j)
          * @id (S10240x256.Idx → EReal) Y (ix2 j c')) + @id (S1x256.Idx → EReal) b (ix2 0 c')) else 0)
      = (fun i c' => if i.val < 10000 then conv (fun i j => A (ix2 i j)) (fun j k => Y (ix2 j k)) (fun k => b (ix2 0 k)) i c' else 0) i c' := rfl

/-- Pooling, the projection and its bias, spelt over arrays of the index type. -/
theorem form4 (P : S128x10240.Idx → EReal) (H : S10240x256.Idx → EReal) (LW : S256x128.Idx → EReal)
    (LB : S1x128.Idx → EReal) (g t : Fin 128) :
    ((∑ c' : Fin 256, (∑ i : Fin 10240, @id (S128x10240.Idx → EReal) P (ix2 g i) * @id (S10240x256.Idx → EReal) H (ix2 i c'))
        * @id (S256x128.Idx → EReal) LW (ix2 c' t)) + @id (S1x128.Idx → EReal) LB (ix2 0 t))
      = Cert.GcnSpec.classify (pool (fun g i => P (ix2 g i)) (fun j k => H (ix2 j k))) (fun k t => LW (ix2 k t))
          (fun t => LB (ix2 0 t)) g t := rfl

/-! ## Arrays no region writes: at every later region they are what region 0 found -/

/-- The pooling matrix is written by no region before the last. -/
theorem P_at5 (c : Dev nD) : V5 m ρ c main_call0_v54 = V1 m ρ c main_call0_v54 :=
  calc W5 m ρ c (Proc.devRef .tc main_call0_v54)
    _ = W4 m ρ c (Proc.devRef .tc main_call0_v54) := W5_of_ne m ρ c main_call0_v54 (by decide)
    _ = W3 m ρ c (Proc.devRef .tc main_call0_v54) := W4_of_ne m ρ c main_call0_v54 (by decide)
    _ = W2 m ρ c (Proc.devRef .tc main_call0_v54) := W3_of_ne m ρ c main_call0_v54 (by decide)
    _ = W1 m ρ c (Proc.devRef .tc main_call0_v54) := W2_of_ne m ρ c main_call0_v54 (by decide)

/-- The projection matrix is written by no region. -/
theorem LW_at5 (c : Dev nD) : V5 m ρ c main_arg9 = V1 m ρ c main_arg9 :=
  calc W5 m ρ c (Proc.devRef .tc main_arg9)
    _ = W4 m ρ c (Proc.devRef .tc main_arg9) := W5_of_ne m ρ c main_arg9 (by decide)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)

/-- The projection's bias row is written by no region. -/
theorem LB_at5 (c : Dev nD) : V5 m ρ c main_call0_v63 = V1 m ρ c main_call0_v63 :=
  calc W5 m ρ c (Proc.devRef .tc main_call0_v63)
    _ = W4 m ρ c (Proc.devRef .tc main_call0_v63) := W5_of_ne m ρ c main_call0_v63 (by decide)
    _ = W3 m ρ c (Proc.devRef .tc main_call0_v63) := W4_of_ne m ρ c main_call0_v63 (by decide)
    _ = W2 m ρ c (Proc.devRef .tc main_call0_v63) := W3_of_ne m ρ c main_call0_v63 (by decide)
    _ = W1 m ρ c (Proc.devRef .tc main_call0_v63) := W2_of_ne m ρ c main_call0_v63 (by decide)

/-- The third bias row is written by no region. -/
theorem b3_at4 (c : Dev nD) : V4 m ρ c main_call0_v62 = V1 m ρ c main_call0_v62 :=
  calc W4 m ρ c (Proc.devRef .tc main_call0_v62)
    _ = W3 m ρ c (Proc.devRef .tc main_call0_v62) := W4_of_ne m ρ c main_call0_v62 (by decide)
    _ = W2 m ρ c (Proc.devRef .tc main_call0_v62) := W3_of_ne m ρ c main_call0_v62 (by decide)
    _ = W1 m ρ c (Proc.devRef .tc main_call0_v62) := W2_of_ne m ρ c main_call0_v62 (by decide)

/-- The second bias row is written by no region. -/
theorem b2_at3 (c : Dev nD) : V3 m ρ c main_call0_v61 = V1 m ρ c main_call0_v61 :=
  calc W3 m ρ c (Proc.devRef .tc main_call0_v61)
    _ = W2 m ρ c (Proc.devRef .tc main_call0_v61) := W3_of_ne m ρ c main_call0_v61 (by decide)
    _ = W1 m ρ c (Proc.devRef .tc main_call0_v61) := W2_of_ne m ρ c main_call0_v61 (by decide)

/-- The third weights are written by no region. -/
theorem W3_at3 (c : Dev nD) : V3 m ρ c main_call0_v59 = V1 m ρ c main_call0_v59 :=
  calc W3 m ρ c (Proc.devRef .tc main_call0_v59)
    _ = W2 m ρ c (Proc.devRef .tc main_call0_v59) := W3_of_ne m ρ c main_call0_v59 (by decide)
    _ = W1 m ρ c (Proc.devRef .tc main_call0_v59) := W2_of_ne m ρ c main_call0_v59 (by decide)

/-- The first bias row is written by no region. -/
theorem b1_at2 (c : Dev nD) : V2 m ρ c main_call0_v60 = V1 m ρ c main_call0_v60 :=
  calc W2 m ρ c (Proc.devRef .tc main_call0_v60)
    _ = W1 m ρ c (Proc.devRef .tc main_call0_v60) := W2_of_ne m ρ c main_call0_v60 (by decide)

/-- The second weights are written by no region. -/
theorem W2_at2 (c : Dev nD) : V2 m ρ c main_call0_v58 = V1 m ρ c main_call0_v58 :=
  calc W2 m ρ c (Proc.devRef .tc main_call0_v58)
    _ = W1 m ρ c (Proc.devRef .tc main_call0_v58) := W2_of_ne m ρ c main_call0_v58 (by decide)

/-- Region 0 does not touch the adjacency. -/
theorem A_at2 (c : Dev nD) : V2 m ρ c main_call0_v39 = V1 m ρ c main_call0_v39 :=
  calc W2 m ρ c (Proc.devRef .tc main_call0_v39)
    _ = W1 m ρ c (Proc.devRef .tc main_call0_v39) := W2_of_ne m ρ c main_call0_v39 (by decide)

/-- Region 1 stages the adjacency and never writes it back. -/
theorem A_at3 (c : Dev nD) : V3 m ρ c main_call0_v39 = V1 m ρ c main_call0_v39 :=
  ((W3_arr m ρ c 0).trans (((dat1 (V2 m ρ) c).arrAt_in 0 rfl _).trans (A_eq1 (V2 m ρ) c 0))).trans (A_at2 m ρ c)

/-- Nor does region 2. -/
theorem A_at4 (c : Dev nD) : V4 m ρ c main_call0_v39 = V1 m ρ c main_call0_v39 :=
  ((W4_arr m ρ c 0).trans (((dat2 (V3 m ρ) c).arrAt_in 0 rfl _).trans (A_eq2 (V3 m ρ) c 0))).trans (A_at3 m ρ c)

/-! ## Each region's output, in the arrays region 0 finds: innermost first -/

/-- Region 0's output is the first projection. -/
theorem y1_eq (c : Dev nD) : (fun j k => (V2 m ρ c main_call0_v64 : S10240x256.Idx → EReal) (ix2 j k)) = sY1 m ρ c :=
  funext fun j => funext fun c' =>
    (congrFun (W2_arr m ρ c 2) (ix2 j c')).trans ((region0_out (V1 m ρ) c j c').trans (form0 _ _ j c'))

/-- Region 1's output, in the arrays it finds. -/
theorem r1_eq (c : Dev nD) : (fun j k => (V3 m ρ c main_call0_v65 : S10240x256.Idx → EReal) (ix2 j k))
    = proj (conv (fun i j => (V2 m ρ c main_call0_v39 : S10240x10240.Idx → EReal) (ix2 i j)) (fun j k => (V2 m ρ c main_call0_v64 : S10240x256.Idx → EReal) (ix2 j k)) (fun c' => (V2 m ρ c main_call0_v60 : S1x256.Idx → EReal) (ix2 0 c'))) (fun k c' => (V2 m ρ c main_call0_v58 : S256x256.Idx → EReal) (ix2 k c')) :=
  funext fun i => funext fun c' =>
    (congrFun (W3_arr m ρ c 4) (ix2 i c')).trans ((region1_out (V2 m ρ) c i c').trans (form12 _ _ _ _ i c'))

/-- Region 1's output is the first layer projected. -/
theorem y2_eq (c : Dev nD) : (fun j k => (V3 m ρ c main_call0_v65 : S10240x256.Idx → EReal) (ix2 j k)) = sY2 m ρ c := by
  rw [r1_eq, A_at2, b1_at2, W2_at2, y1_eq]
  rfl

/-- Region 2's output, in the arrays it finds. -/
theorem r2_eq (c : Dev nD) : (fun j k => (V4 m ρ c main_call0_v66 : S10240x256.Idx → EReal) (ix2 j k))
    = proj (conv (fun i j => (V3 m ρ c main_call0_v39 : S10240x10240.Idx → EReal) (ix2 i j)) (fun j k => (V3 m ρ c main_call0_v65 : S10240x256.Idx → EReal) (ix2 j k)) (fun c' => (V3 m ρ c main_call0_v61 : S1x256.Idx → EReal) (ix2 0 c'))) (fun k c' => (V3 m ρ c main_call0_v59 : S256x256.Idx → EReal) (ix2 k c')) :=
  funext fun i => funext fun c' =>
    (congrFun (W4_arr m ρ c 4) (ix2 i c')).trans ((region2_out (V3 m ρ) c i c').trans (form12 _ _ _ _ i c'))

/-- Region 2's output is the second layer projected. -/
theorem y3_eq (c : Dev nD) : (fun j k => (V4 m ρ c main_call0_v66 : S10240x256.Idx → EReal) (ix2 j k)) = sY3 m ρ c := by
  rw [r2_eq, A_at3, b2_at3, W3_at3, y2_eq]
  rfl

/-- Region 3's output, in the arrays it finds. -/
theorem r3_eq (c : Dev nD) : (fun j k => (V5 m ρ c main_call0_v67 : S10240x256.Idx → EReal) (ix2 j k))
    = fun i c' => if i.val < 10000 then conv (fun i j => (V4 m ρ c main_call0_v39 : S10240x10240.Idx → EReal) (ix2 i j)) (fun j k => (V4 m ρ c main_call0_v66 : S10240x256.Idx → EReal) (ix2 j k)) (fun c' => (V4 m ρ c main_call0_v62 : S1x256.Idx → EReal) (ix2 0 c')) i c' else 0 :=
  funext fun i => funext fun c' =>
    (congrFun (W5_arr m ρ c 3) (ix2 i c')).trans ((region3_out (V4 m ρ) c i c').trans (form3 _ _ _ i c'))

/-- Region 3's output is the third layer with its padded rows zero. -/
theorem h3_eq (c : Dev nD) : (fun j k => (V5 m ρ c main_call0_v67 : S10240x256.Idx → EReal) (ix2 j k)) = sH3 m ρ c := by
  rw [r3_eq, A_at4, b3_at4, y3_eq]
  rfl

/-! ## The result -/

/-- Region 4's output, in the arrays it finds. -/
theorem r4_eq (c : Dev nD) (g t : Fin 128) : (W6 m ρ c (Proc.devRef .tc main_v0) : S128x128.Idx → EReal) (ix2 g t)
    = Cert.GcnSpec.classify (pool (fun g i => (V5 m ρ c main_call0_v54 : S128x10240.Idx → EReal) (ix2 g i)) (fun j k => (V5 m ρ c main_call0_v67 : S10240x256.Idx → EReal) (ix2 j k)))
        (fun k t => (V5 m ρ c main_arg9 : S256x128.Idx → EReal) (ix2 k t)) (fun t => (V5 m ρ c main_call0_v63 : S1x128.Idx → EReal) (ix2 0 t)) g t :=
  (congrFun (W6_arr m ρ c 4) (ix2 g t)).trans ((region4_out (V5 m ρ) c g t).trans (form4 _ _ _ _ g t))

/-- The result at row `g`, column `t`. -/
theorem kernel_value_at (c : Dev nD) (g t : Fin 128) :
    (W6 m ρ c (Proc.devRef .tc main_v0) : S128x128.Idx → EReal) (ix2 g t)
      = Cert.GcnSpec.denseChain (fun i j => (V1 m ρ c main_call0_v39 : S10240x10240.Idx → EReal) (ix2 i j)) (fun g i => (V1 m ρ c main_call0_v54 : S128x10240.Idx → EReal) (ix2 g i)) (fun j k => (V1 m ρ c main_call0_v56 : S10240x256.Idx → EReal) (ix2 j k))
          (fun k c' => (V1 m ρ c main_call0_v57 : S256x256.Idx → EReal) (ix2 k c')) (fun c' => (V1 m ρ c main_call0_v60 : S1x256.Idx → EReal) (ix2 0 c'))
          (fun k c' => (V1 m ρ c main_call0_v58 : S256x256.Idx → EReal) (ix2 k c')) (fun c' => (V1 m ρ c main_call0_v61 : S1x256.Idx → EReal) (ix2 0 c'))
          (fun k c' => (V1 m ρ c main_call0_v59 : S256x256.Idx → EReal) (ix2 k c')) (fun c' => (V1 m ρ c main_call0_v62 : S1x256.Idx → EReal) (ix2 0 c'))
          (fun k t => (V1 m ρ c main_arg9 : S256x128.Idx → EReal) (ix2 k t)) (fun t => (V1 m ρ c main_call0_v63 : S1x128.Idx → EReal) (ix2 0 t)) g t := by
  rw [r4_eq, P_at5, LW_at5, LB_at5, h3_eq]
  rfl

/-- The kernel's result is the dense chain of the arrays region 0 finds. -/
theorem kernel_value (c : Dev nD) : (W6 m ρ c (Proc.devRef .tc main_v0) : S128x128.Idx → EReal) = fun idx =>
  Cert.GcnSpec.denseChain (fun i j => (V1 m ρ c main_call0_v39 : S10240x10240.Idx → EReal) (ix2 i j)) (fun g i => (V1 m ρ c main_call0_v54 : S128x10240.Idx → EReal) (ix2 g i)) (fun j k => (V1 m ρ c main_call0_v56 : S10240x256.Idx → EReal) (ix2 j k))
    (fun k c' => (V1 m ρ c main_call0_v57 : S256x256.Idx → EReal) (ix2 k c')) (fun c' => (V1 m ρ c main_call0_v60 : S1x256.Idx → EReal) (ix2 0 c'))
    (fun k c' => (V1 m ρ c main_call0_v58 : S256x256.Idx → EReal) (ix2 k c')) (fun c' => (V1 m ρ c main_call0_v61 : S1x256.Idx → EReal) (ix2 0 c'))
    (fun k c' => (V1 m ρ c main_call0_v59 : S256x256.Idx → EReal) (ix2 k c')) (fun c' => (V1 m ρ c main_call0_v62 : S1x256.Idx → EReal) (ix2 0 c'))
    (fun k t => (V1 m ρ c main_arg9 : S256x128.Idx → EReal) (ix2 k t)) (fun t => (V1 m ρ c main_call0_v63 : S1x128.Idx → EReal) (ix2 0 t)) (idx 0) (idx 1) :=
  funext fun idx =>
    (congrArg (W6 m ρ c (Proc.devRef .tc main_v0) : S128x128.Idx → EReal) (eq_ix2 idx)).trans
      (kernel_value_at m ρ c (idx 0) (idx 1))

end Cert.KernelIdeal.KVal

end
-- ==== Proof.RefValueA.lean ====
/-
  The reference program's stages read at plain coordinates, each as a statement about the operation itself: its
  operands are arbitrary arrays of which only what the stage reads is assumed (a constant vector holds its constant,
  an index column holds the node words). Nothing here names a stage of the program; the next two modules apply these
  statements to the program's stages in order.

  * words and layout: the wrap of a nonnegative index word; a vector spread over columns or over rows.
  * the graph: the degree of a node as a segment sum of ones, its inverse square root, a gather by node words,
    the weight of an edge.
  * the mean over groups: a segment sum of rows by group words over the larger of the group's count and one.
-/
import proofs.«430691_j58471684768359_3_alg».proof.Proof.Gen.ReferenceIdeal
import proofs.«430691_j58471684768359_3_alg».proof.Proof.GcnSpec
import proofs.«430691_j58471684768359_3_alg».proof.Proof.Consts
import proofs.«430691_j58471684768359_3_alg».proof.Proof.LibSegmentSum
import proofs.«430691_j58471684768359_3_alg».proof.Proof.Edges
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-- The printed wrap of a negative index (add the axis length where the word is negative) leaves a nonnegative word alone. -/
theorem wrap_of_nonneg (w : BitVec 32) (h0 : 0 ≤ w.toInt) :
    Scalar.select (IntOp.cmpi .slt w 0#32) (IntOp.addi w 10000#32) w = w := by
  have hc : IntOp.cmpi .slt w 0#32 = 0#1 := by
    unfold IntOp.cmpi
    have : w.slt 0#32 = false := by
      simp only [BitVec.slt, BitVec.toInt_zero, decide_eq_false_iff_not, not_lt]; exact h0
    rw [this]; rfl
  rw [hc, select_zero]

/-- The inverse square root of a degree as the reference spells it: where the degree is positive, `rsqrt` of its maximum with one, else zero. -/
theorem isd_scalar (g : EReal) :
    Scalar.select (Ideal.cmp .ogt g 0) (Ideal.rsqrt (max g 1)) 0 = Cert.GcnSpec.isdOf g := by
  unfold Cert.GcnSpec.isdOf Ideal.cmp Scalar.select
  by_cases h : 0 < g
  · simp [h]
  · simp [h]

/-! ## Layout: a column vector spread over columns, a row vector spread over rows -/

/-- A vector made a one-column matrix, read at a row. -/
theorem bcast_col1 {α : Type} {M : Nat} (hM : M ≠ 1) (h0 : (⟨1, ![M]⟩ : Shape).BroadcastsInDim ⟨2, ![M, 1]⟩ ![0])
    (v : (⟨1, ![M]⟩ : Shape).Idx → α) (e : Fin M) :
    broadcastInDim ⟨2, ![M, 1]⟩ ![0] h0 v (ix2 e 0) = v (ix1 e) :=
  broadcastInDim_apply _ h0 v (ix2 e 0) (ix1 e) (fun a => match a with
    | ⟨0, _⟩ => by show e.val = if M = 1 then 0 else e.val; rw [if_neg hM])

/-- A vector made a one-column matrix and then spread over `D` columns, read at (row, column): the vector at the row. -/
theorem bcast_col {α : Type} {M D : Nat} (hM : M ≠ 1) (h0 : (⟨1, ![M]⟩ : Shape).BroadcastsInDim ⟨2, ![M, 1]⟩ ![0])
    (h1 : (⟨2, ![M, 1]⟩ : Shape).BroadcastsInDim ⟨2, ![M, D]⟩ ![0, 1])
    (v : (⟨1, ![M]⟩ : Shape).Idx → α) (e : Fin M) (c : Fin D) :
    broadcastInDim ⟨2, ![M, D]⟩ ![0, 1] h1 (broadcastInDim ⟨2, ![M, 1]⟩ ![0] h0 v) (ix2 e c) = v (ix1 e) := by
  rw [broadcastInDim_apply _ h1 _ (ix2 e c) (ix2 e 0) (fun a => match a with
    | ⟨0, _⟩ => by show e.val = if M = 1 then 0 else e.val; rw [if_neg hM]
    | ⟨1, _⟩ => by show 0 = if (1 : Nat) = 1 then 0 else c.val; rw [if_pos rfl])]
  exact bcast_col1 hM h0 v e

/-- A vector made a one-row matrix and then spread over `N` rows, read at (row, column): the vector at the column. -/
theorem bcast_row {α : Type} {N D : Nat} (hD : D ≠ 1) (h0 : (⟨1, ![D]⟩ : Shape).BroadcastsInDim ⟨2, ![1, D]⟩ ![1])
    (h1 : (⟨2, ![1, D]⟩ : Shape).BroadcastsInDim ⟨2, ![N, D]⟩ ![0, 1])
    (v : (⟨1, ![D]⟩ : Shape).Idx → α) (i : Fin N) (c : Fin D) :
    broadcastInDim ⟨2, ![N, D]⟩ ![0, 1] h1 (broadcastInDim ⟨2, ![1, D]⟩ ![1] h0 v) (ix2 i c) = v (ix1 c) := by
  rw [broadcastInDim_apply _ h1 _ (ix2 i c) (ix2 0 c) (fun a => match a with
    | ⟨0, _⟩ => by show 0 = if (1 : Nat) = 1 then 0 else i.val; rw [if_pos rfl]
    | ⟨1, _⟩ => by show c.val = if D = 1 then 0 else c.val; rw [if_neg hD])]
  exact broadcastInDim_apply _ h0 v (ix2 0 c) (ix1 c) (fun a => match a with
    | ⟨0, _⟩ => by show c.val = if D = 1 then 0 else c.val; rw [if_neg hD])

/-! ## The graph: node words, degrees, inverse roots, edge weights -/

section Graph

variable {E : IVec ⟨2, ![2, 320000]⟩ 32} (hE : Cert.Edges.InRange E)

/-- The edges whose index word, read signed, is `i` are the edges whose node is `i`. -/
theorem filter_node (r : Fin 2) (idx : IVec ⟨2, ![330000, 1]⟩ 32) (hidx : ∀ e : Fin 330000, idx (ix2 e 0) = Cert.Edges.nodeW E r e) (i : Fin 10000) :
    (Finset.univ.filter (fun e : Fin 330000 => (idx (ix2 e 0)).toInt = (i.val : ℤ)))
      = Finset.univ.filter (fun e : Fin 330000 => Cert.Edges.node hE r e = i) := by
  ext e
  simp only [Finset.mem_filter, Finset.mem_univ, true_and]
  rw [hidx, Cert.Edges.nodeW_toInt hE]
  constructor
  · intro h; exact Fin.ext (by exact_mod_cast h)
  · intro h; rw [h]

include hE in
/-- The wrapped index column of a node-word vector is the node words: they are nonnegative. -/
theorem wrap_stage (r : Fin 2) (h0 : (⟨1, ![330000]⟩ : Shape).BroadcastsInDim ⟨2, ![330000, 1]⟩ ![0])
    (w c0 c1 : IVec ⟨1, ![330000]⟩ 32) (hw : ∀ e : Fin 330000, w (ix1 e) = Cert.Edges.nodeW E r e)
    (hc0 : ∀ j, c0 j = 0#32) (hc1 : ∀ j, c1 j = 10000#32) (e : Fin 330000) :
    broadcastInDim ⟨2, ![330000, 1]⟩ ![0] h0 (select (cmpi .slt w c0) (addi w c1) w) (ix2 e 0) = Cert.Edges.nodeW E r e := by
  rw [bcast_col1 (by decide) h0]
  show Scalar.select (IntOp.cmpi .slt (w (ix1 e)) (c0 (ix1 e))) (IntOp.addi (w (ix1 e)) (c1 (ix1 e))) (w (ix1 e)) = _
  rw [hc0, hc1, hw, wrap_of_nonneg _ (Cert.Edges.nodeW_range hE r e).1]

/-- The degree stage: a segment sum of ones by target words, from zero. -/
theorem deg_stage (d : ScatterDims ⟨1, ![10000]⟩ ⟨2, ![330000, 1]⟩ ⟨1, ![330000]⟩)
    (huw : d.updateWindowDims = []) (hiw : d.insertedWindowDims = [0]) (hsd : d.scatterDimsToOperandDims = [0]) (hiv : d.indexVectorDim = 1)
    (x : FVec Ideal ⟨1, ![10000]⟩ .f32) (hx : ∀ j, x j = 0)
    (idx : IVec ⟨2, ![330000, 1]⟩ 32) (hidx : ∀ e : Fin 330000, idx (ix2 e 0) = Cert.Edges.nodeW E 1 e)
    (upd : FVec Ideal ⟨1, ![330000]⟩ .f32) (hupd : ∀ j, upd j = 1) (i : Fin 10000) :
    Host.scatterAdd (F := Ideal) (φ := .f32) d x idx upd (ix1 i) = Cert.GcnSpec.deg (Cert.Edges.node hE 1) i := by
  rw [Cert.LibSegmentSum.scatterAdd_seg1 d huw hiw hsd hiv, hx, filter_node hE 1 idx hidx i]
  unfold Cert.GcnSpec.deg
  exact congrArg _ (Finset.sum_congr rfl fun e _ => hupd _)

/-- The inverse-root stage at an index where the three constant vectors hold their constants. -/
theorem isd_stage {s : Shape} (g zero one zero' : FVec Ideal s .f32) (j : s.Idx) (hz : zero j = 0) (ho : one j = 1) (hz' : zero' j = 0) :
    select (cmpf .ogt g zero) (Host.rsqrt (maximumf g one)) zero' j = Cert.GcnSpec.isdOf (g j) := by
  show Scalar.select (Ideal.cmp .ogt (g j) (zero j)) (Ideal.rsqrt (max (g j) (one j))) (zero' j) = _
  rw [hz, ho, hz']; exact isd_scalar (g j)

/-- A one-axis gather by node words reads the array at the node. -/
theorem gather_node (r : Fin 2) (d : GatherDims ⟨1, ![10000]⟩ ⟨2, ![330000, 1]⟩ ⟨1, ![330000]⟩)
    (hcoll : d.collapsedSliceDims = [0]) (hob : d.operandBatchingDims = []) (hsim : d.startIndexMap = [0]) (hivd : d.indexVectorDim = 1)
    (x : FVec Ideal ⟨1, ![10000]⟩ .f32) (idx : IVec ⟨2, ![330000, 1]⟩ 32)
    (hidx : ∀ e : Fin 330000, idx (ix2 e 0) = Cert.Edges.nodeW E r e) (e : Fin 330000) :
    Host.gather d x idx (ix1 e) = x (ix1 (Cert.Edges.node hE r e)) := by
  rw [Cert.LibSegmentSum.gather_seg1 d hcoll hob hsim hivd x idx e (by decide)]
  refine congrArg (fun k => x (ix1 k)) (Fin.ext ?_)
  show min (idx (ix2 e 0)).toInt.toNat (10000 - 1) = (Cert.Edges.nodeW E r e).toInt.toNat
  rw [hidx]
  exact Cert.LibSegmentSum.clamp_of_inRange _ (Cert.Edges.nodeW_range hE r e).1 (Cert.Edges.nodeW_range hE r e).2

/-- A gather of rows by node words reads the matrix at the node's row. -/
theorem gather_node_rows (r : Fin 2) (d : GatherDims ⟨2, ![10000, 256]⟩ ⟨2, ![330000, 1]⟩ ⟨2, ![330000, 256]⟩)
    (hoff : d.offsetDims = [1]) (hcoll : d.collapsedSliceDims = [0]) (hob : d.operandBatchingDims = []) (hsb : d.startIndicesBatchingDims = [])
    (hsim : d.startIndexMap = [0]) (hivd : d.indexVectorDim = 1) (hss : d.sliceSizes = ![1, 256])
    (x : FVec Ideal ⟨2, ![10000, 256]⟩ .f32) (idx : IVec ⟨2, ![330000, 1]⟩ 32)
    (hidx : ∀ e : Fin 330000, idx (ix2 e 0) = Cert.Edges.nodeW E r e) (e : Fin 330000) (c : Fin 256) :
    Host.gather d x idx (ix2 e c) = x (ix2 (Cert.Edges.node hE r e) c) := by
  rw [Cert.LibSegmentSum.gather_rows d hoff hcoll hob hsb hsim hivd hss x idx e c (by decide)]
  refine congrArg (fun k => x (ix2 k c)) (Fin.ext ?_)
  show min (idx (ix2 e 0)).toInt.toNat (10000 - 1) = (Cert.Edges.nodeW E r e).toInt.toNat
  rw [hidx]
  exact Cert.LibSegmentSum.clamp_of_inRange _ (Cert.Edges.nodeW_range hE r e).1 (Cert.Edges.nodeW_range hE r e).2

/-- The edge-weight stage: the inverse roots gathered at source and at target, multiplied. -/
theorem nrm_stage (d : GatherDims ⟨1, ![10000]⟩ ⟨2, ![330000, 1]⟩ ⟨1, ![330000]⟩)
    (hcoll : d.collapsedSliceDims = [0]) (hob : d.operandBatchingDims = []) (hsim : d.startIndexMap = [0]) (hivd : d.indexVectorDim = 1)
    (x : FVec Ideal ⟨1, ![10000]⟩ .f32) (hx : ∀ i : Fin 10000, x (ix1 i) = Cert.GcnSpec.isd (Cert.Edges.node hE 1) i)
    (is id : IVec ⟨2, ![330000, 1]⟩ 32) (his : ∀ e : Fin 330000, is (ix2 e 0) = Cert.Edges.nodeW E 0 e)
    (hid : ∀ e : Fin 330000, id (ix2 e 0) = Cert.Edges.nodeW E 1 e) (e : Fin 330000) :
    mulf (Host.gather d x is) (Host.gather d x id) (ix1 e) = Cert.GcnSpec.nrm (Cert.Edges.node hE 0) (Cert.Edges.node hE 1) e := by
  rw [mulf_apply, gather_node hE 0 d hcoll hob hsim hivd x is his, gather_node hE 1 d hcoll hob hsim hivd x id hid, hx, hx]
  rfl

end Graph

/-- A rank-1 index is `ix1` of its coordinate, given the coordinate. -/
theorem idx1_eq {n : Nat} (j : (⟨1, ![n]⟩ : Shape).Idx) (a : Fin n) (h : j 0 = a) : j = ix1 a := by
  subst h; exact eq_ix1 j

/-- A rank-2 index is `ix2` of its coordinates, given the coordinates. -/
theorem idx2_eq {n0 n1 : Nat} (j : (⟨2, ![n0, n1]⟩ : Shape).Idx) (a : Fin n0) (b : Fin n1) (h0 : j 0 = a) (h1 : j 1 = b) : j = ix2 a b := by
  subst h0; subst h1; exact eq_ix2 j

/-! ## The mean over groups -/

/-- The pooled stage at (group, column): the sum of the rows whose group word names the group, over the larger of the
    group's count and one. -/
theorem pool_stage (B : IVec S10000 32)
    (d2 : ScatterDims S128x256 S10000x1 S10000x256)
    (h2uw : d2.updateWindowDims = [1]) (h2iw : d2.insertedWindowDims = [0]) (h2sd : d2.scatterDimsToOperandDims = [0]) (h2iv : d2.indexVectorDim = 1)
    (d1 : ScatterDims S128 S10000x1 S10000)
    (h1uw : d1.updateWindowDims = []) (h1iw : d1.insertedWindowDims = [0]) (h1sd : d1.scatterDimsToOperandDims = [0]) (h1iv : d1.indexVectorDim = 1)
    (H3 : FVec Ideal S10000x256 .f32) (bi bi' : IVec S10000x1 32)
    (hbi : ∀ i : Fin 10000, bi (ix2 i 0) = B (ix1 i)) (hbi' : ∀ i : Fin 10000, bi' (ix2 i 0) = B (ix1 i))
    (z2 : FVec Ideal S128x256 .f32) (hz2 : ∀ j, z2 j = 0) (z1 : FVec Ideal S128 .f32) (hz1 : ∀ j, z1 j = 0)
    (ones : FVec Ideal S10000 .f32) (hones : ∀ j, ones j = 1) (o1 : FVec Ideal S128 .f32) (ho1 : ∀ j, o1 j = 1)
    (hb0 : S128.BroadcastsInDim S128x1 ![0]) (hb1 : S128x1.BroadcastsInDim S128x256 ![0, 1]) (g : Fin 128) (c : Fin 256) :
    Host.divf (Host.scatterAdd (F := Ideal) (φ := .f32) d2 z2 bi H3)
        (broadcastInDim S128x256 ![0, 1] hb1 (broadcastInDim S128x1 ![0] hb0 (maximumf (Host.scatterAdd (F := Ideal) (φ := .f32) d1 z1 bi' ones) o1))) (ix2 g c)
      = Ideal.div (0 + ∑ i ∈ Finset.univ.filter (fun i : Fin 10000 => (B (ix1 i)).toInt = (g.val : ℤ)), H3 (ix2 i c))
          (max (Cert.GcnSpec.cntRef (fun i : Fin 10000 => (B (ix1 i)).toInt) g) 1) := by
  show Ideal.div (Host.scatterAdd (F := Ideal) (φ := .f32) d2 z2 bi H3 (ix2 g c))
      (broadcastInDim S128x256 ![0, 1] hb1 (broadcastInDim S128x1 ![0] hb0 (maximumf (Host.scatterAdd (F := Ideal) (φ := .f32) d1 z1 bi' ones) o1)) (ix2 g c)) = _
  rw [Cert.LibSegmentSum.scatterAdd_segRows d2 h2uw h2iw h2sd h2iv, hz2, bcast_col (by decide), maximumf_apply,
    Cert.LibSegmentSum.scatterAdd_seg1 d1 h1uw h1iw h1sd h1iv, hz1, ho1]
  unfold Cert.GcnSpec.cntRef
  simp only [hbi, hbi', hones]

end Cert.ReferenceIdeal.RefValue

end
-- ==== Proof.RefValueB.lean ====
/-
  One graph convolution of the reference program as a single term over its operands, read at (node, column) as the
  convolution by edges; and the program's graph stages in order: the source and target words, the degrees, the inverse
  square roots, the first layer's edge weights.
-/
import proofs.«430691_j58471684768359_3_alg».proof.Proof.RefRead
import proofs.«430691_j58471684768359_3_alg».proof.Proof.RefValueA

noncomputable section

open scoped BigOperators

namespace Cert.ReferenceIdeal.RefValue

open Cert.ReferenceIdeal Cert.ReferenceIdeal.Gen Idealize.ShloMosaic Idealize.ShloMosaic.ValueIdx

open Cert.ReferenceIdeal.ReadP

/-! ## One convolution layer -/

section Layer

variable {E : IVec ⟨2, ![2, 320000]⟩ 32} (hE : Cert.Edges.InRange E)

/-- The product of node features and a weight matrix read at (node, column): a plain sum over the contracted coordinate. -/
theorem dot_apply (H : FVec Ideal S10000x256 .f32) (W : FVec Ideal S256x256 .f32) (i : Fin 10000) (c : Fin 256) :
    Host.dotGeneral (F := Ideal) dot_S10000x256_S256x256_S10000x256_1_0_0_1_n_n none H W (ix2 i c) = ∑ k : Fin 256, H (ix2 i k) * W (ix2 k c) := by
  refine (val_main_v17_apply H W (ix2 i c)).trans (Finset.sum_congr rfl fun k _ => ?_)
  rw [idx2_eq (lidx_main_v17 (ix2 i c) k) i k rfl rfl, idx2_eq (ridx_main_v17 (ix2 i c) k) k c rfl rfl]

/-- One printed convolution layer as a function of its operands: project, gather the rows at the source words, weigh by
    the edge weights spread over the columns, add up at the target words from `z`, add the bias spread over the rows,
    take the maximum with `zr`. The three layers of the program are this term on different operands. -/
def layer (H : FVec Ideal S10000x256 .f32) (W : FVec Ideal S256x256 .f32) (b : FVec Ideal S256 .f32)
    (src dst : IVec S330000x1 32) (nrm : FVec Ideal S330000 .f32) (z zr : FVec Ideal S10000x256 .f32) : FVec Ideal S10000x256 .f32 :=
  maximumf (addf (Host.scatterAdd (F := Ideal) (φ := .f32) scatter_S10000x256_S330000x1_S330000x256_1_0_0_1 z dst
      (mulf (Host.gather gather_S10000x256_S330000x1_S330000x256_1_0_n_n_0_1_1256
              (Host.dotGeneral (F := Ideal) dot_S10000x256_S256x256_S10000x256_1_0_0_1_n_n none H W) src)
            (broadcastInDim S330000x256 ![0, 1] bcast_S330000x1_S330000x256_0_1 (broadcastInDim S330000x1 ![0] bcast_S330000_S330000x1_0 nrm))))
    (broadcastInDim S10000x256 ![0, 1] bcast_S1x256_S10000x256_0_1 (broadcastInDim S1x256 ![1] bcast_S256_S1x256_1 b))) zr

/-- A layer read at (node, column) is the convolution by edges followed by the maximum with zero. -/
theorem layer_apply (H : FVec Ideal S10000x256 .f32) (W : FVec Ideal S256x256 .f32) (b : FVec Ideal S256 .f32)
    (src dst : IVec S330000x1 32) (nrm : FVec Ideal S330000 .f32) (z zr : FVec Ideal S10000x256 .f32)
    (hsrc : ∀ e : Fin 330000, src (ix2 e 0) = Cert.Edges.nodeW E 0 e) (hdst : ∀ e : Fin 330000, dst (ix2 e 0) = Cert.Edges.nodeW E 1 e)
    (hnrm : ∀ e : Fin 330000, nrm (ix1 e) = Cert.GcnSpec.nrm (Cert.Edges.node hE 0) (Cert.Edges.node hE 1) e)
    (hz : ∀ j, z j = 0) (hzr : ∀ j, zr j = 0) (i : Fin 10000) (c : Fin 256) :
    layer H W b src dst nrm z zr (ix2 i c)
      = Cert.GcnSpec.relu (Cert.GcnSpec.convRef (Cert.Edges.node hE 0) (Cert.Edges.node hE 1)
          (fun i k => H (ix2 i k)) (fun k c => W (ix2 k c)) (fun c => b (ix1 c)) i c) := by
  unfold layer
  rw [maximumf_apply, addf_apply, hzr,
    Cert.LibSegmentSum.scatterAdd_segRows _ rfl rfl rfl rfl, hz, filter_node hE 1 dst hdst i, bcast_row (by decide)]
  unfold Cert.GcnSpec.relu Cert.GcnSpec.convRef
  refine congrArg (fun t => max (0 + t + b (ix1 c)) 0) (Finset.sum_congr rfl fun e _ => ?_)
  rw [mulf_apply, gather_node_rows hE 0 _ rfl rfl rfl rfl rfl rfl rfl _ src hsrc, bcast_col (by decide), hnrm, dot_apply]

end Layer

/-! ## The printed graph stages -/

section GraphChain

variable (E : IVec S2x320000 32)

/-- The source words: row `0` of the input followed by the self loops. -/
theorem v3_at (e : Fin 330000) : val_main_v3 (F := Ideal) E (ix1 e) = Cert.Edges.nodeW E 0 e := by
  unfold val_main_v3
  exact Cert.Edges.nodes_concat E 0 _ (fun k => by
      rw [val_main_v2_apply, val_main_v1_apply]
      exact congrArg E (funext fun a => match a with
        | ⟨0, _⟩ => rfl
        | ⟨1, _⟩ => Fin.ext (Nat.mod_eq_of_lt k.isLt))) _ (fun k => val_main_v0_apply _) _ e

/-- The target words: row `1` of the input followed by the self loops. -/
theorem v6_at (e : Fin 330000) : val_main_v6 (F := Ideal) E (ix1 e) = Cert.Edges.nodeW E 1 e := by
  unfold val_main_v6
  exact Cert.Edges.nodes_concat E 1 _ (fun k => by
      rw [val_main_v5_apply, val_main_v4_apply]
      exact congrArg E (funext fun a => match a with
        | ⟨0, _⟩ => rfl
        | ⟨1, _⟩ => Fin.ext (Nat.mod_eq_of_lt k.isLt))) _ (fun k => val_main_v0_apply _) _ e

theorem v9_at (e : Fin 330000) : val_main_v9 (F := Ideal) E (ix2 e 0) = Cert.Edges.nodeW E 1 e := by
  rw [val_main_v9_apply, idx1_eq (idx_main_v9 (ix2 e 0)) e rfl]; exact v6_at E e

variable {E} (hE : Cert.Edges.InRange E)

/-- The degree stage is the number of edges into the node. -/
theorem v10_at (i : Fin 10000) : val_main_v10 (F := Ideal) E (ix1 i) = Cert.GcnSpec.deg (Cert.Edges.node hE 1) i :=
  deg_stage hE _ rfl rfl rfl rfl _ (fun j => by rw [val_main_v8_apply, val_main_cst_0_apply]; exact Cert.Consts.ofBits_zero)
    _ (v9_at E) _ (fun j => by rw [val_main_v7_apply, val_main_cst_apply]; exact Cert.Consts.ofBits_one) i

/-- The inverse-root stage. -/
theorem v16_at (i : Fin 10000) : val_main_v16 (F := Ideal) E (ix1 i) = Cert.GcnSpec.isd (Cert.Edges.node hE 1) i := by
  have h := isd_stage (val_main_v10 (F := Ideal) E) (val_main_v11 (F := Ideal)) (val_main_v13 (F := Ideal)) (val_main_call0_v1 (F := Ideal)) (ix1 i)
    (by rw [val_main_v11_apply, val_main_cst_1_apply]; exact Cert.Consts.ofBits_zero)
    (by rw [val_main_v13_apply, val_main_cst_2_apply]; exact Cert.Consts.ofBits_one)
    (by rw [val_main_call0_v1_apply, val_main_call0_v0_apply, val_main_cst_3_apply]; exact Cert.Consts.ofBits_zero)
  rw [v10_at hE] at h
  exact h

include hE in
theorem v23_at (e : Fin 330000) : val_main_v23 (F := Ideal) E (ix2 e 0) = Cert.Edges.nodeW E 0 e :=
  wrap_stage hE 0 _ _ (val_main_v18 (F := Ideal)) (val_main_v20 (F := Ideal)) (v3_at E)
    (fun j => by rw [val_main_v18_apply, val_main_c_apply]) (fun j => by rw [val_main_v20_apply, val_main_c_4_apply]) e

include hE in
theorem v30_at (e : Fin 330000) : val_main_v30 (F := Ideal) E (ix2 e 0) = Cert.Edges.nodeW E 1 e :=
  wrap_stage hE 1 _ _ (val_main_v25 (F := Ideal)) (val_main_v27 (F := Ideal)) (v6_at E)
    (fun j => by rw [val_main_v25_apply, val_main_c_5_apply]) (fun j => by rw [val_main_v27_apply, val_main_c_6_apply]) e

/-- The first layer's edge weights. -/
theorem v32_at (e : Fin 330000) :
    val_main_v32 (F := Ideal) E (ix1 e) = Cert.GcnSpec.nrm (Cert.Edges.node hE 0) (Cert.Edges.node hE 1) e :=
  nrm_stage hE _ rfl rfl rfl rfl _ (v16_at hE) _ _ (v23_at hE) (v30_at hE) e

end GraphChain

end Cert.ReferenceIdeal.RefValue

end
-- ==== Proof.RefValue.lean ====
/-
  The reference program's result as a function of its arguments.

  The program builds the edge list (the given edges and one self loop per node), counts the edges into each node,
  takes inverse square roots, and runs three graph convolutions (project, gather at the source, weigh, add up at the
  target, add the bias, maximum with zero); it then averages the node features over each group and applies a last
  projection and bias. Read stage by stage at plain coordinates, that is the function `Cert.GcnSpec.refOut`.

  This module reads the three layers (each is the one layer term on its own operands), the pool and the last
  projection, and states the result over the run's term.
-/
import proofs.«430691_j58471684768359_3_alg».proof.Proof.RefRead
import proofs.«430691_j58471684768359_3_alg».proof.Proof.RefValueA
import proofs.«430691_j58471684768359_3_alg».proof.Proof.RefValueB

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

open Cert.ReferenceIdeal.ReadP

/-! ## The three layers, the pool and the last projection -/

section LayerChain

/-- A convolution followed by the nonlinearity: one layer's node features from the previous layer's. -/
def conv (s d : Fin 330000 → Fin 10000) (H : Fin 10000 → Fin 256 → EReal) (W : Fin 256 → Fin 256 → EReal) (b : Fin 256 → EReal) :
    Fin 10000 → Fin 256 → EReal :=
  fun i c => Cert.GcnSpec.relu (Cert.GcnSpec.convRef s d H W b i c)

/-- The reference result with its three layers named. -/
theorem refOut_eq (s d : Fin 330000 → Fin 10000) (bg : Fin 10000 → ℤ) (X : Fin 10000 → Fin 256 → EReal)
    (W1 : Fin 256 → Fin 256 → EReal) (b1 : Fin 256 → EReal) (W2 : Fin 256 → Fin 256 → EReal) (b2 : Fin 256 → EReal)
    (W3 : Fin 256 → Fin 256 → EReal) (b3 : Fin 256 → EReal) (LW : Fin 256 → Fin 128 → EReal) (LB : Fin 128 → EReal) (g t : Fin 128) :
    Cert.GcnSpec.refOut s d bg X W1 b1 W2 b2 W3 b3 LW LB g t
      = (∑ c : Fin 256, Ideal.div (0 + ∑ i ∈ Finset.univ.filter (fun i : Fin 10000 => bg i = (g.val : ℤ)),
            conv s d (conv s d (conv s d X W1 b1) W2 b2) W3 b3 i c) (max (Cert.GcnSpec.cntRef bg g) 1) * LW c t) + LB t := rfl

variable {E : IVec S2x320000 32} (hE : Cert.Edges.InRange E)
variable (x0 : FVec Ideal S10000x256 .f32) (x2 : IVec S10000 32)
  (x3 : FVec Ideal S256x256 .f32) (x4 : FVec Ideal S256 .f32) (x5 : FVec Ideal S256x256 .f32) (x6 : FVec Ideal S256 .f32)
  (x7 : FVec Ideal S256x256 .f32) (x8 : FVec Ideal S256 .f32) (x9 : FVec Ideal S256x128 .f32) (x10 : FVec Ideal S128 .f32)

/-! The wrapped source and target index columns of the three layers, and the plain target columns of their segment sums. -/

include hE in
theorem v38_at (e : Fin 330000) : val_main_v38 (F := Ideal) E (ix2 e 0) = Cert.Edges.nodeW E 0 e :=
  wrap_stage hE 0 _ _ (val_main_v33 (F := Ideal)) (val_main_v35 (F := Ideal)) (v3_at E)
    (fun j => by rw [val_main_v33_apply, val_main_c_7_apply]) (fun j => by rw [val_main_v35_apply, val_main_c_8_apply]) e

include hE in
theorem v56_at (e : Fin 330000) : val_main_v56 (F := Ideal) E (ix2 e 0) = Cert.Edges.nodeW E 0 e :=
  wrap_stage hE 0 _ _ (val_main_v51 (F := Ideal)) (val_main_v53 (F := Ideal)) (v3_at E)
    (fun j => by rw [val_main_v51_apply, val_main_c_10_apply]) (fun j => by rw [val_main_v53_apply, val_main_c_11_apply]) e

include hE in
theorem v63_at (e : Fin 330000) : val_main_v63 (F := Ideal) E (ix2 e 0) = Cert.Edges.nodeW E 1 e :=
  wrap_stage hE 1 _ _ (val_main_v58 (F := Ideal)) (val_main_v60 (F := Ideal)) (v6_at E)
    (fun j => by rw [val_main_v58_apply, val_main_c_12_apply]) (fun j => by rw [val_main_v60_apply, val_main_c_13_apply]) e

include hE in
theorem v71_at (e : Fin 330000) : val_main_v71 (F := Ideal) E (ix2 e 0) = Cert.Edges.nodeW E 0 e :=
  wrap_stage hE 0 _ _ (val_main_v66 (F := Ideal)) (val_main_v68 (F := Ideal)) (v3_at E)
    (fun j => by rw [val_main_v66_apply, val_main_c_14_apply]) (fun j => by rw [val_main_v68_apply, val_main_c_15_apply]) e

include hE in
theorem v89_at (e : Fin 330000) : val_main_v89 (F := Ideal) E (ix2 e 0) = Cert.Edges.nodeW E 0 e :=
  wrap_stage hE 0 _ _ (val_main_v84 (F := Ideal)) (val_main_v86 (F := Ideal)) (v3_at E)
    (fun j => by rw [val_main_v84_apply, val_main_c_17_apply]) (fun j => by rw [val_main_v86_apply, val_main_c_18_apply]) e

include hE in
theorem v96_at (e : Fin 330000) : val_main_v96 (F := Ideal) E (ix2 e 0) = Cert.Edges.nodeW E 1 e :=
  wrap_stage hE 1 _ _ (val_main_v91 (F := Ideal)) (val_main_v93 (F := Ideal)) (v6_at E)
    (fun j => by rw [val_main_v91_apply, val_main_c_19_apply]) (fun j => by rw [val_main_v93_apply, val_main_c_20_apply]) e

include hE in
theorem v104_at (e : Fin 330000) : val_main_v104 (F := Ideal) E (ix2 e 0) = Cert.Edges.nodeW E 0 e :=
  wrap_stage hE 0 _ _ (val_main_v99 (F := Ideal)) (val_main_v101 (F := Ideal)) (v3_at E)
    (fun j => by rw [val_main_v99_apply, val_main_c_21_apply]) (fun j => by rw [val_main_v101_apply, val_main_c_22_apply]) e

theorem v44_at (E : IVec S2x320000 32) (e : Fin 330000) : val_main_v44 (F := Ideal) E (ix2 e 0) = Cert.Edges.nodeW E 1 e := by
  rw [val_main_v44_apply, idx1_eq (idx_main_v44 (ix2 e 0)) e rfl]; exact v6_at E e

theorem v77_at (E : IVec S2x320000 32) (e : Fin 330000) : val_main_v77 (F := Ideal) E (ix2 e 0) = Cert.Edges.nodeW E 1 e := by
  rw [val_main_v77_apply, idx1_eq (idx_main_v77 (ix2 e 0)) e rfl]; exact v6_at E e

theorem v110_at (E : IVec S2x320000 32) (e : Fin 330000) : val_main_v110 (F := Ideal) E (ix2 e 0) = Cert.Edges.nodeW E 1 e := by
  rw [val_main_v110_apply, idx1_eq (idx_main_v110 (ix2 e 0)) e rfl]; exact v6_at E e

/-- The second layer's edge weights. -/
theorem v65_at (e : Fin 330000) :
    val_main_v65 (F := Ideal) E (ix1 e) = Cert.GcnSpec.nrm (Cert.Edges.node hE 0) (Cert.Edges.node hE 1) e :=
  nrm_stage hE _ rfl rfl rfl rfl _ (v16_at hE) _ _ (v56_at hE) (v63_at hE) e

/-- The third layer's edge weights. -/
theorem v98_at (e : Fin 330000) :
    val_main_v98 (F := Ideal) E (ix1 e) = Cert.GcnSpec.nrm (Cert.Edges.node hE 0) (Cert.Edges.node hE 1) e :=
  nrm_stage hE _ rfl rfl rfl rfl _ (v16_at hE) _ _ (v89_at hE) (v96_at hE) e

/-! Each printed layer is the layer term on its own operands. -/

theorem v49_eq : val_main_v49 (F := Ideal) x0 E x3 x4
    = layer x0 x3 x4 (val_main_v38 (F := Ideal) E) (val_main_v44 (F := Ideal) E) (val_main_v32 (F := Ideal) E)
        (val_main_v43 (F := Ideal)) (val_main_call1_v0 (F := Ideal)) := rfl

theorem v82_eq : val_main_v82 (F := Ideal) x0 E x3 x4 x5 x6
    = layer (val_main_v49 (F := Ideal) x0 E x3 x4) x5 x6 (val_main_v71 (F := Ideal) E) (val_main_v77 (F := Ideal) E) (val_main_v65 (F := Ideal) E)
        (val_main_v76 (F := Ideal)) (val_main_call2_v0 (F := Ideal)) := rfl

theorem v115_eq : val_main_v115 (F := Ideal) x0 E x3 x4 x5 x6 x7 x8
    = layer (val_main_v82 (F := Ideal) x0 E x3 x4 x5 x6) x7 x8 (val_main_v104 (F := Ideal) E) (val_main_v110 (F := Ideal) E) (val_main_v98 (F := Ideal) E)
        (val_main_v109 (F := Ideal)) (val_main_call3_v0 (F := Ideal)) := rfl

/-- The first layer's node features. -/
theorem v49_at (i : Fin 10000) (c : Fin 256) :
    val_main_v49 (F := Ideal) x0 E x3 x4 (ix2 i c)
      = conv (Cert.Edges.node hE 0) (Cert.Edges.node hE 1) (fun i k => x0 (ix2 i k)) (fun k c => x3 (ix2 k c)) (fun c => x4 (ix1 c)) i c := by
  rw [v49_eq]
  exact layer_apply hE _ _ _ _ _ _ _ _ (v38_at hE) (v44_at E) (v32_at hE)
    (fun j => by rw [val_main_v43_apply, val_main_cst_9_apply]; exact Cert.Consts.ofBits_zero)
    (fun j => by rw [val_main_call1_v0_apply, val_main_call1_cst_apply]; exact Cert.Consts.ofBits_zero) i c

/-- The second layer's node features. -/
theorem v82_at (i : Fin 10000) (c : Fin 256) :
    val_main_v82 (F := Ideal) x0 E x3 x4 x5 x6 (ix2 i c)
      = conv (Cert.Edges.node hE 0) (Cert.Edges.node hE 1)
          (conv (Cert.Edges.node hE 0) (Cert.Edges.node hE 1) (fun i k => x0 (ix2 i k)) (fun k c => x3 (ix2 k c)) (fun c => x4 (ix1 c)))
          (fun k c => x5 (ix2 k c)) (fun c => x6 (ix1 c)) i c := by
  rw [v82_eq, layer_apply hE _ _ _ _ _ _ _ _ (v71_at hE) (v77_at E) (v65_at hE)
    (fun j => by rw [val_main_v76_apply, val_main_cst_16_apply]; exact Cert.Consts.ofBits_zero)
    (fun j => by rw [val_main_call2_v0_apply, val_main_call2_cst_apply]; exact Cert.Consts.ofBits_zero) i c]
  rw [show (fun i k => val_main_v49 (F := Ideal) x0 E x3 x4 (ix2 i k)) = _ from funext fun i => funext fun k => v49_at hE x0 x3 x4 i k]
  rfl

/-- The third layer's node features. -/
theorem v115_at (i : Fin 10000) (c : Fin 256) :
    val_main_v115 (F := Ideal) x0 E x3 x4 x5 x6 x7 x8 (ix2 i c)
      = conv (Cert.Edges.node hE 0) (Cert.Edges.node hE 1)
          (conv (Cert.Edges.node hE 0) (Cert.Edges.node hE 1)
            (conv (Cert.Edges.node hE 0) (Cert.Edges.node hE 1) (fun i k => x0 (ix2 i k)) (fun k c => x3 (ix2 k c)) (fun c => x4 (ix1 c)))
            (fun k c => x5 (ix2 k c)) (fun c => x6 (ix1 c)))
          (fun k c => x7 (ix2 k c)) (fun c => x8 (ix1 c)) i c := by
  rw [v115_eq, layer_apply hE _ _ _ _ _ _ _ _ (v104_at hE) (v110_at E) (v98_at hE)
    (fun j => by rw [val_main_v109_apply, val_main_cst_23_apply]; exact Cert.Consts.ofBits_zero)
    (fun j => by rw [val_main_call3_v0_apply, val_main_call3_cst_apply]; exact Cert.Consts.ofBits_zero) i c]
  rw [show (fun i k => val_main_v82 (F := Ideal) x0 E x3 x4 x5 x6 (ix2 i k)) = _ from funext fun i => funext fun k => v82_at hE x0 x3 x4 x5 x6 i k]
  rfl

/-- The pooled features at (group, column). -/
theorem v127_at (g : Fin 128) (c : Fin 256) :
    val_main_v127 (F := Ideal) x0 E x2 x3 x4 x5 x6 x7 x8 (ix2 g c)
      = Ideal.div (0 + ∑ i ∈ Finset.univ.filter (fun i : Fin 10000 => (x2 (ix1 i)).toInt = (g.val : ℤ)),
            conv (Cert.Edges.node hE 0) (Cert.Edges.node hE 1)
              (conv (Cert.Edges.node hE 0) (Cert.Edges.node hE 1)
                (conv (Cert.Edges.node hE 0) (Cert.Edges.node hE 1) (fun i k => x0 (ix2 i k)) (fun k c => x3 (ix2 k c)) (fun c => x4 (ix1 c)))
                (fun k c => x5 (ix2 k c)) (fun c => x6 (ix1 c)))
              (fun k c => x7 (ix2 k c)) (fun c => x8 (ix1 c)) i c)
          (max (Cert.GcnSpec.cntRef (fun i : Fin 10000 => (x2 (ix1 i)).toInt) g) 1) := by
  have h := pool_stage x2 scatter_S128x256_S10000x1_S10000x256_1_0_0_1 rfl rfl rfl rfl scatter_S128_S10000x1_S10000_n_0_0_1 rfl rfl rfl rfl (val_main_v115 (F := Ideal) x0 E x3 x4 x5 x6 x7 x8)
    (val_main_v117 (F := Ideal) x2) (val_main_v121 (F := Ideal) x2)
    (fun i => by rw [val_main_v117_apply, idx1_eq (idx_main_v117 (ix2 i 0)) i rfl])
    (fun i => by rw [val_main_v121_apply, idx1_eq (idx_main_v121 (ix2 i 0)) i rfl])
    (val_main_v116 (F := Ideal)) (fun j => by rw [val_main_v116_apply, val_main_cst_24_apply]; exact Cert.Consts.ofBits_zero)
    (val_main_v120 (F := Ideal)) (fun j => by rw [val_main_v120_apply, val_main_cst_26_apply]; exact Cert.Consts.ofBits_zero)
    (val_main_v119 (F := Ideal)) (fun j => by rw [val_main_v119_apply, val_main_cst_25_apply]; exact Cert.Consts.ofBits_one)
    (val_main_v123 (F := Ideal)) (fun j => by rw [val_main_v123_apply, val_main_cst_27_apply]; exact Cert.Consts.ofBits_one)
    bcast_S128_S128x1_0 bcast_S128x1_S128x256_0_1 g c
  refine h.trans ?_
  exact congrArg (fun t => Ideal.div (0 + t) _) (Finset.sum_congr rfl fun i _ => v115_at hE x0 x3 x4 x5 x6 x7 x8 i c)

/-- The last stage read at (group, task) is the reference result. -/
theorem v131_at (g t : Fin 128) :
    val_main_v131 (F := Ideal) x0 E x2 x3 x4 x5 x6 x7 x8 x9 x10 (ix2 g t)
      = Cert.GcnSpec.refOut (Cert.Edges.node hE 0) (Cert.Edges.node hE 1) (fun i => (x2 (ix1 i)).toInt)
          (fun i k => x0 (ix2 i k)) (fun k c => x3 (ix2 k c)) (fun c => x4 (ix1 c)) (fun k c => x5 (ix2 k c)) (fun c => x6 (ix1 c))
          (fun k c => x7 (ix2 k c)) (fun c => x8 (ix1 c)) (fun k t => x9 (ix2 k t)) (fun t => x10 (ix1 t)) g t := by
  rw [refOut_eq, val_main_v131_apply, val_main_v128_apply, val_main_v130_apply, val_main_v129_apply]
  refine congrArg₂ (· + ·) (Finset.sum_congr rfl fun k _ => ?_) ?_
  · rw [idx2_eq (lidx_main_v128 (ix2 g t) k) g k rfl rfl, idx2_eq (ridx_main_v128 (ix2 g t) k) k t rfl rfl, v127_at hE]
  · rw [idx1_eq (idx_main_v129 (idx_main_v130 (ix2 g t))) t rfl]

end LayerChain

/-- The reference program's result, read at (group, task), is `refOut` of its arguments read at plain coordinates: the
    graph from the edge words (each names a node under the range hypothesis), the group of each node from the batch words
    read signed. -/
theorem ref_value (m : (ℓ : Loc nD τ sig) → Buf (Elt Ideal) ℓ) (c : Dev nD)
    (hE : Cert.Edges.InRange (m ((c.tc : Thread nD τ).loc main_arg1))) :
    (Cert.ReferenceIdeal.ValueP.res_main_v131 (F := Ideal) m c : S128x128.Idx → EReal) = fun idx =>
      Cert.GcnSpec.refOut (Cert.Edges.node hE 0) (Cert.Edges.node hE 1)
        (fun i => ((m ((c.tc : Thread nD τ).loc main_arg2) : S10000.Idx → BitVec 32) (ix1 i)).toInt)
        (fun i k => (m ((c.tc : Thread nD τ).loc main_arg0) : S10000x256.Idx → EReal) (ix2 i k))
        (fun k c' => (m ((c.tc : Thread nD τ).loc main_arg3) : S256x256.Idx → EReal) (ix2 k c'))
        (fun c' => (m ((c.tc : Thread nD τ).loc main_arg4) : S256.Idx → EReal) (ix1 c'))
        (fun k c' => (m ((c.tc : Thread nD τ).loc main_arg5) : S256x256.Idx → EReal) (ix2 k c'))
        (fun c' => (m ((c.tc : Thread nD τ).loc main_arg6) : S256.Idx → EReal) (ix1 c'))
        (fun k c' => (m ((c.tc : Thread nD τ).loc main_arg7) : S256x256.Idx → EReal) (ix2 k c'))
        (fun c' => (m ((c.tc : Thread nD τ).loc main_arg8) : S256.Idx → EReal) (ix1 c'))
        (fun k t => (m ((c.tc : Thread nD τ).loc main_arg9) : S256x128.Idx → EReal) (ix2 k t))
        (fun t => (m ((c.tc : Thread nD τ).loc main_arg10) : S128.Idx → EReal) (ix1 t)) (idx 0) (idx 1) := by
  funext idx
  have h := v131_at hE (m ((c.tc : Thread nD τ).loc main_arg0)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (idx 0) (idx 1)
  exact (congrFun (val_main_v131_eq m c) idx).trans ((congrArg _ (eq_ix2 idx)).trans h)

end Cert.ReferenceIdeal.RefValue

end
-- ==== Proof.lean ====
/-
  A three-layer graph convolution network with mean pooling, computed two ways.

  The reference walks the edge list: each layer projects the node features, reads the projected row at every edge's
  source, weighs it by `deg(source)^(-1/2) · deg(target)^(-1/2)`, adds the rows up at the edge's target, adds a bias and
  applies `relu`; then the rows of each group of nodes are averaged and sent through a last linear layer.
  The kernel first builds the dense normalised adjacency matrix `A` (entry `(i, j)` the sum of the weights of the edges
  `j → i`) and the dense pooling matrix `P`, both padded from 10000 to 10240 nodes with zeros, and then runs five matrix
  kernels: `Y₁ = X W₁`, twice `Y' = relu (A Y + b) W'`, then `H = relu (A Y₃ + b₃)` with the padded rows set to zero, and
  `(P H) L + l`.

  Over the extended reals the two are one function of the inputs whenever every word of the edge list names a node
  (`0 ≤ word < 10000`, the added conjunct of the precondition; outside it the reference's reads are clamped and its
  writes dropped, which the padded kernel does not reproduce). The equality needs no finiteness: it rests on
  commutativity and associativity of sums and products, on `0 · x = 0`, and on distributing a sum of NON-NEGATIVE terms
  (the edge weights, and the `relu` values under the mean) over a product, which the extended reals allow (GcnMath).

  The pieces: what the kernel's host stretch hands the five kernels, read at an entry (KHostAdj, KHostRest); each kernel's
  output array as a function of its input arrays, and their chain (KRegion04, KRegion12, KRegion3, KChain); the
  reference's result read stage by stage (RefValue); the edge list's range read off the precondition (PreEdges).
-/
import proofs.«430691_j58471684768359_3_alg».proof.Defs
import proofs.«430691_j58471684768359_3_alg».proof.Proof.Gen.Kernel
import proofs.«430691_j58471684768359_3_alg».proof.Proof.Gen.KernelIdeal
import proofs.«430691_j58471684768359_3_alg».proof.Proof.Gen.ReferenceIdeal
import proofs.«430691_j58471684768359_3_alg».proof.Proof.Gen.Pre_finite_inputs
import proofs.«430691_j58471684768359_3_alg».proof.Proof.FrameKernel
import proofs.«430691_j58471684768359_3_alg».proof.Proof.FrameKernelIdeal
import proofs.«430691_j58471684768359_3_alg».proof.Proof.RefRun
import proofs.«430691_j58471684768359_3_alg».proof.Proof.RefRead
import proofs.«430691_j58471684768359_3_alg».proof.Proof.GcnSpec
import proofs.«430691_j58471684768359_3_alg».proof.Proof.GcnMath
import proofs.«430691_j58471684768359_3_alg».proof.Proof.Edges
import proofs.«430691_j58471684768359_3_alg».proof.Proof.PreEdges
import proofs.«430691_j58471684768359_3_alg».proof.Proof.KHostAdj
import proofs.«430691_j58471684768359_3_alg».proof.Proof.KHostRest
import proofs.«430691_j58471684768359_3_alg».proof.Proof.KChain
import proofs.«430691_j58471684768359_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-! ## The kernel's result array -/

section KernelSide

open Cert.KernelIdeal Cert.KernelIdeal.Gen Cert.KernelIdeal.GenP

variable (m : (ℓ : Loc nD τ sig) → Buf (Elt Ideal) ℓ) (ρ : Dev nD → PrngReg)

/-- The result array the fifth kernel leaves on core `c` is the dense spelling of the network at the launch memory's
    argument arrays: the chain of the five kernels' array functions, with every array the host stretch built read at
    an entry (the adjacency and pooling matrices, the padded features, the weights as they are, the biases as rows). -/
theorem kernel_result (c : Dev nD) (hE : Cert.Edges.InRange (m ((c : Thread nD τ).loc main_arg1))) :
    (W6 m ρ c (Proc.devRef .tc main_v0) : S128x128.Idx → EReal) = fun idx =>
      Cert.GcnSpec.denseOut (Cert.Edges.node hE 0) (Cert.Edges.node hE 1)
        (fun n => ((m ((c : Thread nD τ).loc main_arg2) : S10000.Idx → BitVec 32) (ix1 n)).toInt)
        (fun n k => (m ((c : Thread nD τ).loc main_arg0) : S10000x256.Idx → EReal) (ix2 n k))
        (fun k c' => (m ((c : Thread nD τ).loc main_arg3) : S256x256.Idx → EReal) (ix2 k c')) (fun c' => (m ((c : Thread nD τ).loc main_arg4) : S256.Idx → EReal) (ix1 c'))
        (fun k c' => (m ((c : Thread nD τ).loc main_arg5) : S256x256.Idx → EReal) (ix2 k c')) (fun c' => (m ((c : Thread nD τ).loc main_arg6) : S256.Idx → EReal) (ix1 c'))
        (fun k c' => (m ((c : Thread nD τ).loc main_arg7) : S256x256.Idx → EReal) (ix2 k c')) (fun c' => (m ((c : Thread nD τ).loc main_arg8) : S256.Idx → EReal) (ix1 c'))
        (fun k t => (m ((c : Thread nD τ).loc main_arg9) : S256x128.Idx → EReal) (ix2 k t)) (fun t => (m ((c : Thread nD τ).loc main_arg10) : S128.Idx → EReal) (ix1 t))
        (idx 0) (idx 1) := by
  rw [Cert.KernelIdeal.KVal.kernel_value m ρ c]
  funext idx
  unfold Cert.GcnSpec.denseOut
  simp only [Cert.KernelIdeal.KHost.adj_read m ρ c hE, Cert.KernelIdeal.KHost.pool_read m ρ c, Cert.KernelIdeal.KHost.xpad_read m ρ c,
    Cert.KernelIdeal.KHost.w1_read m ρ c, Cert.KernelIdeal.KHost.w2_read m ρ c, Cert.KernelIdeal.KHost.w3_read m ρ c,
    Cert.KernelIdeal.KHost.b1_read m ρ c, Cert.KernelIdeal.KHost.b2_read m ρ c, Cert.KernelIdeal.KHost.b3_read m ρ c,
    Cert.KernelIdeal.KHost.lw_read m ρ c, Cert.KernelIdeal.KHost.lb_read m ρ c]

end KernelSide

/-! ## The claims -/

/-- The scatter spelling depends on the edge list only through its words: equal edge inputs give equal results. -/
theorem refOut_congr_edges {E E' : IVec ⟨2, ![2, 320000]⟩ 32} (h : E' = E) (hE : Cert.Edges.InRange E) (hE' : Cert.Edges.InRange E')
    (bg : Fin Cert.GcnSpec.NN → ℤ) (X : Fin Cert.GcnSpec.NN → Fin Cert.GcnSpec.ND → EReal)
    (W1 : Fin Cert.GcnSpec.ND → Fin Cert.GcnSpec.ND → EReal) (b1 : Fin Cert.GcnSpec.ND → EReal)
    (W2 : Fin Cert.GcnSpec.ND → Fin Cert.GcnSpec.ND → EReal) (b2 : Fin Cert.GcnSpec.ND → EReal)
    (W3 : Fin Cert.GcnSpec.ND → Fin Cert.GcnSpec.ND → EReal) (b3 : Fin Cert.GcnSpec.ND → EReal)
    (LW : Fin Cert.GcnSpec.ND → Fin Cert.GcnSpec.NG → EReal) (LB : Fin Cert.GcnSpec.NG → EReal) :
    Cert.GcnSpec.refOut (Cert.Edges.node hE' 0) (Cert.Edges.node hE' 1) bg X W1 b1 W2 b2 W3 b3 LW LB
      = Cert.GcnSpec.refOut (Cert.Edges.node hE 0) (Cert.Edges.node hE 1) bg X W1 b1 W2 b2 W3 b3 LW LB := by
  subst h; rfl

theorem frame_k : Cert.frame_Kernel := fun m ρ _ => Cert.Kernel.GenP.frame m ρ

theorem frame_ki : Cert.frame_KernelIdeal := fun m ρ _ => Cert.KernelIdeal.GenP.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end at the dense spelling of the network evaluated at the kernel's argument arrays: the kernel by
    `kernel_result` (off the run that keeps every buffer's last contents), the reference by its stage-by-stage reading,
    the agreement of the arguments, and the equality of the two spellings. The range of the edge words comes from the
    precondition's last conjunct. -/
theorem algebraic : Cert.algebraic_KernelIdeal_ReferenceIdeal := by
  intro m ρ m' ρ' hpre hagree
  have hE : ∀ c : Dev Cert.KernelIdeal.nD, Cert.Edges.InRange (m ((c.tc : Thread Cert.KernelIdeal.nD Cert.KernelIdeal.τ).loc Cert.KernelIdeal.main_arg1)) :=
    fun c => Cert.PreEdges.inRange_of_pre _ _ _ _ _ _ _ _ _ _ _ (hpre c)
  refine ⟨_, (θ_run Cert.KernelIdeal.defs _ _).mono (fun r h c =>
      ⟨(h c _ (Cert.KernelIdeal.GenP.mem_uc Cert.KernelIdeal.main_v0 (by decide))).trans (kernel_result m ρ c (hE c)),
       (h c _ (Cert.KernelIdeal.GenP.mem_uc Cert.KernelIdeal.main_arg0 (by decide))).trans (Cert.KernelIdeal.GenP.W6_main_arg0 m ρ c),
       (h c _ (Cert.KernelIdeal.GenP.mem_uc Cert.KernelIdeal.main_arg1 (by decide))).trans (Cert.KernelIdeal.GenP.W6_main_arg1 m ρ c),
       (h c _ (Cert.KernelIdeal.GenP.mem_uc Cert.KernelIdeal.main_arg2 (by decide))).trans (Cert.KernelIdeal.GenP.W6_main_arg2 m ρ c),
       (h c _ (Cert.KernelIdeal.GenP.mem_uc Cert.KernelIdeal.main_arg3 (by decide))).trans (Cert.KernelIdeal.GenP.W6_main_arg3 m ρ c),
       (h c _ (Cert.KernelIdeal.GenP.mem_uc Cert.KernelIdeal.main_arg4 (by decide))).trans (Cert.KernelIdeal.GenP.W6_main_arg4 m ρ c),
       (h c _ (Cert.KernelIdeal.GenP.mem_uc Cert.KernelIdeal.main_arg5 (by decide))).trans (Cert.KernelIdeal.GenP.W6_main_arg5 m ρ c),
       (h c _ (Cert.KernelIdeal.GenP.mem_uc Cert.KernelIdeal.main_arg6 (by decide))).trans (Cert.KernelIdeal.GenP.W6_main_arg6 m ρ c),
       (h c _ (Cert.KernelIdeal.GenP.mem_uc Cert.KernelIdeal.main_arg7 (by decide))).trans (Cert.KernelIdeal.GenP.W6_main_arg7 m ρ c),
       (h c _ (Cert.KernelIdeal.GenP.mem_uc Cert.KernelIdeal.main_arg8 (by decide))).trans (Cert.KernelIdeal.GenP.W6_main_arg8 m ρ c),
       (h c _ (Cert.KernelIdeal.GenP.mem_uc Cert.KernelIdeal.main_arg9 (by decide))).trans (Cert.KernelIdeal.GenP.W6_main_arg9 m ρ c),
       (h c _ (Cert.KernelIdeal.GenP.mem_uc Cert.KernelIdeal.main_arg10 (by decide))).trans (Cert.KernelIdeal.GenP.W6_main_arg10 m ρ c)⟩)
      (Cert.KernelIdeal.GenP.run_held m ρ), ?_⟩
  refine (θ_run Cert.ReferenceIdeal.defs _ _).mono (fun r h c => ⟨(h c).1.trans ?_, (h c).2⟩)
    (Cert.ReferenceIdeal.ValueP.run (F := Ideal) m' ρ')
  obtain ⟨h0, h1, h2, h3, h4, h5, h6, h7, h8, h9, h10⟩ := hagree c
  have hE' : Cert.Edges.InRange (m' ((c.tc : Thread Cert.ReferenceIdeal.nD Cert.ReferenceIdeal.τ).loc Cert.ReferenceIdeal.main_arg1)) := by
    rw [h1]; exact hE c
  rw [Cert.ReferenceIdeal.RefValue.ref_value m' c hE']
  funext idx
  rw [Cert.GcnMath.dense_eq_ref, refOut_congr_edges h1 (hE c) hE', h0, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
